-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x36x1024 : Shape := ⟨3, ![1024, 36, 1024]⟩
abbrev S1024x50x1024 : Shape := ⟨3, ![1024, 50, 1024]⟩
abbrev S1024 : Shape := ⟨1, ![1024]⟩
abbrev S512x2048 : Shape := ⟨2, ![512, 2048]⟩
abbrev S512 : Shape := ⟨1, ![512]⟩
abbrev S1x512 : Shape := ⟨2, ![1, 512]⟩
abbrev S1 : Shape := ⟨1, ![1]⟩
abbrev S_ : Shape := ⟨0, ![]⟩

class Facts : Prop where
  bcast_S_S1024x36x1024 : S_.BroadcastsInDim S1024x36x1024 (![] : Fin 0 → Fin S1024x36x1024.rank)
  reducesTo_S1024x36x1024_S_d0_1_2 : S1024x36x1024.ReducesTo [0, 1, 2] S_
  h_S_ : 0 < S_.numel
  bcast_S_S1024x50x1024 : S_.BroadcastsInDim S1024x50x1024 (![] : Fin 0 → Fin S1024x50x1024.rank)
  reducesTo_S1024x50x1024_S_d0_1_2 : S1024x50x1024.ReducesTo [0, 1, 2] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg2 : IVec S1024 32) (main_arg5 : FVec F S1x512 .f32) (main_arg6 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1x512 .f32 := Host.absf main_arg5
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_c_10 : IVec S_ 32 := constantI S_ 32 0#32
  let main_v29 : IVec S1024 32 := broadcastInDim S1024 ![] bcast_S_S1024 main_c_10
  let main_v30 : IVec S1024 1 := cmpi .ne main_arg2 main_v29
  let main_c_11 : IVec S_ 1 := constantI S_ 1 1#1
  let main_v31 : IVec S_ 1 := (fun x v => Host.reduce IntOp.andi x v reducesTo_S1024_S_d0 h_S_) main_v30 main_c_11
  let main_v32 : IVec S_ 1 := andi main_v28 main_v31
  main_v32

def fn {F : FTy → Type} [FloatOps F] (main_arg0 : FVec F S1024x36x1024 .f32) (main_arg1 : FVec F S1024x50x1024 .f32) (main_arg2 : IVec S1024 32) (main_arg3 : FVec F S512x2048 .f32) (main_arg4 : FVec F S512 .f32) (main_arg5 : FVec F S1x512 .f32) (main_arg6 : FVec F S1 .f32) : IVec S_ 1 :=
  let main_v0 : FVec F S1024x36x1024 .f32 := Host.absf main_arg0
  let main_cst : FVec F S_ .f32 := constant S_ .f32 0x7F800000#32
  let main_v1 : FVec F S1024x36x1024 .f32 := broadcastInDim S1024x36x1024 ![] bcast_S_S1024x36x1024 main_cst
  let main_v2 : IVec S1024x36x1024 1 := cmpf .olt main_v0 main_v1
  let main_c : IVec S_ 1 := constantI S_ 1 1#1
  let main_v3 : IVec S_ 1 := (fun x v => Host.reduce IntOp.andi x v reducesTo_S1024x36x1024_S_d0_1_2 h_S_) main_v2 main_c
  let main_v4 : FVec F S1024x50x1024 .f32 := Host.absf main_arg1
  let main_cst_0 : FVec F S_ .f32 := constant S_ .f32 0x7F800000#32
  let main_v5 : FVec F S1024x50x1024 .f32 := broadcastInDim S1024x50x1024 ![] bcast_S_S1024x50x1024 main_cst_0
  let main_v6 : IVec S1024x50x1024 1 := cmpf .olt main_v4 main_v5
  let main_c_1 : IVec S_ 1 := constantI S_ 1 1#1
  let main_v7 : IVec S_ 1 := (fun x v => Host.reduce IntOp.andi x v reducesTo_S1024x50x1024_S_d0_1_2 h_S_) main_v6 main_c_1
  let main_v8 : IVec S_ 1 := andi main_v3 main_v7
  let main_v9 : FVec F S512x2048 .f32 := Host.absf main_arg3
  let main_cst_2 : FVec F S_ .f32 := constant S_ .f32 0x7F800000#32
  let main_v10 : FVec F S512x2048 .f32 := broadcastInDim S512x2048 ![] bcast_S_S512x2048 main_cst_2
  let main_v11 : IVec S512x2048 1 := cmpf .olt main_v9 main_v10
  let main_c_3 : IVec S_ 1 := constantI S_ 1 1#1
  let main_v12 : IVec S_ 1 := (fun x v => Host.reduce IntOp.andi x v reducesTo_S512x2048_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg2 main_arg5 main_arg6 main_v13 main_v16
-- ==== Kernel.lean ====
abbrev S1024x36x1024 : Shape := ⟨3, ![1024, 36, 1024]⟩
abbrev S1024x50x1024 : Shape := ⟨3, ![1024, 50, 1024]⟩
abbrev S1024 : Shape := ⟨1, ![1024]⟩
abbrev S512x2048 : Shape := ⟨2, ![512, 2048]⟩
abbrev S512 : Shape := ⟨1, ![512]⟩
abbrev S1x512 : Shape := ⟨2, ![1, 512]⟩
abbrev S1 : Shape := ⟨1, ![1]⟩
abbrev S1024x1 : Shape := ⟨2, ![1024, 1]⟩
abbrev S1024x1024 : Shape := ⟨2, ![1024, 1024]⟩
abbrev S32x1 : Shape := ⟨2, ![32, 1]⟩
abbrev S32x50x1024 : Shape := ⟨3, ![32, 50, 1024]⟩
abbrev S32x1024 : Shape := ⟨2, ![32, 1024]⟩
abbrev S32x50 : Shape := ⟨2, ![32, 50]⟩
abbrev S32x50x1 : Shape := ⟨3, ![32, 50, 1]⟩
abbrev S32 : Shape := ⟨1, ![32]⟩
abbrev S1x50x1024 : Shape := ⟨3, ![1, 50, 1024]⟩
abbrev S50x1024 : Shape := ⟨2, ![50, 1024]⟩
abbrev S_ : Shape := ⟨0, ![]⟩
abbrev S50 : Shape := ⟨1, ![50]⟩
abbrev S50x1 : Shape := ⟨2, ![50, 1]⟩
abbrev S512x1024 : Shape := ⟨2, ![512, 1024]⟩
abbrev S1x1024 : Shape := ⟨2, ![1, 1024]⟩
abbrev S1024x512 : Shape := ⟨2, ![1024, 512]⟩
abbrev S1x1x512 : Shape := ⟨3, ![1, 1, 512]⟩
abbrev S1x1x1 : Shape := ⟨3, ![1, 1, 1]⟩
abbrev S32x36x1024 : Shape := ⟨3, ![32, 36, 1024]⟩
abbrev S32x36 : Shape := ⟨2, ![32, 36]⟩
abbrev S32x36x1 : Shape := ⟨3, ![32, 36, 1]⟩
abbrev S1152x1024 : Shape := ⟨2, ![1152, 1024]⟩
abbrev S1152x512 : Shape := ⟨2, ![1152, 512]⟩
abbrev S32x36x512 : Shape := ⟨3, ![32, 36, 512]⟩
abbrev S32x1x1 : Shape := ⟨3, ![32, 1, 1]⟩

abbrev nBuf : Space → Nat
  | .hbm => 58
  | .vmem => 15
  | .smem => 0
  | _ => 0

abbrev bufTy : (tb : Table) → Fin (tcTables nBuf tb) → BufTy
  | .hbm, ⟨0, _⟩ => ⟨S1024x36x1024, .f32⟩
  | .hbm, ⟨1, _⟩ => ⟨S1024x50x1024, .f32⟩
  | .hbm, ⟨2, _⟩ => ⟨S1024, .i32⟩
  | .hbm, ⟨3, _⟩ => ⟨S512x2048, .f32⟩
  | .hbm, ⟨4, _⟩ => ⟨S512, .f32⟩
  | .hbm, ⟨5, _⟩ => ⟨S1x512, .f32⟩
  | .hbm, ⟨6, _⟩ => ⟨S1, .f32⟩
  | .hbm, ⟨7, _⟩ => ⟨S1024x1, .i32⟩
  | .hbm, ⟨8, _⟩ => ⟨S1024x1024, .f32⟩
  | .hbm, ⟨9, _⟩ => ⟨S1x50x1024, .f32⟩
  | .hbm, ⟨10, _⟩ => ⟨S50x1024, .f32⟩
  | .hbm, ⟨11, _⟩ => ⟨S_, .f32⟩
  | .hbm, ⟨12, _⟩ => ⟨S50x1024, .f32⟩
  | .hbm, ⟨13, _⟩ => ⟨S50x1024, .i1⟩
  | .hbm, ⟨14, _⟩ => ⟨S_, .f32⟩
  | .hbm, ⟨15, _⟩ => ⟨S50x1024, .f32⟩
  | .hbm, ⟨16, _⟩ => ⟨S50x1024, .f32⟩
  | .hbm, ⟨17, _⟩ => ⟨S50x1024, .f32⟩
  | .hbm, ⟨18, _⟩ => ⟨S50x1024, .f32⟩
  | .hbm, ⟨19, _⟩ => ⟨S_, .f32⟩
  | .hbm, ⟨20, _⟩ => ⟨S50, .f32⟩
  | .hbm, ⟨21, _⟩ => ⟨S50x1, .f32⟩
  | .hbm, ⟨22, _⟩ => ⟨S50x1, .f32⟩
  | .hbm, ⟨23, _⟩ => ⟨S_, .f32⟩
  | .hbm, ⟨24, _⟩ => ⟨S50x1, .f32⟩
  | .hbm, ⟨25, _⟩ => ⟨S50x1, .f32⟩
  | .hbm, ⟨26, _⟩ => ⟨S50x1024, .f32⟩
  | .hbm, ⟨27, _⟩ => ⟨S50x1024, .f32⟩
  | .hbm, ⟨28, _⟩ => ⟨S1, .i32⟩
  | .hbm, ⟨29, _⟩ => ⟨S_, .i32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S50, .i32⟩
  | .hbm, ⟨34, _⟩ => ⟨S1, .i32⟩
  | .hbm, ⟨35, _⟩ => ⟨S_, .i32⟩
  | .hbm, ⟨36, _⟩ => ⟨S50, .i32⟩
  | .hbm, ⟨37, _⟩ => ⟨S50, .i1⟩
  | .hbm, ⟨38, _⟩ => ⟨S50, .f32⟩
  | .hbm, ⟨39, _⟩ => ⟨S50x1, .f32⟩
  | .hbm, ⟨40, _⟩ => ⟨S50x1024, .f32⟩
  | .hbm, ⟨41, _⟩ => ⟨S50x1024, .f32⟩
  | .hbm, ⟨42, _⟩ => ⟨S_, .f32⟩
  | .hbm, ⟨43, _⟩ => ⟨S1024, .f32⟩
  | .hbm, ⟨44, _⟩ => ⟨S1024, .f32⟩
  | .hbm, ⟨45, _⟩ => ⟨S1024, .f32⟩
  | .hbm, ⟨46, _⟩ => ⟨S512x1024, .f32⟩
  | .hbm, ⟨47, _⟩ => ⟨S512x1024, .f32⟩
  | .hbm, ⟨48, _⟩ => ⟨S1x1024, .f32⟩
  | .hbm, ⟨49, _⟩ => ⟨S1024x512, .f32⟩
  | .hbm, ⟨50, _⟩ => ⟨S1x512, .f32⟩
  | .hbm, ⟨51, _⟩ => ⟨S1x512, .f32⟩
  | .hbm, ⟨52, _⟩ => ⟨S1x512, .f32⟩
  | .hbm, ⟨53, _⟩ => ⟨S1x1x512, .f32⟩
  | .hbm, ⟨54, _⟩ => ⟨S1024x512, .f32⟩
  | .hbm, ⟨55, _⟩ => ⟨S1x1x512, .f32⟩
  | .hbm, ⟨56, _⟩ => ⟨S1x1x1, .f32⟩
  | .hbm, ⟨57, _⟩ => ⟨S1024x1024, .f32⟩
  | .local _ .vmem, ⟨0, _⟩ => ⟨S32x1, .i32⟩
  | .local _ .vmem, ⟨1, _⟩ => ⟨S32x1, .i32⟩
  | .local _ .vmem, ⟨2, _⟩ => ⟨S32x50x1024, .f32⟩
  | .local _ .vmem, ⟨3, _⟩ => ⟨S32x50x1024, .f32⟩
  | .local _ .vmem, ⟨4, _⟩ => ⟨S32x1024, .f32⟩
  | .local _ .vmem, ⟨5, _⟩ => ⟨S32x1024, .f32⟩
  | .local _ .vmem, ⟨6, _⟩ => ⟨S32x36x1024, .f32⟩
  | .local _ .vmem, ⟨7, _⟩ => ⟨S32x36x1024, .f32⟩
  | .local _ .vmem, ⟨8, _⟩ => ⟨S1024x512, .f32⟩
  | .local _ .vmem, ⟨9, _⟩ => ⟨S1x1x512, .f32⟩
  | .local _ .vmem, ⟨10, _⟩ => ⟨S1x1x512, .f32⟩
  | .local _ .vmem, ⟨11, _⟩ => ⟨S1x1x1, .f32⟩
  | .local _ .vmem, ⟨12, _⟩ => ⟨S1024x1024, .f32⟩
  | .local _ .vmem, ⟨13, _⟩ => ⟨S32x1024, .f32⟩
  | .local _ .vmem, ⟨14, _⟩ => ⟨S32x1024, .f32⟩
  | _, _ => ⟨S1024x36x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_v0 : Ref sig .tc := ⟨.hbm, 18, rfl⟩
abbrev main_call1_cst : Ref sig .tc := ⟨.hbm, 19, rfl⟩
abbrev main_call1_v1 : Ref sig .tc := ⟨.hbm, 20, rfl⟩
abbrev main_call1_v2 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x50x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S32x36x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S32x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S1024_S1024x1 : S1024.ShapeCasts S1024x1
  inb_S32x50x1024_S32x50x1024_0_0_0 : ∀ a, (![0, 0, 0] : Fin 3 → Nat) a + S32x50x1024.size a ≤ S32x50x1024.size a
  h_S32x50x1024 : 0 < S32x50x1024.numel
  reduces_S32x50x1024_S32x50 : S32x50x1024.Reduces [2] S32x50
  shapeCasts_S32x50_S32x50x1 : S32x50.ShapeCasts S32x50x1
  broadcasts_S32x50x1_S32x50x1024 : S32x50x1.Broadcasts S32x50x1024
  inb_S32x1_S32x1_0_0 : ∀ a, (![0, 0] : Fin 2 → Nat) a + S32x1.size a ≤ S32x1.size a
  h_S32x1 : 0 < S32x1.numel
  shapeCasts_S32x1_S32x1 : S32x1.ShapeCasts S32x1
  iota_S32x50_d1_w32 : S32x50.Iotas .tc 32 [1]
  broadcasts_S32x1_S32x50 : S32x1.Broadcasts S32x50
  natLt_1_32 : 1 < 32
  reduces_S32x50x1024_S32x1024 : S32x50x1024.Reduces [1] S32x1024
  broadcasts_S32x1_S32x1024 : S32x1.Broadcasts S32x1024
  reduces_S32x1024_S32 : S32x1024.Reduces [1] S32
  shapeCasts_S32_S32x1 : S32.ShapeCasts S32x1
  inb_S32x1024_S32x1024_0_0 : ∀ a, (![0, 0] : Fin 2 → Nat) a + S32x1024.size a ≤ S32x1024.size a
  h_S32x1024 : 0 < S32x1024.numel
  slices_S1024x50x1024_S1x50x1024_0_0_0 : S1024x50x1024.Slices ![0, 0, 0] S1x50x1024
  shapeCasts_S1x50x1024_S50x1024 : S1x50x1024.ShapeCasts S50x1024
  bcast_S_S50x1024 : S_.BroadcastsInDim S50x1024 (![] : Fin 0 → Fin S50x1024.rank)
  reducesTo_S50x1024_S50_d1 : S50x1024.ReducesTo [1] S50
  h_S_ : 0 < S_.numel
  bcast_S50_S50x1_0 : S50.BroadcastsInDim S50x1 (![0] : Fin 1 → Fin S50x1.rank)
  bcast_S_S50x1 : S_.BroadcastsInDim S50x1 (![] : Fin 0 → Fin S50x1.rank)
  bcast_S50x1_S50x1024_0_1 : S50x1.BroadcastsInDim S50x1024 (![0, 1] : Fin 2 → Fin S50x1024.rank)
  slices_S1024_S1_0 : S1024.Slices ![0] S1
  shapeCasts_S1_S_ : S1.ShapeCasts S_
  bcast_S_S50 : S_.BroadcastsInDim S50 (![] : Fin 0 → Fin S50.rank)
  reducesTo_S50x1024_S1024_d0 : S50x1024.ReducesTo [0] S1024
  bcast_S_S1024 : S_.BroadcastsInDim S1024 (![] : Fin 0 → Fin S1024.rank)
  slices_S512x2048_S512x1024_0_0 : S512x2048.Slices ![0, 0] S512x1024
  slices_S512x2048_S512x1024_0_1024 : S512x2048.Slices ![0, 1024] S512x1024
  bcast_S1024_S1x1024_1 : S1024.BroadcastsInDim S1x1024 (![1] : Fin 1 → Fin S1x1024.rank)
  transposes_S512x1024_S1024x512_1_0 : S512x1024.Transposes [1, 0] S1024x512
  bcast_S512_S1x512_1 : S512.BroadcastsInDim S1x512 (![1] : Fin 1 → Fin S1x512.rank)
  shapeCasts_S1x512_S1x1x512 : S1x512.ShapeCasts S1x1x512
  shapeCasts_S1_S1x1x1 : S1.ShapeCasts S1x1x1
  inb_S32x36x1024_S32x36x1024_0_0_0 : ∀ a, (![0, 0, 0] : Fin 3 → Nat) a + S32x36x1024.size a ≤ S32x36x1024.size a
  h_S32x36x1024 : 0 < S32x36x1024.numel
  reduces_S32x36x1024_S32x36 : S32x36x1024.Reduces [2] S32x36
  shapeCasts_S32x36_S32x36x1 : S32x36.ShapeCasts S32x36x1
  broadcasts_S32x36x1_S32x36x1024 : S32x36x1.Broadcasts S32x36x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S32x36x1024_S1152x1024 : S32x36x1024.ShapeCasts S1152x1024
  shapeCasts_S1152x512_S32x36x512 : S1152x512.ShapeCasts S32x36x512
  inb_S1x1x512_S1x1x512_0_0_0 : ∀ a, (![0, 0, 0] : Fin 3 → Nat) a + S1x1x512.size a ≤ S1x1x512.size a
  h_S1x1x512 : 0 < S1x1x512.numel
  shapeCasts_S1x1x512_S1x1x512 : S1x1x512.ShapeCasts S1x1x512
  broadcasts_S1x1x512_S32x36x512 : S1x1x512.Broadcasts S32x36x512
  reduces_S32x36x512_S32x36 : S32x36x512.Reduces [2] S32x36
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  broadcasts_S1x1x1_S32x36x1 : S1x1x1.Broadcasts S32x36x1
  reduces_S32x36x1_S32x1 : S32x36x1.Reduces [1] S32x1
  shapeCasts_S32x1_S32x1x1 : S32x1.ShapeCasts S32x1x1
  broadcasts_S32x1x1_S32x36x1 : S32x1x1.Broadcasts S32x36x1
  reduces_S32x36x1024_S32x1024 : S32x36x1024.Reduces [1] S32x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S1x1024_S1024x512_S1x512_1_0_0_1_n_n_wf : DotDims.WF S1x1024 S1024x512 S1x512 [1] [0] [0] [1] [] []
  dot_S1152x1024_S1024x512_S1152x512_1_0_0_1_n_n_wf : DotDims.WF S1152x1024 S1024x512 S1152x512 [1] [0] [0] [1] [] []
  dot_S32x1024_S1024x1024_S32x1024_1_1_0_0_n_n_wf : DotDims.WF S32x1024 S1024x1024 S32x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1.size a ≤ S1024x1.size a
  hwx0_0 : ∀ i : grid0.Coords, EltTy.bits .i32 = 32 ∨ (Rect.block (s := S1024x1) S32x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x50x1024.size a ≤ S1024x50x1024.size a
  hwx0_1 : ∀ i : grid0.Coords, EltTy.bits .f32 = 32 ∨ (Rect.block (s := S1024x50x1024) S32x50x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1024.size a ≤ S1024x1024.size a
  hwx0_2 : ∀ i : grid0.Coords, EltTy.bits .f32 = 32 ∨ (Rect.block (s := S1024x1024) S32x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x36x1024.size a ≤ S1024x36x1024.size a
  hwx1_0 : ∀ i : grid1.Coords, EltTy.bits .f32 = 32 ∨ (Rect.block (s := S1024x36x1024) S32x36x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x512.size a
  hwx1_1 : ∀ i : grid1.Coords, EltTy.bits .f32 = 32 ∨ (Rect.block (s := S1024x512) S1024x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1x512.size a ≤ S1x1x512.size a
  hwx1_2 : ∀ i : grid1.Coords, EltTy.bits .f32 = 32 ∨ (Rect.block (s := S1x1x512) S1x1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1x512.size a ≤ S1x1x512.size a
  hwx1_3 : ∀ i : grid1.Coords, EltTy.bits .f32 = 32 ∨ (Rect.block (s := S1x1x512) S1x1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1x1.size a ≤ S1x1x1.size a
  hwx1_4 : ∀ i : grid1.Coords, EltTy.bits .f32 = 32 ∨ (Rect.block (s := S1x1x1) S1x1x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S1024x1024.size a
  hwx1_5 : ∀ i : grid1.Coords, EltTy.bits .f32 = 32 ∨ (Rect.block (s := S1024x1024) S1024x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S32x1024.size a ≤ S1024x1024.size a
  hwx1_6 : ∀ i : grid1.Coords, EltTy.bits .f32 = 32 ∨ (Rect.block (s := S1024x1024) S32x1024.size (cc1_transform_6 i) (hinb1_6 i)).WholeWords (EltTy.packing .f32)

variable [Facts₀]

def dot_S1x1024_S1024x512_S1x512_1_0_0_1_n_n : DotDims S1x1024 S1024x512 S1x512 where
  lhsContracting := [1]
  rhsContracting := [0]
  lhsNonContracting := [0]
  rhsNonContracting := [1]
  lhsBatch := []
  rhsBatch := []
  wf := dot_S1x1024_S1024x512_S1x512_1_0_0_1_n_n_wf
def dot_S1152x1024_S1024x512_S1152x512_1_0_0_1_n_n : DotDims S1152x1024 S1024x512 S1152x512 where
  lhsContracting := [1]
  rhsContracting := [0]
  lhsNonContracting := [0]
  rhsNonContracting := [1]
  lhsBatch := []
  rhsBatch := []
  wf := dot_S1152x1024_S1024x512_S1152x512_1_0_0_1_n_n_wf
def dot_S32x1024_S1024x1024_S32x1024_1_1_0_0_n_n : DotDims S32x1024 S1024x1024 S32x1024 where
  lhsContracting := [1]
  rhsContracting := [1]
  lhsNonContracting := [0]
  rhsNonContracting := [0]
  lhsBatch := []
  rhsBatch := []
  wf := dot_S32x1024_S1024x1024_S32x1024_1_1_0_0_n_n_wf

abbrev win0_0 : Pipeline.Window sig grid0 :=
  Pipeline.Window.ofSpec (Memref.whole main_v0) S32x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x50x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S32x36x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S1024x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1x1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S1024x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S32x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1024x36x1024 : Shape := ⟨3, ![1024, 36, 1024]⟩
abbrev S1024x50x1024 : Shape := ⟨3, ![1024, 50, 1024]⟩
abbrev S1024 : Shape := ⟨1, ![1024]⟩
abbrev S512x2048 : Shape := ⟨2, ![512, 2048]⟩
abbrev S512 : Shape := ⟨1, ![512]⟩
abbrev S1x512 : Shape := ⟨2, ![1, 512]⟩
abbrev S1 : Shape := ⟨1, ![1]⟩
abbrev S_ : Shape := ⟨0, ![]⟩
abbrev S1024x50 : Shape := ⟨2, ![1024, 50]⟩
abbrev S1024x50x1 : Shape := ⟨3, ![1024, 50, 1]⟩
abbrev S1024x36 : Shape := ⟨2, ![1024, 36]⟩
abbrev S1024x36x1 : Shape := ⟨3, ![1024, 36, 1]⟩
abbrev S50 : Shape := ⟨1, ![50]⟩
abbrev S1x50 : Shape := ⟨2, ![1, 50]⟩
abbrev S1024x1 : Shape := ⟨2, ![1024, 1]⟩
abbrev S1024x1024 : Shape := ⟨2, ![1024, 1024]⟩
abbrev S1x1024 : Shape := ⟨2, ![1, 1024]⟩
abbrev S1024x36x2048 : Shape := ⟨3, ![1024, 36, 2048]⟩
abbrev S1024x36x512 : Shape := ⟨3, ![1024, 36, 512]⟩
abbrev S1x1x512 : Shape := ⟨3, ![1, 1, 512]⟩
abbrev S1x1x1 : Shape := ⟨3, ![1, 1, 1]⟩
abbrev S1024x1x1 : Shape := ⟨3, ![1024, 1, 1]⟩

abbrev nBuf : Space → Nat
  | .hbm => 116
  | .vmem => 0
  | .smem => 0
  | _ => 0

abbrev bufTy : (tb : Table) → Fin (tcTables nBuf tb) → BufTy
  | .hbm, ⟨0, _⟩ => ⟨S1024x36x1024, .f32⟩
  | .hbm, ⟨1, _⟩ => ⟨S1024x50x1024, .f32⟩
  | .hbm, ⟨2, _⟩ => ⟨S1024, .i32⟩
  | .hbm, ⟨3, _⟩ => ⟨S512x2048, .f32⟩
  | .hbm, ⟨4, _⟩ => ⟨S512, .f32⟩
  | .hbm, ⟨5, _⟩ => ⟨S1x512, .f32⟩
  | .hbm, ⟨6, _⟩ => ⟨S1, .f32⟩
  | .hbm, ⟨7, _⟩ => ⟨S_, .f32⟩
  | .hbm, ⟨8, _⟩ => ⟨S1024x50x1024, .f32⟩
  | .hbm, ⟨9, _⟩ => ⟨S1024x50x1024, .i1⟩
  | .hbm, ⟨10, _⟩ => ⟨S_, .f32⟩
  | .hbm, ⟨11, _⟩ => ⟨S1024x50x1024, .f32⟩
  | .hbm, ⟨12, _⟩ => ⟨S1024x50x1024, .f32⟩
  | .hbm, ⟨13, _⟩ => ⟨S1024x50x1024, .f32⟩
  | .hbm, ⟨14, _⟩ => ⟨S1024x50x1024, .f32⟩
  | .hbm, ⟨15, _⟩ => ⟨S_, .f32⟩
  | .hbm, ⟨16, _⟩ => ⟨S1024x50, .f32⟩
  | .hbm, ⟨17, _⟩ => ⟨S1024x50x1, .f32⟩
  | .hbm, ⟨18, _⟩ => ⟨S1024x50x1, .f32⟩
  | .hbm, ⟨19, _⟩ => ⟨S_, .f32⟩
  | .hbm, ⟨20, _⟩ => ⟨S_, .f32⟩
  | .hbm, ⟨21, _⟩ => ⟨S1024x50x1, .f32⟩
  | .hbm, ⟨22, _⟩ => ⟨S1024x50x1, .f32⟩
  | .hbm, ⟨23, _⟩ => ⟨S1024x50x1024, .f32⟩
  | .hbm, ⟨24, _⟩ => ⟨S1024x50x1024, .f32⟩
  | .hbm, ⟨25, _⟩ => ⟨S_, .f32⟩
  | .hbm, ⟨26, _⟩ => ⟨S1024x36x1024, .f32⟩
  | .hbm, ⟨27, _⟩ => ⟨S1024x36x1024, .i1⟩
  | .hbm, ⟨28, _⟩ => ⟨S_, .f32⟩
  | .hbm, ⟨29, _⟩ => ⟨S1024x36x1024, .f32⟩
  | .hbm, ⟨30, _⟩ => ⟨S1024x36x1024, .f32⟩
  | .hbm, ⟨31, _⟩ => ⟨S1024x36x1024, .f32⟩
  | .hbm, ⟨32, _⟩ => ⟨S1024x36x1024, .f32⟩
  | .hbm, ⟨33, _⟩ => ⟨S_, .f32⟩
  | .hbm, ⟨34, _⟩ => ⟨S1024x36, .f32⟩
  | .hbm, ⟨35, _⟩ => ⟨S1024x36x1, .f32⟩
  | .hbm, ⟨36, _⟩ => ⟨S1024x36x1, .f32⟩
  | .hbm, ⟨37, _⟩ => ⟨S_, .f32⟩
  | .hbm, ⟨38, _⟩ => ⟨S_, .f32⟩
  | .hbm, ⟨39, _⟩ => ⟨S1024x36x1, .f32⟩
  | .hbm, ⟨40, _⟩ => ⟨S1024x36x1, .f32⟩
  | .hbm, ⟨41, _⟩ => ⟨S1024x36x1024, .f32⟩
  | .hbm, ⟨42, _⟩ => ⟨S1024x36x1024, .f32⟩
  | .hbm, ⟨43, _⟩ => ⟨S50, .i32⟩
  | .hbm, ⟨44, _⟩ => ⟨S1x50, .i32⟩
  | .hbm, ⟨45, _⟩ => ⟨S1024x1, .i32⟩
  | .hbm, ⟨46, _⟩ => ⟨S1024x50, .i32⟩
  | .hbm, ⟨47, _⟩ => ⟨S1024x50, .i32⟩
  | .hbm, ⟨48, _⟩ => ⟨S1024x50, .i1⟩
  | .hbm, ⟨49, _⟩ => ⟨S1024x50, .f32⟩
  | .hbm, ⟨50, _⟩ => ⟨S1024x50x1, .f32⟩
  | .hbm, ⟨51, _⟩ => ⟨S1024x50x1024, .f32⟩
  | .hbm, ⟨52, _⟩ => ⟨S1024x50x1024, .f32⟩
  | .hbm, ⟨53, _⟩ => ⟨S_, .f32⟩
  | .hbm, ⟨54, _⟩ => ⟨S1024x1024, .f32⟩
  | .hbm, ⟨55, _⟩ => ⟨S1024x1, .i32⟩
  | .hbm, ⟨56, _⟩ => ⟨S1024x1, .f32⟩
  | .hbm, ⟨57, _⟩ => ⟨S1024x1024, .f32⟩
  | .hbm, ⟨58, _⟩ => ⟨S1024x1024, .f32⟩
  | .hbm, ⟨59, _⟩ => ⟨S1x1024, .f32⟩
  | .hbm, ⟨60, _⟩ => ⟨S1024, .f32⟩
  | .hbm, ⟨61, _⟩ => ⟨S1024x36x1024, .f32⟩
  | .hbm, ⟨62, _⟩ => ⟨S1024x36x2048, .f32⟩
  | .hbm, ⟨63, _⟩ => ⟨S1024x36x512, .f32⟩
  | .hbm, ⟨64, _⟩ => ⟨S1x1x512, .f32⟩
  | .hbm, ⟨65, _⟩ => ⟨S1024x36x512, .f32⟩
  | .hbm, ⟨66, _⟩ => ⟨S1024x36x512, .f32⟩
  | .hbm, ⟨67, _⟩ => ⟨S_, .f32⟩
  | .hbm, ⟨68, _⟩ => ⟨S1024x36x512, .f32⟩
  | .hbm, ⟨69, _⟩ => ⟨S1024x36x512, .f32⟩
  | .hbm, ⟨70, _⟩ => ⟨S1024x36x1, .f32⟩
  | .hbm, ⟨71, _⟩ => ⟨S1x1x1, .f32⟩
  | .hbm, ⟨72, _⟩ => ⟨S1024x36x1, .f32⟩
  | .hbm, ⟨73, _⟩ => ⟨S1024x36x1, .f32⟩
  | .hbm, ⟨74, _⟩ => ⟨S_, .f32⟩
  | .hbm, ⟨75, _⟩ => ⟨S1024x1, .f32⟩
  | .hbm, ⟨76, _⟩ => ⟨S_, .f32⟩
  | .hbm, ⟨77, _⟩ => ⟨S1024x1, .f32⟩
  | .hbm, ⟨78, _⟩ => ⟨S1024x1, .f32⟩
  | .hbm, ⟨79, _⟩ => ⟨S1024x1x1, .f32⟩
  | .hbm, ⟨80, _⟩ => ⟨S1024x36x1, .f32⟩
  | .hbm, ⟨81, _⟩ => ⟨S1024x36x1, .f32⟩
  | .hbm, ⟨82, _⟩ => ⟨S1024x36x1, .f32⟩
  | .hbm, ⟨83, _⟩ => ⟨S_, .f32⟩
  | .hbm, ⟨84, _⟩ => ⟨S1024x1, .f32⟩
  | .hbm, ⟨85, _⟩ => ⟨S1024x1x1, .f32⟩
  | .hbm, ⟨86, _⟩ => ⟨S1024x36x1, .f32⟩
  | .hbm, ⟨87, _⟩ => ⟨S1024x36x1, .f32⟩
  | .hbm, ⟨88, _⟩ => ⟨S1024x36x1024, .f32⟩
  | .hbm, ⟨89, _⟩ => ⟨S1024x36x1024, .f32⟩
  | .hbm, ⟨90, _⟩ => ⟨S_, .f32⟩
  | .hbm, ⟨91, _⟩ => ⟨S1024x1024, .f32⟩
  | .hbm, ⟨92, _⟩ => ⟨S1024x1024, .f32⟩
  | .hbm, ⟨93, _⟩ => ⟨S_, .f32⟩
  | .hbm, ⟨94, _⟩ => ⟨S1024, .f32⟩
  | .hbm, ⟨95, _⟩ => ⟨S1024x1, .f32⟩
  | .hbm, ⟨96, _⟩ => ⟨S1024x1, .f32⟩
  | .hbm, ⟨97, _⟩ => ⟨S_, .f32⟩
  | .hbm, ⟨98, _⟩ => ⟨S_, .f32⟩
  | .hbm, ⟨99, _⟩ => ⟨S1024x1, .f32⟩
  | .hbm, ⟨100, _⟩ => ⟨S1024x1, .f32⟩
  | .hbm, ⟨101, _⟩ => ⟨S1024x1024, .f32⟩
  | .hbm, ⟨102, _⟩ => ⟨S1024x1024, .f32⟩
  | .hbm, ⟨103, _⟩ => ⟨S1024x1024, .f32⟩
  | .hbm, ⟨104, _⟩ => ⟨S_, .f32⟩
  | .hbm, ⟨105, _⟩ => ⟨S1024, .f32⟩
  | .hbm, ⟨106, _⟩ => ⟨S1024x1, .f32⟩
  | .hbm, ⟨107, _⟩ => ⟨S1024x1, .f32⟩
  | .hbm, ⟨108, _⟩ => ⟨S_, .f32⟩
  | .hbm, ⟨109, _⟩ => ⟨S_, .f32⟩
  | .hbm, ⟨110, _⟩ => ⟨S1024x1, .f32⟩
  | .hbm, ⟨111, _⟩ => ⟨S1024x1, .f32⟩
  | .hbm, ⟨112, _⟩ => ⟨S1024x1024, .f32⟩
  | .hbm, ⟨113, _⟩ => ⟨S1024x1024, .f32⟩
  | .hbm, ⟨114, _⟩ => ⟨S1024x1024, .f32⟩
  | .hbm, ⟨115, _⟩ => ⟨S1024x1024, .f32⟩
  | _, _ => ⟨S1024x36x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_1 : Ref sig .tc := ⟨.hbm, 19, rfl⟩
abbrev main_call2_v0 : Ref sig .tc := ⟨.hbm, 20, rfl⟩
abbrev main_call2_v1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_cst_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call4_v0 : Ref sig .tc := ⟨.hbm, 32, rfl⟩
abbrev main_call4_cst : Ref sig .tc := ⟨.hbm, 33, rfl⟩
abbrev main_call4_v1 : Ref sig .tc := ⟨.hbm, 34, rfl⟩
abbrev main_call4_v2 : Ref sig .tc := ⟨.hbm, 35, rfl⟩
abbrev main_v14 : Ref sig .tc := ⟨.hbm, 36, rfl⟩
abbrev main_cst_4 : Ref sig .tc := ⟨.hbm, 37, rfl⟩
abbrev main_call5_v0 : Ref sig .tc := ⟨.hbm, 38, rfl⟩
abbrev main_call5_v1 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_5 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_call6_cst : Ref sig .tc := ⟨.hbm, 67, rfl⟩
abbrev main_call6_v0 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_6 : Ref sig .tc := ⟨.hbm, 74, rfl⟩
abbrev main_v46 : Ref sig .tc := ⟨.hbm, 75, rfl⟩
abbrev main_cst_7 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_9 : Ref sig .tc := ⟨.hbm, 90, rfl⟩
abbrev main_v59 : Ref sig .tc := ⟨.hbm, 91, rfl⟩
abbrev main_call7_v0 : Ref sig .tc := ⟨.hbm, 92, rfl⟩
abbrev main_call7_cst : Ref sig .tc := ⟨.hbm, 93, rfl⟩
abbrev main_call7_v1 : Ref sig .tc := ⟨.hbm, 94, rfl⟩
abbrev main_call7_v2 : Ref sig .tc := ⟨.hbm, 95, rfl⟩
abbrev main_v60 : Ref sig .tc := ⟨.hbm, 96, rfl⟩
abbrev main_cst_10 : Ref sig .tc := ⟨.hbm, 97, rfl⟩
abbrev main_call8_v0 : Ref sig .tc := ⟨.hbm, 98, rfl⟩
abbrev main_call8_v1 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_call9_v0 : Ref sig .tc := ⟨.hbm, 103, rfl⟩
abbrev main_call9_cst : Ref sig .tc := ⟨.hbm, 104, rfl⟩
abbrev main_call9_v1 : Ref sig .tc := ⟨.hbm, 105, rfl⟩
abbrev main_call9_v2 : Ref sig .tc := ⟨.hbm, 106, rfl⟩
abbrev main_v64 : Ref sig .tc := ⟨.hbm, 107, rfl⟩
abbrev main_cst_11 : Ref sig .tc := ⟨.hbm, 108, rfl⟩
abbrev main_call10_v0 : Ref sig .tc := ⟨.hbm, 109, rfl⟩
abbrev main_call10_v1 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩

abbrev nD : Nat := 1
abbrev τ : Topo := Topo.v7x

variable {F : FTy → Type} [FloatOps F]

class Facts₀ : Prop where
  bcast_S_S1024x50x1024 : S_.BroadcastsInDim S1024x50x1024 (![] : Fin 0 → Fin S1024x50x1024.rank)
  reducesTo_S1024x50x1024_S1024x50_d2 : S1024x50x1024.ReducesTo [2] S1024x50
  h_S_ : 0 < S_.numel
  bcast_S1024x50_S1024x50x1_0_1 : S1024x50.BroadcastsInDim S1024x50x1 (![0, 1] : Fin 2 → Fin S1024x50x1.rank)
  bcast_S_S1024x50x1 : S_.BroadcastsInDim S1024x50x1 (![] : Fin 0 → Fin S1024x50x1.rank)
  bcast_S1024x50x1_S1024x50x1024_0_1_2 : S1024x50x1.BroadcastsInDim S1024x50x1024 (![0, 1, 2] : Fin 3 → Fin S1024x50x1024.rank)
  bcast_S_S1024x36x1024 : S_.BroadcastsInDim S1024x36x1024 (![] : Fin 0 → Fin S1024x36x1024.rank)
  reducesTo_S1024x36x1024_S1024x36_d2 : S1024x36x1024.ReducesTo [2] S1024x36
  bcast_S1024x36_S1024x36x1_0_1 : S1024x36.BroadcastsInDim S1024x36x1 (![0, 1] : Fin 2 → Fin S1024x36x1.rank)
  bcast_S_S1024x36x1 : S_.BroadcastsInDim S1024x36x1 (![] : Fin 0 → Fin S1024x36x1.rank)
  bcast_S1024x36x1_S1024x36x1024_0_1_2 : S1024x36x1.BroadcastsInDim S1024x36x1024 (![0, 1, 2] : Fin 3 → Fin S1024x36x1024.rank)
  bcast_S50_S1x50_1 : S50.BroadcastsInDim S1x50 (![1] : Fin 1 → Fin S1x50.rank)
  bcast_S1024_S1024x1_0 : S1024.BroadcastsInDim S1024x1 (![0] : Fin 1 → Fin S1024x1.rank)
  bcast_S1x50_S1024x50_0_1 : S1x50.BroadcastsInDim S1024x50 (![0, 1] : Fin 2 → Fin S1024x50.rank)
  bcast_S1024x1_S1024x50_0_1 : S1024x1.BroadcastsInDim S1024x50 (![0, 1] : Fin 2 → Fin S1024x50.rank)
  reducesTo_S1024x50x1024_S1024x1024_d1 : S1024x50x1024.ReducesTo [1] S1024x1024
  bcast_S1024x1_S1024x1024_0_1 : S1024x1.BroadcastsInDim S1024x1024 (![0, 1] : Fin 2 → Fin S1024x1024.rank)
  slices_S1024x1024_S1x1024_0_0 : S1024x1024.Slices ![0, 0] S1x1024
  shapeCasts_S1x1024_S1024 : S1x1024.ShapeCasts S1024
  bcast_S1024_S1024x36x1024_2 : S1024.BroadcastsInDim S1024x36x1024 (![2] : Fin 1 → Fin S1024x36x1024.rank)
  concatenates_S1024x36x1024_S1024x36x1024_S1024x36x2048_d2 : Shape.Concatenates [S1024x36x1024, S1024x36x1024] S1024x36x2048 2
  bcast_S512_S1x1x512_2 : S512.BroadcastsInDim S1x1x512 (![2] : Fin 1 → Fin S1x1x512.rank)
  bcast_S1x1x512_S1024x36x512_0_1_2 : S1x1x512.BroadcastsInDim S1024x36x512 (![0, 1, 2] : Fin 3 → Fin S1024x36x512.rank)
  bcast_S_S1024x36x512 : S_.BroadcastsInDim S1024x36x512 (![] : Fin 0 → Fin S1024x36x512.rank)
  bcast_S1_S1x1x1_2 : S1.BroadcastsInDim S1x1x1 (![2] : Fin 1 → Fin S1x1x1.rank)
  bcast_S1x1x1_S1024x36x1_0_1_2 : S1x1x1.BroadcastsInDim S1024x36x1 (![0, 1, 2] : Fin 3 → Fin S1024x36x1.rank)
  reducesTo_S1024x36x1_S1024x1_d1 : S1024x36x1.ReducesTo [1] S1024x1
  bcast_S_S1024x1 : S_.BroadcastsInDim S1024x1 (![] : Fin 0 → Fin S1024x1.rank)
  bcast_S1024x1_S1024x1x1_0_2 : S1024x1.BroadcastsInDim S1024x1x1 (![0, 2] : Fin 2 → Fin S1024x1x1.rank)
  bcast_S1024x1x1_S1024x36x1_0_1_2 : S1024x1x1.BroadcastsInDim S1024x36x1 (![0, 1, 2] : Fin 3 → Fin S1024x36x1.rank)
  reducesTo_S1024x36x1024_S1024x1024_d1 : S1024x36x1024.ReducesTo [1] S1024x1024
  reducesTo_S1024x1024_S1024_d1 : S1024x1024.ReducesTo [1] S1024
  transposes_S1024x1024_S1024x1024_1_0 : S1024x1024.Transposes [1, 0] S1024x1024
  dot_S1024x36x2048_S512x2048_S1024x36x512_2_1_01_0_n_n_wf : DotDims.WF S1024x36x2048 S512x2048 S1024x36x512 [2] [1] [0, 1] [0] [] []
  dot_S1024x36x512_S1x512_S1024x36x1_2_1_01_0_n_n_wf : DotDims.WF S1024x36x512 S1x512 S1024x36x1 [2] [1] [0, 1] [0] [] []
  dot_S1024x1024_S1024x1024_S1024x1024_1_0_0_1_n_n_wf : DotDims.WF S1024x1024 S1024x1024 S1024x1024 [1] [0] [0] [1] [] []

variable [Facts₀]

def dot_S1024x36x2048_S512x2048_S1024x36x512_2_1_01_0_n_n : DotDims S1024x36x2048 S512x2048 S1024x36x512 where
  lhsContracting := [2]
  rhsContracting := [1]
  lhsNonContracting := [0, 1]
  rhsNonContracting := [0]
  lhsBatch := []
  rhsBatch := []
  wf := dot_S1024x36x2048_S512x2048_S1024x36x512_2_1_01_0_n_n_wf
def dot_S1024x36x512_S1x512_S1024x36x1_2_1_01_0_n_n : DotDims S1024x36x512 S1x512 S1024x36x1 where
  lhsContracting := [2]
  rhsContracting := [1]
  lhsNonContracting := [0, 1]
  rhsNonContracting := [0]
  lhsBatch := []
  rhsBatch := []
  wf := dot_S1024x36x512_S1x512_S1024x36x1_2_1_01_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

class Facts : Prop extends Facts₀ where

variable [Facts]
-- ==== Proof.Spec.lean ====
/-
  The mathematics both programs compute, over the extended reals, entry by entry.

  A row of features is passed through the leaky map (x where x ≥ 0, else a tenth of x) and divided by the larger of
  its Euclidean norm and a small constant (`rown`). A caption's token rows are averaged over the tokens a length
  word marks valid (`pool`, divided by the length) and the average is normalised again (`l2n`). The first caption's
  average is the query: with a region's features it goes through one affine layer and the positive part, a second
  affine layer gives one logit per region, the logits' softmax over the regions weighs the regions' features, and
  the normalised weighted sum is paired with every caption's normalised average by an inner product.

  The two programs differ in two places. One divides the pooled sum by the larger of the length and one, the other
  by the length itself: for a length of at least one these are one number, and for a negative length no token is
  valid, the pooled sum is zero, and zero divided by any number other than zero is zero (`txtK_eq_txtR`). One
  multiplies the concatenation of query and region features by the whole first weight matrix, the other multiplies
  the two halves apart and adds: a sum over two thousand and forty-eight terms split in the middle
  (`hpK_eq_hpR`), which needs only that addition of extended reals is commutative and associative.
-/
import Idealize.ShloMosaic.PureOps.Ideal
import Idealize.ShloMosaic.PureOps.Ideal.Laws
import Idealize.ShloMosaic.Lib.IdealHost
import Idealize.ShloMosaic.Lib.StableHlo.Predicate

noncomputable section

open scoped BigOperators

namespace Cert.Spec

open Idealize.ShloMosaic

/-- The five constants the programs carry, as the extended reals their words denote. -/
abbrev c0 : EReal := Ideal.ofBits .f32 0x00000000#32
abbrev c01 : EReal := Ideal.ofBits .f32 0x3DCCCCCD#32
abbrev ceps : EReal := Ideal.ofBits .f32 0x2B8CBCCC#32
abbrev c1 : EReal := Ideal.ofBits .f32 0x3F800000#32
abbrev cninf : EReal := Ideal.ofBits .f32 0xFF800000#32

/-- The leaky map: `x` where `x ≥ 0`, a tenth of `x` elsewhere. -/
def lk (x : EReal) : EReal := Scalar.select (Ideal.cmp .oge x c0) x (c01 * x)

/-- The divisor of a normalisation: the square root of the sum of squares, but at least the small constant. -/
def nrm (s : EReal) : EReal := max (Ideal.sqrt s) ceps

/-- Entry `d` of a row after the leaky map and the normalisation. -/
def rown {n : ℕ} (row : Fin n → EReal) (d : Fin n) : EReal :=
  Ideal.div (lk (row d)) (nrm (∑ k, lk (row k) * lk (row k)))

/-- Entry `d` of a row after the normalisation alone. -/
def l2n {n : ℕ} (row : Fin n → EReal) (d : Fin n) : EReal :=
  Ideal.div (row d) (nrm (∑ k, row k * row k))

/-- Token `t` is valid for the length word `L`: one if `t < L` as signed numbers, else zero. -/
def msk (L : BitVec 32) (t : Fin 50) : EReal :=
  (((IntOp.cmpi .slt (BitVec.ofNat 32 t.val) L).toNat : ℝ) : EReal)

/-- The length word as a number, read signed. -/
def lenf (L : BitVec 32) : EReal := ((L.toInt : ℝ) : EReal)

/-- The sum over the valid tokens of a caption's normalised token rows, at feature `d`. -/
def pool (cap : Fin 50 → Fin 1024 → EReal) (L : BitVec 32) (d : Fin 1024) : EReal :=
  ∑ t, rown (cap t) d * msk L t

/-- The pooled sum over the larger of the length and one. -/
def txtK (cap : Fin 50 → Fin 1024 → EReal) (L : BitVec 32) (d : Fin 1024) : EReal :=
  Ideal.div (pool cap L d) (max (lenf L) c1)

/-- The pooled sum over the length. -/
def txtR (cap : Fin 50 → Fin 1024 → EReal) (L : BitVec 32) (d : Fin 1024) : EReal :=
  Ideal.div (pool cap L d) (lenf L)

/-- Zero over anything but zero is zero. -/
theorem div_zero_left {y : EReal} (hy : y ≠ 0) : Ideal.div 0 y = 0 := by
  unfold Ideal.div; rw [if_neg hy, zero_mul]

/-- Under a negative length no token is valid: a token's number is not below a negative number. -/
theorem msk_of_neg {L : BitVec 32} (hL : L.toInt < 0) (t : Fin 50) : msk L t = 0 := by
  unfold msk
  have h1 : (BitVec.ofNat 32 t.val).toInt = t.val :=
    StableHlo.Predicate.toInt_ofNat_small t.val (by have := t.isLt; omega)
  have h2 : IntOp.cmpi .slt (BitVec.ofNat 32 t.val) L = 0#1 := by
    unfold IntOp.cmpi
    have : (BitVec.ofNat 32 t.val).slt L = false := by
      simp only [BitVec.slt, h1, decide_eq_false_iff_not, not_lt]; omega
    rw [this]; rfl
  rw [h2]; simp

/-- THE FIRST LAW. For a length word other than zero the two quotients are one number: a length of at least one is
    its own maximum with one; under a negative length the pooled sum is zero and both divisors are other than zero. -/
theorem txtK_eq_txtR (cap : Fin 50 → Fin 1024 → EReal) (L : BitVec 32) (hL : L ≠ 0#32) (d : Fin 1024) :
    txtK cap L d = txtR cap L d := by
  unfold txtK txtR
  show Ideal.div (pool cap L d) (max (lenf L) (Ideal.ofBits .f32 0x3F800000#32)) = _
  rw [Ideal.ofBits_one_f32]
  rcases lt_or_ge L.toInt 1 with h | h
  · have hne : L.toInt ≠ 0 := fun e => hL (BitVec.eq_of_toInt_eq (by rw [e]; rfl))
    have hneg : L.toInt < 0 := by omega
    have hp : pool cap L d = 0 := by
      unfold pool; exact Finset.sum_eq_zero fun t _ => by rw [msk_of_neg hneg, mul_zero]
    rw [hp, div_zero_left, div_zero_left]
    · unfold lenf
      have : ((L.toInt : ℝ)) ≠ 0 := by exact_mod_cast hne
      exact_mod_cast this
    · exact ne_of_gt (lt_of_lt_of_le zero_lt_one (le_max_right _ _))
  · have : max (lenf L) 1 = lenf L := by
      apply max_eq_left; unfold lenf
      have : (1 : ℝ) ≤ (L.toInt : ℝ) := by exact_mod_cast h
      exact_mod_cast this
    rw [this]

/-- The first layer's pre-activation at hidden unit `h`, the two halves of the weight matrix apart: the region's
    half, plus the query's half with the bias. -/
def hpK (q x : Fin 1024 → EReal) (w0 : Fin 512 → Fin (1024 + 1024) → EReal) (b0 : Fin 512 → EReal) (h : Fin 512) : EReal :=
  (∑ f : Fin 1024, x f * w0 h (Fin.natAdd 1024 f)) + ((∑ f : Fin 1024, q f * w0 h (Fin.castAdd 1024 f)) + b0 h)

/-- The same over the concatenation of query and region features, then the bias. -/
def hpR (q x : Fin 1024 → EReal) (w0 : Fin 512 → Fin (1024 + 1024) → EReal) (b0 : Fin 512 → EReal) (h : Fin 512) : EReal :=
  (∑ f : Fin (1024 + 1024), Fin.append q x f * w0 h f) + b0 h

/-- THE SECOND LAW. A sum over the concatenation splits in the middle; the rest is commuting and re-bracketing. -/
theorem hpK_eq_hpR (q x : Fin 1024 → EReal) (w0 : Fin 512 → Fin (1024 + 1024) → EReal) (b0 : Fin 512 → EReal) (h : Fin 512) :
    hpK q x w0 b0 h = hpR q x w0 b0 h := by
  unfold hpK hpR
  rw [Fin.sum_univ_add]
  simp only [Fin.append_left, Fin.append_right]
  rw [add_comm (∑ f : Fin 1024, q f * w0 h (Fin.castAdd 1024 f)) (∑ f : Fin 1024, x f * w0 h (Fin.natAdd 1024 f)), add_assoc]

/-- A region's logit: the positive part of the pre-activations against the second layer's weights, plus its bias. -/
def lgt (hp : Fin 512 → EReal) (w1 : Fin 512 → EReal) (b1 : EReal) : EReal := (∑ h, max (hp h) c0 * w1 h) + b1

/-- The softmax weight of region `r` among thirty-six logits, shifted by their maximum. -/
def smx (lg : Fin 36 → EReal) (r : Fin 36) : EReal :=
  Ideal.div (Ideal.exp (lg r - (Finset.univ : Finset (Fin 36)).fold max cninf lg))
    (∑ r', Ideal.exp (lg r' - (Finset.univ : Finset (Fin 36)).fold max cninf lg))

/-- The regions' features weighed, at feature `d`. -/
def iout (al : Fin 36 → EReal) (x : Fin 36 → Fin 1024 → EReal) (d : Fin 1024) : EReal := ∑ r, al r * x r d

/-- From an image's normalised region features `x`, its pre-activations `hp`, the second layer and a caption's
    normalised average: the inner product of the normalised attended image with the caption. -/
def core (x : Fin 36 → Fin 1024 → EReal) (hp : Fin 36 → Fin 512 → EReal) (w1 : Fin 512 → EReal) (b1 : EReal)
    (tnrow : Fin 1024 → EReal) : EReal :=
  ∑ d, l2n (iout (smx fun r => lgt (hp r) w1 b1) x) d * tnrow d

/-- Image `i` against caption `n`, the way the first program computes it. -/
def simK (img : Fin 1024 → Fin 36 → Fin 1024 → EReal) (cap : Fin 1024 → Fin 50 → Fin 1024 → EReal) (lens : Fin 1024 → BitVec 32)
    (w0 : Fin 512 → Fin (1024 + 1024) → EReal) (b0 : Fin 512 → EReal) (w1 : Fin 512 → EReal) (b1 : EReal) (i n : Fin 1024) : EReal :=
  core (fun r d => rown (img i r) d)
    (fun r h => hpK (txtK (cap 0) (lens 0)) (fun d => rown (img i r) d) w0 b0 h) w1 b1
    (fun d => l2n (txtK (cap n) (lens n)) d)

/-- The same, the way the second program computes it. -/
def simR (img : Fin 1024 → Fin 36 → Fin 1024 → EReal) (cap : Fin 1024 → Fin 50 → Fin 1024 → EReal) (lens : Fin 1024 → BitVec 32)
    (w0 : Fin 512 → Fin (1024 + 1024) → EReal) (b0 : Fin 512 → EReal) (w1 : Fin 512 → EReal) (b1 : EReal) (i n : Fin 1024) : EReal :=
  core (fun r d => rown (img i r) d)
    (fun r h => hpR (txtR (cap 0) (lens 0)) (fun d => rown (img i r) d) w0 b0 h) w1 b1
    (fun d => l2n (txtR (cap n) (lens n)) d)

/-- Where no length word is zero the two are one number, by the two laws. -/
theorem simK_eq_simR (img : Fin 1024 → Fin 36 → Fin 1024 → EReal) (cap : Fin 1024 → Fin 50 → Fin 1024 → EReal)
    (lens : Fin 1024 → BitVec 32) (hl : ∀ b, lens b ≠ 0#32)
    (w0 : Fin 512 → Fin (1024 + 1024) → EReal) (b0 : Fin 512 → EReal) (w1 : Fin 512 → EReal) (b1 : EReal) (i n : Fin 1024) :
    simK img cap lens w0 b0 w1 b1 i n = simR img cap lens w0 b0 w1 b1 i n := by
  unfold simK simR
  have hq : txtK (cap 0) (lens 0) = txtR (cap 0) (lens 0) := funext fun d => txtK_eq_txtR _ _ (hl 0) d
  have hn : txtK (cap n) (lens n) = txtR (cap n) (lens n) := funext fun d => txtK_eq_txtR _ _ (hl n) d
  rw [hq, hn]
  congr 1
  funext r h
  exact hpK_eq_hpR _ _ _ _ _

end Cert.Spec

end
-- ==== Proof.KPay0.lean ====
import proofs.«424796_j87746181857679_3_alg».proof.Proof.Gen.KernelIdeal.Skeleton
import proofs.«424796_j87746181857679_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

open scoped BigOperators

namespace Cert.KernelIdeal.KPay0

open Cert.KernelIdeal Cert.KernelIdeal.Gen Idealize.ShloMosaic Idealize.ShloMosaic.TcCoe Idealize.ShloMosaic.ValueIdx Idealize.SL.Sem
open Idealize.ShloMosaic.Pipeline (Dat Cfg Window)

/-!
  The stored value of the first kernel, read entry by entry.

  Every token row of a caption goes through the leaky map and is divided by the larger of its Euclidean norm and a
  small constant. Token `t` of row `p` is valid when `t` is below the row's length word, read signed; the valid
  tokens' normalised rows are summed and the sum is divided by the larger of the length and one. The resulting row is
  divided once more by the larger of its own Euclidean norm and the small constant.

  The value is built in stages (`a5` … `a35`), each a definition over the ones before it, and the stored value is
  the last quotient of them by unfolding (`k0_pay1_eq`). Each stage is then read at explicit coordinates: an
  elementwise operation reads its operands at the same coordinates; a cast that adds a trailing unit axis and a
  broadcast along that axis read the operand with the unit coordinate dropped, respectively set to zero; a sum over one
  axis is the finite sum over that axis's coordinate. The mask's one-bit comparison, widened and read signed, is the
  bit as a number (`bit_toInt`).
-/

/-! ## A trailing unit axis added by a shape cast, and a broadcast along it -/

section Layout
variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A shape cast between equal shapes reads the operand at the same index. -/
theorem shapeCast_self_apply {s : Shape} (x : s.Idx → α) (h : s.ShapeCasts s) (j : s.Idx) :
    shapeCast s x h j = x j :=
  shapeCast_apply x h j j rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1]` array broadcast to `[a, b]` reads, at `(i, j)`, the operand at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-! ## The three sums over one axis, read at coordinates -/

/-- The sum over the last axis of a `[32, 50, 1024]` block, at `(p, t)`. -/
theorem sum_axis2_apply (src : FVec Ideal S32x50x1024 .f32) (h : S32x50x1024.Reduces [2] S32x50)
    (hφ : FKind.Formats .f32) (hacc : (0x00000000#32 : BitVec 32) = FKind.add.neutral .f32 hφ) (p : Fin 32) (t : Fin 50) :
    multiReduction .add [2] S32x50 src 0x00000000#32 h hφ hacc (ix2 p t) = ∑ k : Fin 1024, src (ix3 p t k) := by
  refine (Ideal.multiReduction_add_single src 0x00000000#32 h hφ hacc (ix2 p t)).trans ?_
  refine Finset.sum_congr rfl fun k _ => congrArg src ?_
  exact funext fun a => Fin.ext (by match a with | ⟨0, _⟩ => rfl | ⟨1, _⟩ => rfl | ⟨2, _⟩ => rfl)

/-- The sum over the middle axis of a `[32, 50, 1024]` block, at `(p, d)`. -/
theorem sum_axis1_apply (src : FVec Ideal S32x50x1024 .f32) (h : S32x50x1024.Reduces [1] S32x1024)
    (hφ : FKind.Formats .f32) (hacc : (0x00000000#32 : BitVec 32) = FKind.add.neutral .f32 hφ) (p : Fin 32) (d : Fin 1024) :
    multiReduction .add [1] S32x1024 src 0x00000000#32 h hφ hacc (ix2 p d) = ∑ t : Fin 50, src (ix3 p t d) := by
  refine (Ideal.multiReduction_add_single src 0x00000000#32 h hφ hacc (ix2 p d)).trans ?_
  refine Finset.sum_congr rfl fun t _ => congrArg src ?_
  exact funext fun a => Fin.ext (by match a with | ⟨0, _⟩ => rfl | ⟨1, _⟩ => rfl | ⟨2, _⟩ => rfl)

/-- The sum over the last axis of a `[32, 1024]` block, at `p`. -/
theorem sum_row_apply (src : FVec Ideal S32x1024 .f32) (h : S32x1024.Reduces [1] S32)
    (hφ : FKind.Formats .f32) (hacc : (0x00000000#32 : BitVec 32) = FKind.add.neutral .f32 hφ) (p : Fin 32) :
    multiReduction .add [1] S32 src 0x00000000#32 h hφ hacc (ix1 p) = ∑ k : Fin 1024, src (ix2 p k) := by
  refine (Ideal.multiReduction_add_single src 0x00000000#32 h hφ hacc (ix1 p)).trans ?_
  refine Finset.sum_congr rfl fun k _ => congrArg src ?_
  exact funext fun a => Fin.ext (by match a with | ⟨0, _⟩ => rfl | ⟨1, _⟩ => rfl)

/-! ## The stored value, stage by stage -/

section Stages
variable (x0 : Vec Ideal S32x50x1024 .f32) (x14 : Vec Ideal S32x1 .i32)

/-- The token rows after the leaky map. -/
def a5 : Vec Ideal S32x50x1024 .f32 :=
  select (cmpf (F := Ideal) .oge x0 (broadcast S32x50x1024 (Scalar.ofBits (F := Ideal) .f32 0x00000000#32))) x0
    (mulf (F := Ideal) (broadcast S32x50x1024 (Scalar.ofBits (F := Ideal) .f32 0x3DCCCCCD#32)) x0)

/-- Each token row's sum of squares. -/
def a7 : FVec Ideal S32x50 .f32 :=
  multiReduction (F := Ideal) .add [2] S32x50 (mulf (F := Ideal) (a5 x0) (a5 x0)) 0x00000000#32
    reduces_S32x50x1024_S32x50 (.inl rfl) rfl

/-- Each token row's divisor, with a trailing unit axis. -/
def a11 : FVec Ideal S32x50x1 .f32 :=
  maximumf (F := Ideal) (sqrt (F := Ideal) (shapeCast S32x50x1 (a7 x0) shapeCasts_S32x50_S32x50x1))
    (broadcast S32x50x1 (Scalar.ofBits (F := Ideal) .f32 0x2B8CBCCC#32))

/-- The normalised token rows. -/
def a13 : FVec Ideal S32x50x1024 .f32 :=
  divf (F := Ideal) (a5 x0) (broadcastTo S32x50x1024 (a11 x0) broadcasts_S32x50x1_S32x50x1024)

/-- The length words. -/
def a15 : IVec S32x1 32 := shapeCast S32x1 x14 shapeCasts_S32x1_S32x1

/-- The validity mask as numbers. -/
def a20 : FVec Ideal S32x50 .f32 :=
  sitofp (F := Ideal) .f32 (extui 32 (cmpi .slt (iota .tc S32x50 32 [1] iota_S32x50_d1_w32)
    (broadcastTo S32x50 (a15 x14) broadcasts_S32x1_S32x50)) natLt_1_32)

/-- The larger of the length and one. -/
def a23 : FVec Ideal S32x1 .f32 :=
  maximumf (F := Ideal) (sitofp (F := Ideal) .f32 (a15 x14)) (broadcast S32x1 (Scalar.ofBits (F := Ideal) .f32 0x3F800000#32))

/-- The pooled sum over the valid tokens. -/
def a27 : FVec Ideal S32x1024 .f32 :=
  multiReduction (F := Ideal) .add [1] S32x1024
    (mulf (F := Ideal) (a13 x0) (broadcastTo S32x50x1024 (shapeCast S32x50x1 (a20 x14) shapeCasts_S32x50_S32x50x1)
      broadcasts_S32x50x1_S32x50x1024))
    0x00000000#32 reduces_S32x50x1024_S32x1024 (.inl rfl) rfl

/-- The caption's average. -/
def a29 : FVec Ideal S32x1024 .f32 :=
  divf (F := Ideal) (a27 x0 x14) (broadcastTo S32x1024 (a23 x14) broadcasts_S32x1_S32x1024)

/-- The average's sum of squares. -/
def a31 : FVec Ideal S32 .f32 :=
  multiReduction (F := Ideal) .add [1] S32 (mulf (F := Ideal) (a29 x0 x14) (a29 x0 x14)) 0x00000000#32
    reduces_S32x1024_S32 (.inl rfl) rfl

/-- The average's divisor, with a trailing unit axis. -/
def a35 : FVec Ideal S32x1 .f32 :=
  maximumf (F := Ideal) (sqrt (F := Ideal) (shapeCast S32x1 (a31 x0 x14) shapeCasts_S32_S32x1))
    (broadcast S32x1 (Scalar.ofBits (F := Ideal) .f32 0x2B8CBCCC#32))

/-- The stored value is the average over its divisor. -/
theorem k0_pay1_eq :
    k0_pay1 (F := Ideal) x0 x14
      = divf (F := Ideal) (a29 x0 x14) (broadcastTo S32x1024 (a35 x0 x14) broadcasts_S32x1_S32x1024) := rfl

end Stages

/-! ## Each stage read at its coordinates -/

/-- A one-bit word widened to thirty-two bits and read signed is the bit as a number. -/
theorem bit_toInt (b : BitVec 1) : (((b.setWidth 32).toInt : ℝ) : EReal) = ((b.toNat : ℝ) : EReal) := by
  have h : (b.setWidth 32).toInt = (b.toNat : ℤ) := by
    rcases BitVec.eq_zero_or_eq_one b with h | h <;> subst h <;> decide
  rw [h, Int.cast_natCast]

section Values
variable (x0 : Vec Ideal S32x50x1024 .f32) (x14 : Vec Ideal S32x1 .i32)

/-- The leaky map, entry by entry. -/
theorem a5_apply (p : Fin 32) (t : Fin 50) (k : Fin 1024) :
    a5 x0 (ix3 p t k) = Cert.Spec.lk (x0 (ix3 p t k)) := rfl

/-- A token row's sum of squares. -/
theorem a7_apply (p : Fin 32) (t : Fin 50) :
    a7 x0 (ix2 p t) = ∑ k : Fin 1024, Cert.Spec.lk (x0 (ix3 p t k)) * Cert.Spec.lk (x0 (ix3 p t k)) := by
  unfold a7
  refine (sum_axis2_apply _ _ _ _ p t).trans ?_
  exact Finset.sum_congr rfl fun k _ => rfl

/-- A token row's divisor. -/
theorem a11_apply (p : Fin 32) (t : Fin 50) (u : Fin 1) :
    a11 x0 (ix3 p t u)
      = Cert.Spec.nrm (∑ k : Fin 1024, Cert.Spec.lk (x0 (ix3 p t k)) * Cert.Spec.lk (x0 (ix3 p t k))) := by
  have h := (shapeCast_ab_ab1_apply (a7 x0) shapeCasts_S32x50_S32x50x1 p t u).trans (a7_apply x0 p t)
  show max (Ideal.sqrt (shapeCast S32x50x1 (a7 x0) shapeCasts_S32x50_S32x50x1 (ix3 p t u)))
      (Ideal.ofBits .f32 0x2B8CBCCC#32) = _
  rw [h]; rfl

/-- A normalised token row, entry by entry. -/
theorem a13_apply (p : Fin 32) (t : Fin 50) (d : Fin 1024) :
    a13 x0 (ix3 p t d) = Cert.Spec.rown (fun k => x0 (ix3 p t k)) d := by
  have h := (broadcastTo_ab1_abc_apply (a11 x0) broadcasts_S32x50x1_S32x50x1024 p t d).trans (a11_apply x0 p t 0)
  show Ideal.div (a5 x0 (ix3 p t d))
      (broadcastTo S32x50x1024 (a11 x0) broadcasts_S32x50x1_S32x50x1024 (ix3 p t d)) = _
  rw [h]; rfl

/-- The length words are the loaded ones. -/
theorem a15_apply (p : Fin 32) (u : Fin 1) : a15 x14 (ix2 p u) = x14 (ix2 p u) :=
  shapeCast_self_apply x14 shapeCasts_S32x1_S32x1 (ix2 p u)

/-- The mask: token `t` against the row's length word. -/
theorem a20_apply (p : Fin 32) (t : Fin 50) :
    a20 x14 (ix2 p t) = Cert.Spec.msk (x14 (ix2 p (0 : Fin 1))) t := by
  have hi : iota .tc S32x50 32 [1] iota_S32x50_d1_w32 (ix2 p t) = BitVec.ofNat 32 t.val :=
    iota_single_apply .tc S32x50 32 _ iota_S32x50_d1_w32 (ix2 p t)
  have hb : broadcastTo S32x50 (a15 x14) broadcasts_S32x1_S32x50 (ix2 p t) = x14 (ix2 p (0 : Fin 1)) :=
    (broadcastTo_a1_ab_apply (a15 x14) broadcasts_S32x1_S32x50 p t).trans (a15_apply x14 p 0)
  show ((((IntOp.cmpi .slt (iota .tc S32x50 32 [1] iota_S32x50_d1_w32 (ix2 p t))
      (broadcastTo S32x50 (a15 x14) broadcasts_S32x1_S32x50 (ix2 p t))).setWidth 32).toInt : ℝ) : EReal) = _
  rw [hi, hb]
  exact bit_toInt _

/-- The larger of the length and one. -/
theorem a23_apply (p : Fin 32) (u : Fin 1) :
    a23 x14 (ix2 p u) = max (Cert.Spec.lenf (x14 (ix2 p u))) Cert.Spec.c1 := by
  show max ((((a15 x14 (ix2 p u)).toInt : ℝ) : EReal)) (Ideal.ofBits .f32 0x3F800000#32) = _
  rw [a15_apply]; rfl

/-- The pooled sum. -/
theorem a27_apply (p : Fin 32) (d : Fin 1024) :
    a27 x0 x14 (ix2 p d) = Cert.Spec.pool (fun t k => x0 (ix3 p t k)) (x14 (ix2 p (0 : Fin 1))) d := by
  unfold a27
  refine (sum_axis1_apply _ _ _ _ p d).trans ?_
  unfold Cert.Spec.pool
  refine Finset.sum_congr rfl fun t _ => ?_
  have hm := (broadcastTo_ab1_abc_apply (shapeCast S32x50x1 (a20 x14) shapeCasts_S32x50_S32x50x1)
      broadcasts_S32x50x1_S32x50x1024 p t d).trans
    ((shapeCast_ab_ab1_apply (a20 x14) shapeCasts_S32x50_S32x50x1 p t 0).trans (a20_apply x14 p t))
  show a13 x0 (ix3 p t d) * broadcastTo S32x50x1024 (shapeCast S32x50x1 (a20 x14) shapeCasts_S32x50_S32x50x1)
      broadcasts_S32x50x1_S32x50x1024 (ix3 p t d) = _
  rw [hm, a13_apply]

/-- The caption's average, entry by entry. -/
theorem a29_apply (p : Fin 32) (d : Fin 1024) :
    a29 x0 x14 (ix2 p d) = Cert.Spec.txtK (fun t k => x0 (ix3 p t k)) (x14 (ix2 p (0 : Fin 1))) d := by
  have hb := (broadcastTo_a1_ab_apply (a23 x14) broadcasts_S32x1_S32x1024 p d).trans (a23_apply x14 p 0)
  show Ideal.div (a27 x0 x14 (ix2 p d)) (broadcastTo S32x1024 (a23 x14) broadcasts_S32x1_S32x1024 (ix2 p d)) = _
  rw [hb, a27_apply]; rfl

/-- The average's sum of squares. -/
theorem a31_apply (p : Fin 32) :
    a31 x0 x14 (ix1 p)
      = ∑ k : Fin 1024, Cert.Spec.txtK (fun t k => x0 (ix3 p t k)) (x14 (ix2 p (0 : Fin 1))) k
          * Cert.Spec.txtK (fun t k => x0 (ix3 p t k)) (x14 (ix2 p (0 : Fin 1))) k := by
  unfold a31
  refine (sum_row_apply _ _ _ _ p).trans ?_
  refine Finset.sum_congr rfl fun k _ => ?_
  show a29 x0 x14 (ix2 p k) * a29 x0 x14 (ix2 p k) = _
  rw [a29_apply]

/-- The average's divisor. -/
theorem a35_apply (p : Fin 32) (u : Fin 1) :
    a35 x0 x14 (ix2 p u)
      = Cert.Spec.nrm (∑ k : Fin 1024, Cert.Spec.txtK (fun t k => x0 (ix3 p t k)) (x14 (ix2 p (0 : Fin 1))) k
          * Cert.Spec.txtK (fun t k => x0 (ix3 p t k)) (x14 (ix2 p (0 : Fin 1))) k) := by
  have h := (shapeCast_a_a1_apply (a31 x0 x14) shapeCasts_S32_S32x1 p u).trans (a31_apply x0 x14 p)
  show max (Ideal.sqrt (shapeCast S32x1 (a31 x0 x14) shapeCasts_S32_S32x1 (ix2 p u)))
      (Ideal.ofBits .f32 0x2B8CBCCC#32) = _
  rw [h]; rfl

end Values

/-- The first kernel's stored value at row `p`, feature `d` of its block. -/
theorem pay0_apply (x0 : Vec Ideal S32x50x1024 .f32) (x14 : Vec Ideal S32x1 .i32) (p : Fin 32) (d : Fin 1024) :
    k0_pay1 (F := Ideal) x0 x14 (ix2 p d)
      = Cert.Spec.l2n (Cert.Spec.txtK (fun t k => x0 (ix3 p t k)) (x14 (ix2 p (0 : Fin 1)))) d := by
  rw [k0_pay1_eq]
  have hb := (broadcastTo_a1_ab_apply (a35 x0 x14) broadcasts_S32x1_S32x1024 p d).trans (a35_apply x0 x14 p 0)
  show Ideal.div (a29 x0 x14 (ix2 p d)) (broadcastTo S32x1024 (a35 x0 x14) broadcasts_S32x1_S32x1024 (ix2 p d)) = _
  rw [hb, a29_apply]; rfl

end Cert.KernelIdeal.KPay0

end
-- ==== Proof.KTxt.lean ====
import proofs.«424796_j87746181857679_3_alg».proof.Proof.Gen.KernelIdeal.Frame
import proofs.«424796_j87746181857679_3_alg».proof.Proof.Spec
import proofs.«424796_j87746181857679_3_alg».proof.Proof.KPay0
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

open scoped BigOperators

namespace Cert.KernelIdeal.KTxt

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.KernelIdeal.KPay0

variable (V : (c : Dev nD) → (b : Ref sig .tc) → Buf (Elt Ideal) ((c : Thread nD τ).loc b))

/-!
  The first region's output, read entry by entry.

  The region has thirty-two points. Point `t` is handed rows `32 t … 32 t + 31` of the length column and of the
  caption array, whole along every other axis, and writes rows `32 t … 32 t + 31` of the output, all 1024 features.
  Within a point, row `p` of the written block is the normalised average of caption row `p` of the point's caption
  block under length row `p` of its length block. Row `n` of the output is therefore row `n mod 32` of the block
  of point `n / 32`, and those blocks are rows `n` of the two input arrays: the output at `(n, d)` is feature `d` of
  the normalised average of caption `n` under length `n`.
-/

/-- The zero offsets of a rank-2 and of a rank-3 block. -/
theorem zero2 : (![0, 0] : Fin 2 → Nat) = fun _ => 0 := funext fun a => by fin_cases a <;> rfl
theorem zero3 : (![0, 0, 0] : Fin 3 → Nat) = fun _ => 0 := funext fun a => by fin_cases a <;> rfl

/-- The block index of each of the three windows at point `t`: `t` along the rows, zero along every other axis. -/
theorem block_index : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- The region has thirty-two points. -/
theorem points_eq : cfg0.N = 32 := by decide

/-- The row and the feature of an entry of the output array, as numbers below 1024. -/
def rowOf (i : S1024x1024.Idx) : Fin 1024 := ⟨(i 0).val, (i 0).isLt⟩
def featOf (i : S1024x1024.Idx) : Fin 1024 := ⟨(i 1).val, (i 1).isLt⟩

/-- The whole output as one function of the two input arrays: at `(n, d)`, feature `d` of the normalised average of
    caption `n` under length `n`. -/
def captionAverages (lensA : IVec S1024x1 32) (capA : FVec Ideal S1024x50x1024 .f32) : S1024x1024.Idx → Elt Ideal .f32 :=
  fun i => Cert.Spec.l2n (Cert.Spec.txtK (fun t k => capA (ix3 (rowOf i) t k)) (lensA (ix2 (rowOf i) (0 : Fin 1)))) (featOf i)

/-- Row `p` of point `t`'s length block is row `32 t + p` of the length column. -/
theorem lens_block (c : Dev nD) (lensA : IVec S1024x1 32) (hl : V c main_v0 = lensA) (t : Fin cfg0.N) (p : Fin 32) (r : Fin 1024)
    (hr : r.val = 32 * t.val + p.val) :
    (iblk0 (F := Ideal) V c 0 t : Vec Ideal S32x1 .i32) (ix2 p (0 : Fin 1)) = lensA (ix2 r (0 : Fin 1)) := by
  obtain ⟨e0, e1, -⟩ := block_index t
  unfold iblk0
  rw [View.read_apply]
  show V c main_v0 _ = _
  rw [hl]
  congr 1
  funext a; apply Fin.ext
  match a with
  | ⟨0, _⟩ => show win0_0.index t (0 : Fin 2) * 32 + 1 * p.val = r.val; omega
  | ⟨1, _⟩ => show win0_0.index t (1 : Fin 2) * 1 + 1 * 0 = 0; omega

/-- Row `p`, token `s`, feature `k` of point `t`'s caption block is row `32 t + p`, token `s`, feature `k` of the
    caption array. -/
theorem caption_block (c : Dev nD) (capA : FVec Ideal S1024x50x1024 .f32) (hc : V c main_arg1 = capA) (t : Fin cfg0.N) (p : Fin 32)
    (s : Fin 50) (k : Fin 1024) (r : Fin 1024) (hr : r.val = 32 * t.val + p.val) :
    (iblk0 (F := Ideal) V c 1 t : Vec Ideal S32x50x1024 .f32) (ix3 p s k) = capA (ix3 r s k) := by
  obtain ⟨-, -, e0, e1, e2, -⟩ := block_index t
  unfold iblk0
  rw [View.read_apply]
  show V c main_arg1 _ = _
  rw [hc]
  congr 1
  funext a; apply Fin.ext
  match a with
  | ⟨0, _⟩ => show win0_1.index t (0 : Fin 3) * 32 + 1 * p.val = r.val; omega
  | ⟨1, _⟩ => show win0_1.index t (1 : Fin 3) * 50 + 1 * s.val = s.val; omega
  | ⟨2, _⟩ => show win0_1.index t (2 : Fin 3) * 1024 + 1 * k.val = k.val; omega

/-- Entry `(p, d)` of point `t`'s output block sits in row `32 t + p` of the output array, -/
theorem row_of_block (t : Fin cfg0.N) (p : Fin 32) (d : Fin 1024) (r : Fin 1024) (hr : r.val = 32 * t.val + p.val) :
    rowOf (((cfg0.win 2).blk t).view.emb (ix2 p d)) = r := by
  obtain ⟨-, -, -, -, -, e0, e1⟩ := block_index t
  apply Fin.ext
  show win0_2.index t (0 : Fin 2) * 32 + 1 * p.val = r.val
  omega

/-- and at feature `d`. -/
theorem feat_of_block (t : Fin cfg0.N) (p : Fin 32) (d : Fin 1024) :
    featOf (((cfg0.win 2).blk t).view.emb (ix2 p d)) = d := by
  obtain ⟨-, -, -, -, -, e0, e1⟩ := block_index t
  apply Fin.ext
  show win0_2.index t (1 : Fin 2) * 1024 + 1 * d.val = d.val
  omega

/-- What point `t` writes is block `t` of `captionAverages`: entry `(p, d)` of the written block is the normalised
    average of the point's caption row `p` under its length row `p`, and those are rows `32 t + p` of the arrays. -/
theorem written_block (c : Dev nD) (lensA : IVec S1024x1 32) (capA : FVec Ideal S1024x50x1024 .f32)
    (hl : V c main_v0 = lensA) (hc : V c main_arg1 = capA) (t : Fin cfg0.N) :
    (dat0 (F := Ideal) V c).flushed 2 t = ((cfg0.win 2).blk t).view.read (Elt Ideal) (captionAverages lensA capA) := by
  show (cfg0.win 2).cut (grid0.coords t) ((dat0 (F := Ideal) V c).after 2 t) = _
  rw [after0_2]
  unfold out0_2
  rw [View.canon_unit_zero zero2]
  simp only [View.ld_unit_zero (S := S32x50x1024) zero3, View.ld_unit_zero (S := S32x1) zero2]
  funext j
  revert j
  show ∀ j : S32x1024.Idx, k0_pay1 (F := Ideal) (iblk0 (F := Ideal) V c 1 t) (iblk0 (F := Ideal) V c 0 t) j
      = captionAverages lensA capA (((cfg0.win 2).blk t).view.emb j)
  intro j
  obtain ⟨p, d, rfl⟩ : ∃ (p : Fin 32) (d : Fin 1024), j = ix2 p d := ⟨j 0, j 1, eq_ix2 j⟩
  have ht : t.val < 32 := lt_of_lt_of_eq t.isLt points_eq
  have hr : (⟨32 * t.val + p.val, by have := p.isLt; omega⟩ : Fin 1024).val = 32 * t.val + p.val := rfl
  refine (pay0_apply (iblk0 (F := Ideal) V c 1 t) (iblk0 (F := Ideal) V c 0 t) p d).trans ?_
  unfold captionAverages
  rw [row_of_block t p d _ hr, feat_of_block t p d, lens_block V c lensA hl t p _ hr]
  congr 2
  funext s k
  exact caption_block V c capA hc t p s k _ hr

/-- An entry of the output array is in point `t`'s block iff each coordinate is in the block's range on its axis. -/
theorem mem_block (t : Fin cfg0.N) (i : S1024x1024.Idx) :
    i ∈ ((cfg0.win 2).blk t).view.set ↔ ∀ a : Fin 2, win0_2.index t a * S32x1024.size a ≤ (i a).val ∧ (i a).val < win0_2.index t a * S32x1024.size a + S32x1024.size a := by
  show i ∈ ((View.whole main_v1).slice (win0_2.rect t)).set ↔ _
  rw [View.set_slice_whole, Rect.mem_set_unit]
  exact Iff.rfl

/-- Every entry is written: row `n` is in the block of point `n / 32`, since `32 (n / 32) ≤ n < 32 (n / 32) + 32`, and
    every block spans all 1024 features. -/
theorem rows_covered (i : S1024x1024.Idx) : ∃ t : Fin cfg0.N, (cfg0.win 2).flush t = true ∧ i ∈ ((cfg0.win 2).blk t).view.set := by
  have hi0 : (i 0).val < 1024 := (i 0).isLt
  have hi1 : (i 1).val < 1024 := (i 1).isLt
  have hq : (i 0).val / 32 < 32 := by omega
  obtain ⟨t, ht⟩ : ∃ t : Fin cfg0.N, t.val = (i 0).val / 32 := ⟨⟨(i 0).val / 32, lt_of_lt_of_eq hq points_eq.symm⟩, rfl⟩
  obtain ⟨-, -, -, -, -, e0, e1⟩ := block_index t
  refine ⟨t, flush0_2 t, ?_⟩
  rw [mem_block]
  intro a
  match a with
  | ⟨0, _⟩ => show win0_2.index t (0 : Fin 2) * 32 ≤ (i 0).val ∧ (i 0).val < win0_2.index t (0 : Fin 2) * 32 + 32; omega
  | ⟨1, _⟩ => show win0_2.index t (1 : Fin 2) * 1024 ≤ (i 1).val ∧ (i 1).val < win0_2.index t (1 : Fin 2) * 1024 + 1024; omega

/-- The first region's output array after its thirty-two points, entry by entry. -/
theorem arr0_apply (c : Dev nD) (lensA : IVec S1024x1 32) (capA : FVec Ideal S1024x50x1024 .f32)
    (hl : V c main_v0 = lensA) (hc : V c main_arg1 = capA) (n d : Fin 1024) :
    (dat0 (F := Ideal) V c).arrAt 2 cfg0.N (ix2 n d)
      = Cert.Spec.l2n (Cert.Spec.txtK (fun t k => capA (ix3 n t k)) (lensA (ix2 n (0 : Fin 1)))) d := by
  have h := (dat0 (F := Ideal) V c).arrAt_eq_of_cover 2 (captionAverages lensA capA)
    (fun t _ => written_block V c lensA capA hl hc t) rows_covered
  exact (congrFun h (ix2 n d)).trans rfl

end Cert.KernelIdeal.KTxt

end
-- ==== Proof.KPayA.lean ====
/-
  Two of the second program's carried values, read entry by entry.

  The first is the block of region features after the leaky map and the normalisation of each region's row: for
  image p of the block, region r and lane d it is `rown` of the row (p, r) at d. The row's sum of squares is a sum
  over the one reduced axis, so it is the sum over the lane k of the entry at (p, r, k); adding a unit axis and
  spreading it back over the lanes changes no entry's value, only where it is read.

  The second is each image's largest logit: a maximum over the one reduced axis of the thirty-six regions, so it is
  the fold of `max` from minus infinity over the region r of the logit at (p, r, 0).
-/
import proofs.«424796_j87746181857679_3_alg».proof.Proof.Gen.KernelIdeal.Skeleton
import proofs.«424796_j87746181857679_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

open scoped BigOperators

namespace Cert.KernelIdeal.KPayA

open Cert.KernelIdeal Cert.KernelIdeal.Gen Idealize.ShloMosaic Idealize.ShloMosaic.TcCoe Idealize.ShloMosaic.ValueIdx Idealize.SL.Sem
open Idealize.ShloMosaic.Pipeline (Dat Cfg Window)

/-- The source index over the reduced index (p, r) with lane k put back is (p, r, k). -/
private theorem lift3 (p : Fin 32) (r : Fin 36) (k : Fin 1024) :
    reduces_S32x36x1024_S32x36.lift (ix2 p r) k = ix3 p r k := by
  funext a
  match a with
  | ⟨0, _⟩ => rfl
  | ⟨1, _⟩ => rfl
  | ⟨2, _⟩ => rfl

/-- The source index over the reduced index (p, 0) with region r put back is (p, r, 0). -/
private theorem liftm (p : Fin 32) (r : Fin 36) :
    reduces_S32x36x1_S32x1.lift (ix2 p (0 : Fin 1)) r = ix3 p r (0 : Fin 1) := by
  funext a
  match a with
  | ⟨0, _⟩ => rfl
  | ⟨1, _⟩ => rfl
  | ⟨2, _⟩ => rfl

/-- A [32, 36, 1] array broadcast along the lanes reads, at (p, r, d), the operand at (p, r, 0). -/
private theorem bcast_apply (v : FVec Ideal S32x36x1 .f32) (p : Fin 32) (r : Fin 36) (d : Fin 1024) :
    broadcastTo S32x36x1024 v broadcasts_S32x36x1_S32x36x1024 (ix3 p r d) = v (ix3 p r (0 : Fin 1)) :=
  broadcastTo_apply v _ (ix3 p r d) (ix3 p r (0 : Fin 1)) fun a => by
    match a with
    | ⟨0, _⟩ => rfl
    | ⟨1, _⟩ => rfl
    | ⟨2, _⟩ => rfl

/-- A [32, 36] array cast to [32, 36, 1] reads, at (p, r, u), the operand at (p, r). -/
private theorem cast_apply (v : FVec Ideal S32x36 .f32) (p : Fin 32) (r : Fin 36) (u : Fin 1) :
    shapeCast S32x36x1 v shapeCasts_S32x36_S32x36x1 (ix3 p r u) = v (ix2 p r) :=
  shapeCast_apply v _ _ _ (by
    rw [Shape.rowMajor_val_two, Shape.rowMajor_val_three]
    show p.val * 36 + r.val = (p.val * 36 + r.val) * 1 + u.val
    omega)

/-- The sum over the lanes of a [32, 36, 1024] array, at (p, r), is the sum over k of the array at (p, r, k). -/
private theorem lanesum_apply (v : FVec Ideal S32x36x1024 .f32) (p : Fin 32) (r : Fin 36) :
    multiReduction .add [2] S32x36 v 0x00000000#32 reduces_S32x36x1024_S32x36 (.inl rfl) rfl (ix2 p r)
      = ∑ k : Fin 1024, v (ix3 p r k) :=
  (Ideal.multiReduction_add_single v _ _ _ _ (ix2 p r)).trans
    (Finset.sum_congr rfl fun k _ => congrArg v (lift3 p r k))

/-- A [32, 1] array cast to [32, 1, 1] reads, at (p, u, w), the operand at (p, u). -/
private theorem cast1_apply (v : FVec Ideal S32x1 .f32) (p : Fin 32) (u w : Fin 1) :
    shapeCast S32x1x1 v shapeCasts_S32x1_S32x1x1 (ix3 p u w) = v (ix2 p u) :=
  shapeCast_apply v _ _ _ (by
    rw [Shape.rowMajor_val_two, Shape.rowMajor_val_three]
    show p.val * 1 + u.val = (p.val * 1 + u.val) * 1 + w.val
    omega)

/-- The maximum over the regions of a [32, 36, 1] array, at (p, 0), is the fold of max from minus infinity over r of
    the array at (p, r, 0). -/
private theorem regionmax_apply (v : FVec Ideal S32x36x1 .f32) (p : Fin 32) :
    multiReduction .maximumf [1] S32x1 v 0xFF800000#32 reduces_S32x36x1_S32x1 (.inl rfl) rfl (ix2 p (0 : Fin 1))
      = (Finset.univ : Finset (Fin 36)).fold max Cert.Spec.cninf (fun r => v (ix3 p r (0 : Fin 1))) :=
  (Ideal.multiReduction_maximumf_single v _ _ _ _ (ix2 p (0 : Fin 1))).trans
    (congrArg ((Finset.univ : Finset (Fin 36)).fold max Cert.Spec.cninf)
      (funext fun r => congrArg v (liftm p r)))

/-- The normalised region features. At (p, r, d) the carried value is the leaky map of the input at (p, r, d) over
    the larger of the small constant and the square root of the sum, over the lanes k, of the squared leaky map of the
    input at (p, r, k): the divisor is computed at (p, r), given a unit lane axis, and read back at every lane d. -/
theorem pay2_apply (x0 : Vec Ideal S32x36x1024 .f32) (p : Fin 32) (r : Fin 36) (d : Fin 1024) :
    k1_pay2 (F := Ideal) x0 (ix3 p r d) = Cert.Spec.rown (fun k => x0 (ix3 p r k)) d := by
  unfold k1_pay2
  simp only []
  rw [divf_apply, bcast_apply]
  show Ideal.div _ (max (Ideal.sqrt (shapeCast S32x36x1 _ shapeCasts_S32x36_S32x36x1 (ix3 p r (0 : Fin 1)))) _) = _
  rw [cast_apply, lanesum_apply]
  rfl

/-- The largest logit of an image. At (p, 0, 0) the carried value is the maximum, from minus infinity, over the
    thirty-six regions r of the logits at (p, r, 0): the maximum is taken at (p, 0) and given a second unit axis. -/
theorem pay4_apply (x0 : Vec Ideal S32x36x1024 .f32) (x1 : Vec Ideal S1024x512 .f32) (x2 x3 : Vec Ideal S1x1x512 .f32)
    (x4 : Vec Ideal S1x1x1 .f32) (p : Fin 32) :
    k1_pay4 (F := Ideal) x0 x1 x2 x3 x4 (ix3 p (0 : Fin 1) (0 : Fin 1))
      = (Finset.univ : Finset (Fin 36)).fold max Cert.Spec.cninf (fun r => k1_pay3 (F := Ideal) x0 x1 x2 x3 x4 (ix3 p r (0 : Fin 1))) := by
  unfold k1_pay4
  simp only []
  rw [cast1_apply]
  exact regionmax_apply _ p

end Cert.KernelIdeal.KPayA

end
-- ==== Proof.KPayB.lean ====
import proofs.«424796_j87746181857679_3_alg».proof.Proof.Gen.KernelIdeal.Skeleton
import proofs.«424796_j87746181857679_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

open scoped BigOperators

namespace Cert.KernelIdeal.KPayB

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## Broadcasts and changes of shape read at an index given by coordinates -/

section Layout
variable {α : Type}

/-- One value per row, broadcast over the thirty-six regions: at (p, r, e) it is the row's value. -/
theorem bc_p11_pr1 (v : S32x1x1.Idx → α) (h : S32x1x1.Broadcasts S32x36x1) (p : Fin 32) (r : Fin 36) (e : Fin 1) :
    broadcastTo S32x36x1 v h (ix3 p r e) = v (ix3 p (0 : Fin 1) (0 : Fin 1)) := by
  refine broadcastTo_apply v h _ _ fun a => ?_
  match a with
  | ⟨0, _⟩ => rfl
  | ⟨1, _⟩ => rfl
  | ⟨2, _⟩ => rfl

/-- One value per row and region, broadcast over the features: at (p, r, d) it is the value at (p, r). -/
theorem bc_pr1_prd (v : S32x36x1.Idx → α) (h : S32x36x1.Broadcasts S32x36x1024) (p : Fin 32) (r : Fin 36) (d : Fin 1024) :
    broadcastTo S32x36x1024 v h (ix3 p r d) = v (ix3 p r (0 : Fin 1)) := by
  refine broadcastTo_apply v h _ _ fun a => ?_
  match a with
  | ⟨0, _⟩ => rfl
  | ⟨1, _⟩ => rfl
  | ⟨2, _⟩ => rfl

/-- One value per row, broadcast over the features: at (p, d) it is the row's value. -/
theorem bc_p1_pd (v : S32x1.Idx → α) (h : S32x1.Broadcasts S32x1024) (p : Fin 32) (d : Fin 1024) :
    broadcastTo S32x1024 v h (ix2 p d) = v (ix2 p (0 : Fin 1)) := by
  refine broadcastTo_apply v h _ _ fun a => ?_
  match a with
  | ⟨0, _⟩ => rfl
  | ⟨1, _⟩ => rfl

/-- A column of thirty-two values seen as [32, 1, 1]. -/
theorem sc_p1_p11 (v : S32x1.Idx → α) (h : S32x1.ShapeCasts S32x1x1) (p : Fin 32) :
    shapeCast S32x1x1 v h (ix3 p (0 : Fin 1) (0 : Fin 1)) = v (ix2 p (0 : Fin 1)) :=
  shapeCast_apply v h _ _ (by
    rw [Shape.rowMajor_val_three, Shape.rowMajor_val_two]
    show p.val * 1 + 0 = (p.val * 1 + 0) * 1 + 0
    omega)

/-- Thirty-two values seen as a column. -/
theorem sc_p_p1 (v : S32.Idx → α) (h : S32.ShapeCasts S32x1) (p : Fin 32) :
    shapeCast S32x1 v h (ix2 p (0 : Fin 1)) = v (ix1 p) :=
  shapeCast_apply v h _ _ (by
    rw [Shape.rowMajor_val_two, Shape.rowMajor_val_one]
    show p.val = p.val * 1 + 0
    omega)

/-- A matrix cast to its own shape is itself. -/
theorem sc_nd_nd (v : S1024x1024.Idx → α) (h : S1024x1024.ShapeCasts S1024x1024) (n d : Fin 1024) :
    shapeCast S1024x1024 v h (ix2 n d) = v (ix2 n d) :=
  shapeCast_apply v h _ _ rfl

end Layout

/-! ## The three sums along one axis read at an index given by coordinates -/

/-- The sum over the regions of a [32, 36, 1] array. -/
theorem red_pr1 (v : FVec Ideal S32x36x1 .f32) (h : S32x36x1.Reduces [1] S32x1) (p : Fin 32) (e : Fin 1) :
    multiReduction (F := Ideal) .add [1] S32x1 v 0x00000000#32 h (.inl rfl) rfl (ix2 p e) = ∑ r : Fin 36, v (ix3 p r e) :=
  (Ideal.multiReduction_add_single v _ h _ _ (ix2 p e)).trans
    (Finset.sum_congr rfl fun k _ => congrArg v (funext fun a => Fin.ext (by
      match a with
      | ⟨0, _⟩ => rfl
      | ⟨1, _⟩ => rfl
      | ⟨2, _⟩ => rfl)))

/-- The sum over the regions of a [32, 36, 1024] array. -/
theorem red_prd (v : FVec Ideal S32x36x1024 .f32) (h : S32x36x1024.Reduces [1] S32x1024) (p : Fin 32) (d : Fin 1024) :
    multiReduction (F := Ideal) .add [1] S32x1024 v 0x00000000#32 h (.inl rfl) rfl (ix2 p d) = ∑ r : Fin 36, v (ix3 p r d) :=
  (Ideal.multiReduction_add_single v _ h _ _ (ix2 p d)).trans
    (Finset.sum_congr rfl fun k _ => congrArg v (funext fun a => Fin.ext (by
      match a with
      | ⟨0, _⟩ => rfl
      | ⟨1, _⟩ => rfl
      | ⟨2, _⟩ => rfl)))

/-- The sum over the features of a [32, 1024] array. -/
theorem red_pd (v : FVec Ideal S32x1024 .f32) (h : S32x1024.Reduces [1] S32) (p : Fin 32) :
    multiReduction (F := Ideal) .add [1] S32 v 0x00000000#32 h (.inl rfl) rfl (ix1 p) = ∑ d : Fin 1024, v (ix2 p d) :=
  (Ideal.multiReduction_add_single v _ h _ _ (ix1 p)).trans
    (Finset.sum_congr rfl fun k _ => congrArg v (funext fun a => Fin.ext (by
      match a with
      | ⟨0, _⟩ => rfl
      | ⟨1, _⟩ => rfl)))

/-! ## The matrix product read at an index given by coordinates -/

/-- The left operand's row is the result's row. -/
theorem mm_lhs_0 (i : S32x1024.Idx) (q : dot_S32x1024_S1024x1024_S32x1024_1_1_0_0_n_n.contr.Idx) :
    (dot_S32x1024_S1024x1024_S32x1024_1_1_0_0_n_n.lhsIdx i q 0).val = (i 0).val := by
  unfold DotDims.lhsIdx
  rw [dif_neg (show ¬(0 : Fin S32x1024.rank) ∈ dot_S32x1024_S1024x1024_S32x1024_1_1_0_0_n_n.lhsBatch by decide), dif_pos (show (0 : Fin S32x1024.rank) ∈ dot_S32x1024_S1024x1024_S32x1024_1_1_0_0_n_n.lhsNonContracting by decide)]
  rfl

/-- The left operand's column is the summation index. -/
theorem mm_lhs_1 (i : S32x1024.Idx) (q : dot_S32x1024_S1024x1024_S32x1024_1_1_0_0_n_n.contr.Idx) :
    (dot_S32x1024_S1024x1024_S32x1024_1_1_0_0_n_n.lhsIdx i q 1).val = (q ⟨0, by decide⟩).val :=
  dot_S32x1024_S1024x1024_S32x1024_1_1_0_0_n_n.lhsIdx_val_of_single rfl i q

/-- The right operand's row is the result's column. -/
theorem mm_rhs_0 (i : S32x1024.Idx) (q : dot_S32x1024_S1024x1024_S32x1024_1_1_0_0_n_n.contr.Idx) :
    (dot_S32x1024_S1024x1024_S32x1024_1_1_0_0_n_n.rhsIdx i q 0).val = (i 1).val := by
  unfold DotDims.rhsIdx
  rw [dif_neg (show ¬(0 : Fin S1024x1024.rank) ∈ dot_S32x1024_S1024x1024_S32x1024_1_1_0_0_n_n.rhsBatch by decide), dif_pos (show (0 : Fin S1024x1024.rank) ∈ dot_S32x1024_S1024x1024_S32x1024_1_1_0_0_n_n.rhsNonContracting by decide)]
  rfl

/-- The right operand's column is the summation index. -/
theorem mm_rhs_1 (i : S32x1024.Idx) (q : dot_S32x1024_S1024x1024_S32x1024_1_1_0_0_n_n.contr.Idx) :
    (dot_S32x1024_S1024x1024_S32x1024_1_1_0_0_n_n.rhsIdx i q 1).val = (q ⟨0, by decide⟩).val :=
  dot_S32x1024_S1024x1024_S32x1024_1_1_0_0_n_n.rhsIdx_val_of_single rfl i q

/-- The product into the zero matrix, both operands summed along their second axis: at (p, n) it is the inner
    product of the left operand's row p with the right operand's row n. -/
theorem mm_apply (a : FVec Ideal S32x1024 .f32) (b : FVec Ideal S1024x1024 .f32) (p : Fin 32) (n : Fin 1024) :
    matmul (F := Ideal) dot_S32x1024_S1024x1024_S32x1024_1_1_0_0_n_n (some .fp32) a b (constant S32x1024 .f32 0x00000000#32) (ix2 p n)
      = ∑ d : Fin 1024, a (ix2 p d) * b (ix2 n d) := by
  simp only [matmul]
  rw [Ideal.matmul_constant_zero_apply, ← Equiv.sum_comp (ValueIdx.contrEquiv1 dot_S32x1024_S1024x1024_S32x1024_1_1_0_0_n_n 1024 rfl rfl).symm]
  refine Finset.sum_congr rfl fun k _ => ?_
  have hk := ValueIdx.contrEquiv1_symm_val dot_S32x1024_S1024x1024_S32x1024_1_1_0_0_n_n 1024 rfl rfl k
  have el : dot_S32x1024_S1024x1024_S32x1024_1_1_0_0_n_n.lhsIdx (ix2 p n) ((ValueIdx.contrEquiv1 dot_S32x1024_S1024x1024_S32x1024_1_1_0_0_n_n 1024 rfl rfl).symm k) = ix2 p k := funext fun c => Fin.ext (by
    match c with
    | ⟨0, _⟩ => exact mm_lhs_0 _ _
    | ⟨1, _⟩ => exact (mm_lhs_1 _ _).trans hk)
  have er : dot_S32x1024_S1024x1024_S32x1024_1_1_0_0_n_n.rhsIdx (ix2 p n) ((ValueIdx.contrEquiv1 dot_S32x1024_S1024x1024_S32x1024_1_1_0_0_n_n 1024 rfl rfl).symm k) = ix2 n k := funext fun c => Fin.ext (by
    match c with
    | ⟨0, _⟩ => exact mm_rhs_0 _ _
    | ⟨1, _⟩ => exact (mm_rhs_1 _ _).trans hk)
  rw [el, er]

/-! ## The stored value by stages: exponentials, softmax weights, weighted sum, normalisation -/

/-- The exponentials of the logits less the row's carried maximum. -/
def ex (v34 : FVec Ideal S32x36x1 .f32) (v36 : FVec Ideal S32x1x1 .f32) : FVec Ideal S32x36x1 .f32 :=
  exp (subf v34 (broadcastTo S32x36x1 v36 broadcasts_S32x1x1_S32x36x1))

/-- At row p and region r it is the exponential of the region's logit less the row's carried value. -/
theorem ex_apply (v34 : FVec Ideal S32x36x1 .f32) (v36 : FVec Ideal S32x1x1 .f32) (p : Fin 32) (r : Fin 36) :
    ex v34 v36 (ix3 p r (0 : Fin 1)) = Ideal.exp (v34 (ix3 p r (0 : Fin 1)) - v36 (ix3 p (0 : Fin 1) (0 : Fin 1))) := by
  show Ideal.exp (v34 (ix3 p r (0 : Fin 1)) - broadcastTo S32x36x1 v36 broadcasts_S32x1x1_S32x36x1 (ix3 p r (0 : Fin 1))) = _
  rw [bc_p11_pr1]

/-- The softmax weights: each exponential over the sum of its row's exponentials. -/
def sm (v34 : FVec Ideal S32x36x1 .f32) (v36 : FVec Ideal S32x1x1 .f32) : FVec Ideal S32x36x1 .f32 :=
  divf (ex v34 v36) (broadcastTo S32x36x1 (shapeCast S32x1x1 (multiReduction (F := Ideal) .add [1] S32x1 (ex v34 v36) 0x00000000#32 reduces_S32x36x1_S32x1 (.inl rfl) rfl) shapeCasts_S32x1_S32x1x1) broadcasts_S32x1x1_S32x36x1)

/-- Where the row's carried values are the logits and the fold of their maximum, the weight at (p, r) is the
    softmax weight of region r among the row's thirty-six logits. -/
theorem sm_apply (v34 : FVec Ideal S32x36x1 .f32) (v36 : FVec Ideal S32x1x1 .f32) (p : Fin 32) (lg : Fin 36 → EReal)
    (h34 : ∀ r, v34 (ix3 p r (0 : Fin 1)) = lg r)
    (h36 : v36 (ix3 p (0 : Fin 1) (0 : Fin 1)) = (Finset.univ : Finset (Fin 36)).fold max Cert.Spec.cninf lg) (r : Fin 36) :
    sm v34 v36 (ix3 p r (0 : Fin 1)) = Cert.Spec.smx lg r := by
  show Ideal.div (ex v34 v36 (ix3 p r (0 : Fin 1))) (broadcastTo S32x36x1 (shapeCast S32x1x1 (multiReduction (F := Ideal) .add [1] S32x1 (ex v34 v36) 0x00000000#32 reduces_S32x36x1_S32x1 (.inl rfl) rfl) shapeCasts_S32x1_S32x1x1) broadcasts_S32x1x1_S32x36x1 (ix3 p r (0 : Fin 1))) = _
  rw [bc_p11_pr1, sc_p1_p11, red_pr1, ex_apply, h34, h36]
  have hs : ∑ r' : Fin 36, ex v34 v36 (ix3 p r' (0 : Fin 1))
      = ∑ r' : Fin 36, Ideal.exp (lg r' - (Finset.univ : Finset (Fin 36)).fold max Cert.Spec.cninf lg) :=
    Finset.sum_congr rfl fun r' _ => by rw [ex_apply, h34, h36]
  rw [hs]
  rfl

/-- The regions' features weighed by the softmax weights and summed over the regions. -/
def ws (v13 : FVec Ideal S32x36x1024 .f32) (v34 : FVec Ideal S32x36x1 .f32) (v36 : FVec Ideal S32x1x1 .f32) : FVec Ideal S32x1024 .f32 :=
  multiReduction (F := Ideal) .add [1] S32x1024 (mulf (broadcastTo S32x36x1024 (sm v34 v36) broadcasts_S32x36x1_S32x36x1024) v13) 0x00000000#32 reduces_S32x36x1024_S32x1024 (.inl rfl) rfl

/-- At (p, d) it is the sum over the regions of the softmax weight times the region's feature d. -/
theorem ws_apply (v13 : FVec Ideal S32x36x1024 .f32) (v34 : FVec Ideal S32x36x1 .f32) (v36 : FVec Ideal S32x1x1 .f32)
    (p : Fin 32) (lg : Fin 36 → EReal) (x : Fin 36 → Fin 1024 → EReal)
    (h13 : ∀ r d, v13 (ix3 p r d) = x r d) (h34 : ∀ r, v34 (ix3 p r (0 : Fin 1)) = lg r)
    (h36 : v36 (ix3 p (0 : Fin 1) (0 : Fin 1)) = (Finset.univ : Finset (Fin 36)).fold max Cert.Spec.cninf lg) (d : Fin 1024) :
    ws v13 v34 v36 (ix2 p d) = Cert.Spec.iout (Cert.Spec.smx lg) x d := by
  unfold ws
  rw [red_prd]
  unfold Cert.Spec.iout
  refine Finset.sum_congr rfl fun r _ => ?_
  show broadcastTo S32x36x1024 (sm v34 v36) broadcasts_S32x36x1_S32x36x1024 (ix3 p r d) * v13 (ix3 p r d) = _
  rw [bc_pr1_prd, sm_apply v34 v36 p lg h34 h36, h13]

/-- A [32, 1024] array with each row divided by the larger of its Euclidean norm and the small constant. -/
def nz (w : FVec Ideal S32x1024 .f32) : FVec Ideal S32x1024 .f32 :=
  divf w (broadcastTo S32x1024 (maximumf (sqrt (shapeCast S32x1 (multiReduction (F := Ideal) .add [1] S32 (mulf w w) 0x00000000#32 reduces_S32x1024_S32 (.inl rfl) rfl) shapeCasts_S32_S32x1)) (broadcast S32x1 (Scalar.ofBits .f32 0x2B8CBCCC#32))) broadcasts_S32x1_S32x1024)

/-- At (p, d): entry d of row p over the larger of the square root of the row's sum of squares and the small
    constant, whatever the row is. -/
theorem nz_apply (w : FVec Ideal S32x1024 .f32) (p : Fin 32) (row : Fin 1024 → EReal) (hw : ∀ d, w (ix2 p d) = row d) (d : Fin 1024) :
    nz w (ix2 p d) = Cert.Spec.l2n row d := by
  show Ideal.div (w (ix2 p d)) (broadcastTo S32x1024 (maximumf (sqrt (shapeCast S32x1 (multiReduction (F := Ideal) .add [1] S32 (mulf w w) 0x00000000#32 reduces_S32x1024_S32 (.inl rfl) rfl) shapeCasts_S32_S32x1)) (broadcast S32x1 (Scalar.ofBits .f32 0x2B8CBCCC#32))) broadcasts_S32x1_S32x1024 (ix2 p d)) = _
  rw [bc_p1_pd]
  show Ideal.div (w (ix2 p d)) (max (Ideal.sqrt (shapeCast S32x1 (multiReduction (F := Ideal) .add [1] S32 (mulf w w) 0x00000000#32 reduces_S32x1024_S32 (.inl rfl) rfl) shapeCasts_S32_S32x1 (ix2 p (0 : Fin 1)))) (Ideal.ofBits .f32 0x2B8CBCCC#32)) = _
  rw [sc_p_p1, red_pd, hw]
  have hs : ∑ k : Fin 1024, mulf w w (ix2 p k) = ∑ k : Fin 1024, row k * row k :=
    Finset.sum_congr rfl fun k _ => by
      show w (ix2 p k) * w (ix2 p k) = _
      rw [hw]
  rw [hs]
  rfl

/-- The stored value is the product of the normalised weighted sum with the second matrix, both summed along
    their second axis, added to the zero matrix. -/
theorem k1_pay1_eq (v13 : FVec Ideal S32x36x1024 .f32) (v34 : FVec Ideal S32x36x1 .f32) (v36 : FVec Ideal S32x1x1 .f32)
    (v55 : Vec Ideal S1024x1024 .f32) :
    k1_pay1 (F := Ideal) v13 v34 v36 v55
      = matmul (F := Ideal) dot_S32x1024_S1024x1024_S32x1024_1_1_0_0_n_n (some .fp32) (nz (ws v13 v34 v36))
          (shapeCast S1024x1024 v55 shapeCasts_S1024x1024_S1024x1024 : FVec Ideal S1024x1024 .f32) (constant S32x1024 .f32 0x00000000#32) := rfl

/-- The second kernel's stored value from its three carried values, whatever they are: softmax weights from the
    logits and their maximum, the weighted sum, its normalisation, the inner products. -/
theorem pay1_core (v13 : FVec Ideal S32x36x1024 .f32) (v34 : FVec Ideal S32x36x1 .f32) (v36 : FVec Ideal S32x1x1 .f32)
    (v55 : Vec Ideal S1024x1024 .f32) (p : Fin 32) (n : Fin 1024) (lg : Fin 36 → EReal) (x : Fin 36 → Fin 1024 → EReal)
    (h13 : ∀ r d, v13 (ix3 p r d) = x r d) (h34 : ∀ r, v34 (ix3 p r (0 : Fin 1)) = lg r)
    (h36 : v36 (ix3 p (0 : Fin 1) (0 : Fin 1)) = (Finset.univ : Finset (Fin 36)).fold max Cert.Spec.cninf lg) :
    k1_pay1 (F := Ideal) v13 v34 v36 v55 (ix2 p n)
      = ∑ d, Cert.Spec.l2n (Cert.Spec.iout (Cert.Spec.smx lg) x) d * v55 (ix2 n d) := by
  -- the product at (p, n) is the sum over d of row p of the normalised weighted sum times row n of the matrix
  rw [k1_pay1_eq, mm_apply]
  refine Finset.sum_congr rfl fun d _ => ?_
  -- row p of the weighted sum is the softmax-weighted sum of the regions' features; its normalisation follows
  rw [sc_nd_nd, nz_apply _ p _ (fun d' => ws_apply v13 v34 v36 p lg x h13 h34 h36 d')]

end Cert.KernelIdeal.KPayB

end
-- ==== Proof.KPayC.lean ====
import proofs.«424796_j87746181857679_3_alg».proof.Proof.Gen.KernelIdeal.Skeleton
import proofs.«424796_j87746181857679_3_alg».proof.Proof.Spec
import proofs.«424796_j87746181857679_3_alg».proof.Proof.KPayA
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

open scoped BigOperators

namespace Cert.KernelIdeal.KPayC

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.KernelIdeal.KPayA

/-! The product's operand indices, axis by axis: at output index `i` and contraction index `q` the left operand is read
    at (i 0, q) and the right operand at (q, i 1). -/

theorem mm_lhs_0 (i : S1152x512.Idx) (q : dot_S1152x1024_S1024x512_S1152x512_1_0_0_1_n_n.contr.Idx) :
    (dot_S1152x1024_S1024x512_S1152x512_1_0_0_1_n_n.lhsIdx i q 0).val = (i 0).val := by
  unfold DotDims.lhsIdx
  rw [dif_neg (show ¬(0 : Fin S1152x1024.rank) ∈ dot_S1152x1024_S1024x512_S1152x512_1_0_0_1_n_n.lhsBatch by decide), dif_pos (show (0 : Fin S1152x1024.rank) ∈ dot_S1152x1024_S1024x512_S1152x512_1_0_0_1_n_n.lhsNonContracting by decide)]
  rfl
theorem mm_lhs_1 (i : S1152x512.Idx) (q : dot_S1152x1024_S1024x512_S1152x512_1_0_0_1_n_n.contr.Idx) :
    (dot_S1152x1024_S1024x512_S1152x512_1_0_0_1_n_n.lhsIdx i q 1).val = (q ⟨0, by decide⟩).val :=
  dot_S1152x1024_S1024x512_S1152x512_1_0_0_1_n_n.lhsIdx_val_of_single rfl i q
theorem mm_rhs_0 (i : S1152x512.Idx) (q : dot_S1152x1024_S1024x512_S1152x512_1_0_0_1_n_n.contr.Idx) :
    (dot_S1152x1024_S1024x512_S1152x512_1_0_0_1_n_n.rhsIdx i q 0).val = (q ⟨0, by decide⟩).val :=
  dot_S1152x1024_S1024x512_S1152x512_1_0_0_1_n_n.rhsIdx_val_of_single rfl i q
theorem mm_rhs_1 (i : S1152x512.Idx) (q : dot_S1152x1024_S1024x512_S1152x512_1_0_0_1_n_n.contr.Idx) :
    (dot_S1152x1024_S1024x512_S1152x512_1_0_0_1_n_n.rhsIdx i q 1).val = (i 1).val := by
  unfold DotDims.rhsIdx
  rw [dif_neg (show ¬(1 : Fin S1024x512.rank) ∈ dot_S1152x1024_S1024x512_S1152x512_1_0_0_1_n_n.rhsBatch by decide), dif_pos (show (1 : Fin S1024x512.rank) ∈ dot_S1152x1024_S1024x512_S1152x512_1_0_0_1_n_n.rhsNonContracting by decide)]
  rfl

/-- The product into a zero accumulator at (a, h): the sum over the 1024 features of left (a, f) times right (f, h). -/
theorem mm_apply (y : FVec Ideal S1152x1024 .f32) (w : FVec Ideal S1024x512 .f32) (a : Fin 1152) (h : Fin 512) :
    matmul dot_S1152x1024_S1024x512_S1152x512_1_0_0_1_n_n (some .fp32) y w (constant (F := Ideal) S1152x512 .f32 0x00000000#32) (ix2 a h)
      = ∑ f : Fin 1024, y (ix2 a f) * w (ix2 f h) := by
  simp only [matmul]
  rw [Ideal.matmul_constant_zero_apply, ← Equiv.sum_comp (ValueIdx.contrEquiv1 dot_S1152x1024_S1024x512_S1152x512_1_0_0_1_n_n 1024 rfl rfl).symm]
  refine Finset.sum_congr rfl fun k _ => ?_
  have hk := ValueIdx.contrEquiv1_symm_val dot_S1152x1024_S1024x512_S1152x512_1_0_0_1_n_n 1024 rfl rfl k
  have el : dot_S1152x1024_S1024x512_S1152x512_1_0_0_1_n_n.lhsIdx (ix2 a h) ((ValueIdx.contrEquiv1 dot_S1152x1024_S1024x512_S1152x512_1_0_0_1_n_n 1024 rfl rfl).symm k) = ix2 a k := funext fun c => Fin.ext (by
    match c with
    | ⟨0, _⟩ => exact mm_lhs_0 _ _
    | ⟨1, _⟩ => exact (mm_lhs_1 _ _).trans hk)
  have er : dot_S1152x1024_S1024x512_S1152x512_1_0_0_1_n_n.rhsIdx (ix2 a h) ((ValueIdx.contrEquiv1 dot_S1152x1024_S1024x512_S1152x512_1_0_0_1_n_n 1024 rfl rfl).symm k) = ix2 k h := funext fun c => Fin.ext (by
    match c with
    | ⟨0, _⟩ => exact (mm_rhs_0 _ _).trans hk
    | ⟨1, _⟩ => exact mm_rhs_1 _ _)
  rw [el, er]

/-- Row `36 * p + r` of the flattened regions is region `r` of image `p`. -/
theorem cast_in_apply {α : Type} (v : S32x36x1024.Idx → α) (p : Fin 32) (r : Fin 36) (f : Fin 1024) (a : Fin 1152)
    (ha : a.val = 36 * p.val + r.val) :
    shapeCast S1152x1024 v shapeCasts_S32x36x1024_S1152x1024 (ix2 a f) = v (ix3 p r f) :=
  shapeCast_apply v _ _ _ (by
    rw [Shape.rowMajor_val_three, Shape.rowMajor_val_two]
    show (p.val * 36 + r.val) * 1024 + f.val = a.val * 1024 + f.val
    rw [ha]; omega)

/-- And back: entry (p, r, h) of the unflattened product is row `36 * p + r`. -/
theorem cast_out_apply {α : Type} (u : S1152x512.Idx → α) (p : Fin 32) (r : Fin 36) (h : Fin 512) (a : Fin 1152)
    (ha : a.val = 36 * p.val + r.val) :
    shapeCast S32x36x512 u shapeCasts_S1152x512_S32x36x512 (ix3 p r h) = u (ix2 a h) :=
  shapeCast_apply u _ _ _ (by
    rw [Shape.rowMajor_val_three, Shape.rowMajor_val_two]
    show a.val * 512 + h.val = (p.val * 36 + r.val) * 512 + h.val
    rw [ha]; omega)

/-- A vector over the hidden units spread over images and regions. -/
theorem bcast_h_apply {α : Type} (b : S1x1x512.Idx → α) (p : Fin 32) (r : Fin 36) (h : Fin 512) :
    broadcastTo S32x36x512 b broadcasts_S1x1x512_S32x36x512 (ix3 p r h) = b (ix3 (0 : Fin 1) (0 : Fin 1) h) :=
  broadcastTo_apply b _ _ _ (fun c => by
    match c with
    | ⟨0, _⟩ => rfl
    | ⟨1, _⟩ => rfl
    | ⟨2, _⟩ => rfl)

/-- A single number spread over images and regions. -/
theorem bcast_1_apply {α : Type} (b : S1x1x1.Idx → α) (p : Fin 32) (r : Fin 36) :
    broadcastTo S32x36x1 b broadcasts_S1x1x1_S32x36x1 (ix3 p r (0 : Fin 1)) = b (ix3 (0 : Fin 1) (0 : Fin 1) (0 : Fin 1)) :=
  broadcastTo_apply b _ _ _ (fun c => by
    match c with
    | ⟨0, _⟩ => rfl
    | ⟨1, _⟩ => rfl
    | ⟨2, _⟩ => rfl)

/-- The sum over the hidden units at (p, r). -/
theorem lane_sum_apply (v : FVec Ideal S32x36x512 .f32) (hφ : FKind.Formats FTy.f32) (hacc : (0x00000000#32 : BitVec 32) = 0x00000000#32)
    (p : Fin 32) (r : Fin 36) :
    multiReduction (F := Ideal) .add [2] S32x36 v 0x00000000#32 reduces_S32x36x512_S32x36 hφ hacc (ix2 p r)
      = ∑ h : Fin 512, v (ix3 p r h) := by
  refine (Ideal.multiReduction_add_single v 0x00000000#32 reduces_S32x36x512_S32x36 hφ hacc (ix2 p r)).trans ?_
  refine Finset.sum_congr rfl fun h _ => congrArg v (funext fun c => Fin.ext ?_)
  match c with
  | ⟨0, _⟩ => rfl
  | ⟨1, _⟩ => rfl
  | ⟨2, _⟩ => rfl

/-- The column of sums with a unit axis appended. -/
theorem cast_col_apply {α : Type} (u : S32x36.Idx → α) (p : Fin 32) (r : Fin 36) :
    shapeCast S32x36x1 u shapeCasts_S32x36_S32x36x1 (ix3 p r (0 : Fin 1)) = u (ix2 p r) :=
  shapeCast_apply u _ _ _ (by
    rw [Shape.rowMajor_val_three, Shape.rowMajor_val_two]
    show p.val * 36 + r.val = (p.val * 36 + r.val) * 1 + 0
    omega)

/-- The logit of region `r` of image `p`. The normalised region rows are flattened to 1152 rows, multiplied by the
    first layer's weights, unflattened, and the first layer's bias is added: at hidden unit `h` this is the sum over the
    features `f` of the normalised row at `f` times the weight at (f, h), plus the bias at `h`. Its positive part against
    the second layer's weights, summed over the hidden units, plus the second layer's bias, is the logit. -/
theorem pay3_apply (x0 : Vec Ideal S32x36x1024 .f32) (x1 : Vec Ideal S1024x512 .f32) (x2 x3 : Vec Ideal S1x1x512 .f32)
    (x4 : Vec Ideal S1x1x1 .f32) (p : Fin 32) (r : Fin 36) :
    k1_pay3 (F := Ideal) x0 x1 x2 x3 x4 (ix3 p r (0 : Fin 1))
      = Cert.Spec.lgt (fun h => (∑ f : Fin 1024, Cert.Spec.rown (fun k => x0 (ix3 p r k)) f * x1 (ix2 f h)) + x2 (ix3 (0 : Fin 1) (0 : Fin 1) h))
          (fun h => x3 (ix3 (0 : Fin 1) (0 : Fin 1) h)) (x4 (ix3 (0 : Fin 1) (0 : Fin 1) (0 : Fin 1))) := by
  have hlt : 36 * p.val + r.val < 1152 := by have := p.isLt; have := r.isLt; omega
  unfold k1_pay3
  dsimp only
  rw [addf_apply, bcast_1_apply, cast_col_apply, lane_sum_apply]
  unfold Cert.Spec.lgt
  simp only [shapeCast_self]
  refine congrArg (· + _) (Finset.sum_congr rfl fun h _ => ?_)
  rw [mulf_apply, maximumf_apply, bcast_h_apply, addf_apply, bcast_h_apply, broadcast_apply,
    cast_out_apply _ p r h ⟨36 * p.val + r.val, hlt⟩ rfl, mm_apply]
  simp only [cast_in_apply _ p r _ ⟨36 * p.val + r.val, hlt⟩ rfl, pay2_apply]
  rfl

end Cert.KernelIdeal.KPayC

end
-- ==== Proof.KSim.lean ====
import proofs.«424796_j87746181857679_3_alg».proof.Proof.Gen.KernelIdeal.Frame
import proofs.«424796_j87746181857679_3_alg».proof.Proof.Spec
import proofs.«424796_j87746181857679_3_alg».proof.Proof.KPayA
import proofs.«424796_j87746181857679_3_alg».proof.Proof.KPayB
import proofs.«424796_j87746181857679_3_alg».proof.Proof.KPayC
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

open scoped BigOperators

namespace Cert.KernelIdeal.KSim

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.KernelIdeal.KPayA Cert.KernelIdeal.KPayB Cert.KernelIdeal.KPayC

/-- The second kernel's stored value at row `p` of its block, caption `n`. -/
theorem pay1_apply (x0 : Vec Ideal S32x36x1024 .f32) (x1 : Vec Ideal S1024x512 .f32) (x2 x3 : Vec Ideal S1x1x512 .f32)
    (x4 : Vec Ideal S1x1x1 .f32) (x5 : Vec Ideal S1024x1024 .f32) (p : Fin 32) (n : Fin 1024) :
    k1_pay1 (F := Ideal) (k1_pay2 x0) (k1_pay3 x0 x1 x2 x3 x4) (k1_pay4 x0 x1 x2 x3 x4) x5 (ix2 p n)
      = Cert.Spec.core (fun r d => Cert.Spec.rown (fun k => x0 (ix3 p r k)) d)
          (fun r h => (∑ f : Fin 1024, Cert.Spec.rown (fun k => x0 (ix3 p r k)) f * x1 (ix2 f h)) + x2 (ix3 (0 : Fin 1) (0 : Fin 1) h))
          (fun h => x3 (ix3 (0 : Fin 1) (0 : Fin 1) h)) (x4 (ix3 (0 : Fin 1) (0 : Fin 1) (0 : Fin 1))) (fun d => x5 (ix2 n d)) := by
  unfold Cert.Spec.core
  refine pay1_core (k1_pay2 x0) (k1_pay3 x0 x1 x2 x3 x4) (k1_pay4 x0 x1 x2 x3 x4) x5 p n _ _ ?_ ?_ ?_
  · intro r d
    exact pay2_apply x0 p r d
  · intro r
    exact pay3_apply x0 x1 x2 x3 x4 p r
  · rw [pay4_apply]
    congr 1
    funext r
    exact pay3_apply x0 x1 x2 x3 x4 p r

variable (V : (c : Dev nD) → (b : Ref sig .tc) → Buf (Elt Ideal) ((c : Thread nD τ).loc b))

/-- The zero offsets of a rank-two access, as a constant function. -/
theorem zero2 : (![0, 0] : Fin 2 → Nat) = fun _ => 0 := funext fun a => by fin_cases a <;> rfl
/-- The zero offsets of a rank-three access, as a constant function. -/
theorem zero3 : (![0, 0, 0] : Fin 3 → Nat) = fun _ => 0 := funext fun a => by fin_cases a <;> rfl

/-- The block indices of the seven windows at every grid point: the image rows and the output rows move with the
    point, everything else stays at block zero. -/
theorem index_facts : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 3) = 0 ∧ win1_2.index t (1 : Fin 3) = 0 ∧ win1_2.index t (2 : Fin 3) = 0
    ∧ win1_3.index t (0 : Fin 3) = 0 ∧ win1_3.index t (1 : Fin 3) = 0 ∧ win1_3.index t (2 : Fin 3) = 0
    ∧ win1_4.index t (0 : Fin 3) = 0 ∧ win1_4.index t (1 : Fin 3) = 0 ∧ win1_4.index t (2 : Fin 3) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of the block of point `t` is row `32 t + p` of the whole array. -/
def rowOf (t : Fin cfg1.N) (p : Fin 32) : Fin 1024 :=
  ⟨t.val * 32 + p.val, by have h1 : t.val < 32 := t.isLt; have h2 := p.isLt; omega⟩

/-- The image window's block at point `t` reads the image array at rows `32 t + p`. -/
theorem blk0_apply (c : Dev nD) (imgA : FVec Ideal S1024x36x1024 .f32) (h0 : V c main_arg0 = imgA)
    (t : Fin cfg1.N) (p : Fin 32) (r : Fin 36) (k : Fin 1024) :
    iblk1 V c 0 t (ix3 p r k) = imgA (ix3 (rowOf t p) r k) := by
  obtain ⟨e0, e1, e2, -⟩ := index_facts t
  unfold iblk1
  rw [View.read_apply]
  show V c main_arg0 _ = _
  rw [h0]
  congr 1
  funext a
  apply Fin.ext
  match a with
  | ⟨0, _⟩ => show win1_0.index t (0 : Fin 3) * 32 + 1 * p.val = t.val * 32 + p.val; rw [e0]; omega
  | ⟨1, _⟩ => show win1_0.index t (1 : Fin 3) * 36 + 1 * r.val = r.val; rw [e1]; omega
  | ⟨2, _⟩ => show win1_0.index t (2 : Fin 3) * 1024 + 1 * k.val = k.val; rw [e2]; omega

/-- The first-layer weight window's one block is the whole weight array. -/
theorem blk1_apply (c : Dev nD) (wA : FVec Ideal S1024x512 .f32) (h1 : V c main_v38 = wA)
    (t : Fin cfg1.N) (f : Fin 1024) (h : Fin 512) :
    iblk1 V c 1 t (ix2 f h) = wA (ix2 f h) := by
  obtain ⟨-, -, -, e0, e1, -⟩ := index_facts t
  unfold iblk1
  rw [View.read_apply]
  show V c main_v38 _ = _
  rw [h1]
  congr 1
  funext a
  apply Fin.ext
  match a with
  | ⟨0, _⟩ => show win1_1.index t (0 : Fin 2) * 1024 + 1 * f.val = f.val; rw [e0]; omega
  | ⟨1, _⟩ => show win1_1.index t (1 : Fin 2) * 512 + 1 * h.val = h.val; rw [e1]; omega

/-- The query-half pre-activation window's one block is its whole array. -/
theorem blk2_apply (c : Dev nD) (biasA : FVec Ideal S1x1x512 .f32) (h2 : V c main_v37 = biasA)
    (t : Fin cfg1.N) (a0 a1 : Fin 1) (h : Fin 512) :
    iblk1 V c 2 t (ix3 a0 a1 h) = biasA (ix3 a0 a1 h) := by
  obtain ⟨-, -, -, -, -, e0, e1, e2, -⟩ := index_facts t
  unfold iblk1
  rw [View.read_apply]
  show V c main_v37 _ = _
  rw [h2]
  congr 1
  funext a
  apply Fin.ext
  match a with
  | ⟨0, _⟩ => show win1_2.index t (0 : Fin 3) * 1 + 1 * a0.val = a0.val; rw [e0]; omega
  | ⟨1, _⟩ => show win1_2.index t (1 : Fin 3) * 1 + 1 * a1.val = a1.val; rw [e1]; omega
  | ⟨2, _⟩ => show win1_2.index t (2 : Fin 3) * 512 + 1 * h.val = h.val; rw [e2]; omega

/-- The second-layer weight window's one block is its whole array. -/
theorem blk3_apply (c : Dev nD) (w1A : FVec Ideal S1x1x512 .f32) (h3 : V c main_v39 = w1A)
    (t : Fin cfg1.N) (a0 a1 : Fin 1) (h : Fin 512) :
    iblk1 V c 3 t (ix3 a0 a1 h) = w1A (ix3 a0 a1 h) := by
  obtain ⟨-, -, -, -, -, -, -, -, e0, e1, e2, -⟩ := index_facts t
  unfold iblk1
  rw [View.read_apply]
  show V c main_v39 _ = _
  rw [h3]
  congr 1
  funext a
  apply Fin.ext
  match a with
  | ⟨0, _⟩ => show win1_3.index t (0 : Fin 3) * 1 + 1 * a0.val = a0.val; rw [e0]; omega
  | ⟨1, _⟩ => show win1_3.index t (1 : Fin 3) * 1 + 1 * a1.val = a1.val; rw [e1]; omega
  | ⟨2, _⟩ => show win1_3.index t (2 : Fin 3) * 512 + 1 * h.val = h.val; rw [e2]; omega

/-- The second-layer bias window's one block is its whole array. -/
theorem blk4_apply (c : Dev nD) (b1A : FVec Ideal S1x1x1 .f32) (h4 : V c main_v40 = b1A)
    (t : Fin cfg1.N) (a0 a1 a2 : Fin 1) :
    iblk1 V c 4 t (ix3 a0 a1 a2) = b1A (ix3 a0 a1 a2) := by
  obtain ⟨-, -, -, -, -, -, -, -, -, -, -, e0, e1, e2, -⟩ := index_facts t
  unfold iblk1
  rw [View.read_apply]
  show V c main_v40 _ = _
  rw [h4]
  congr 1
  funext a
  apply Fin.ext
  match a with
  | ⟨0, _⟩ => show win1_4.index t (0 : Fin 3) * 1 + 1 * a0.val = a0.val; rw [e0]; omega
  | ⟨1, _⟩ => show win1_4.index t (1 : Fin 3) * 1 + 1 * a1.val = a1.val; rw [e1]; omega
  | ⟨2, _⟩ => show win1_4.index t (2 : Fin 3) * 1 + 1 * a2.val = a2.val; rw [e2]; omega

/-- The captions window's one block is the whole array of normalised caption averages. -/
theorem blk5_apply (c : Dev nD) (tnA : FVec Ideal S1024x1024 .f32) (h5 : V c main_v1 = tnA)
    (t : Fin cfg1.N) (n d : Fin 1024) :
    iblk1 V c 5 t (ix2 n d) = tnA (ix2 n d) := by
  obtain ⟨-, -, -, -, -, -, -, -, -, -, -, -, -, -, e0, e1, -⟩ := index_facts t
  unfold iblk1
  rw [View.read_apply]
  show V c main_v1 _ = _
  rw [h5]
  congr 1
  funext a
  apply Fin.ext
  match a with
  | ⟨0, _⟩ => show win1_5.index t (0 : Fin 2) * 1024 + 1 * n.val = n.val; rw [e0]; omega
  | ⟨1, _⟩ => show win1_5.index t (1 : Fin 2) * 1024 + 1 * d.val = d.val; rw [e1]; omega

/-- Entry `(p, n)` of the output block of point `t` sits at `(32 t + p, n)` of the output array. -/
theorem emb6_apply (t : Fin cfg1.N) (p : Fin 32) (n : Fin 1024) :
    ((cfg1.win 6).blk t).view.emb (ix2 p n) = ix2 (rowOf t p) n := by
  obtain ⟨-, -, -, -, -, -, -, -, -, -, -, -, -, -, -, -, e0, e1⟩ := index_facts t
  funext a
  apply Fin.ext
  match a with
  | ⟨0, _⟩ => show win1_6.index t (0 : Fin 2) * 32 + 1 * p.val = t.val * 32 + p.val; rw [e0]; omega
  | ⟨1, _⟩ => show win1_6.index t (1 : Fin 2) * 1024 + 1 * n.val = n.val; rw [e1]; omega

/-- What the output array ends holding, as one function of the six input arrays: image `i` against caption `n`. -/
def simOf (imgA : FVec Ideal S1024x36x1024 .f32) (wA : FVec Ideal S1024x512 .f32)
    (biasA w1A : FVec Ideal S1x1x512 .f32) (b1A : FVec Ideal S1x1x1 .f32) (tnA : FVec Ideal S1024x1024 .f32) (i n : Fin 1024) : EReal :=
  Cert.Spec.core (fun r d => Cert.Spec.rown (fun k => imgA (ix3 i r k)) d)
    (fun r h => (∑ f : Fin 1024, Cert.Spec.rown (fun k => imgA (ix3 i r k)) f * wA (ix2 f h)) + biasA (ix3 (0 : Fin 1) (0 : Fin 1) h))
    (fun h => w1A (ix3 (0 : Fin 1) (0 : Fin 1) h)) (b1A (ix3 (0 : Fin 1) (0 : Fin 1) (0 : Fin 1))) (fun d => tnA (ix2 n d))

/-- The same over the array's own indices. -/
def simArr (imgA : FVec Ideal S1024x36x1024 .f32) (wA : FVec Ideal S1024x512 .f32)
    (biasA w1A : FVec Ideal S1x1x512 .f32) (b1A : FVec Ideal S1x1x1 .f32) (tnA : FVec Ideal S1024x1024 .f32) : FVec Ideal S1024x1024 .f32 :=
  fun j => simOf imgA wA biasA w1A b1A tnA (j 0) (j 1)

/-- What point `t` stores at `(p, n)` of its block is the closed form at `(32 t + p, n)`. -/
theorem point_apply (c : Dev nD) (imgA : FVec Ideal S1024x36x1024 .f32) (wA : FVec Ideal S1024x512 .f32)
    (biasA w1A : FVec Ideal S1x1x512 .f32) (b1A : FVec Ideal S1x1x1 .f32) (tnA : FVec Ideal S1024x1024 .f32)
    (h0 : V c main_arg0 = imgA) (h1 : V c main_v38 = wA) (h2 : V c main_v37 = biasA) (h3 : V c main_v39 = w1A)
    (h4 : V c main_v40 = b1A) (h5 : V c main_v1 = tnA) (t : Fin cfg1.N) (p : Fin 32) (n : Fin 1024) :
    k1_pay1 (F := Ideal) (k1_pay2 (iblk1 V c 0 t)) (k1_pay3 (iblk1 V c 0 t) (iblk1 V c 1 t) (iblk1 V c 2 t) (iblk1 V c 3 t) (iblk1 V c 4 t))
        (k1_pay4 (iblk1 V c 0 t) (iblk1 V c 1 t) (iblk1 V c 2 t) (iblk1 V c 3 t) (iblk1 V c 4 t)) (iblk1 V c 5 t) (ix2 p n)
      = simOf imgA wA biasA w1A b1A tnA (rowOf t p) n := by
  refine (pay1_apply (iblk1 V c 0 t) (iblk1 V c 1 t) (iblk1 V c 2 t) (iblk1 V c 3 t) (iblk1 V c 4 t) (iblk1 V c 5 t) p n).trans ?_
  unfold simOf
  simp only [blk0_apply V c imgA h0, blk1_apply V c wA h1, blk2_apply V c biasA h2, blk3_apply V c w1A h3,
    blk4_apply V c b1A h4, blk5_apply V c tnA h5]

/-- What point `t` writes back is its block of the closed form. -/
theorem flushed_eq (c : Dev nD) (imgA : FVec Ideal S1024x36x1024 .f32) (wA : FVec Ideal S1024x512 .f32)
    (biasA w1A : FVec Ideal S1x1x512 .f32) (b1A : FVec Ideal S1x1x1 .f32) (tnA : FVec Ideal S1024x1024 .f32)
    (h0 : V c main_arg0 = imgA) (h1 : V c main_v38 = wA) (h2 : V c main_v37 = biasA) (h3 : V c main_v39 = w1A)
    (h4 : V c main_v40 = b1A) (h5 : V c main_v1 = tnA) (t : Fin cfg1.N) :
    (dat1 (F := Ideal) V c).flushed 6 t = ((cfg1.win 6).blk t).view.read (Elt Ideal) (simArr imgA wA biasA w1A b1A tnA) := by
  show (cfg1.win 6).cut (grid1.coords t) ((dat1 (F := Ideal) V c).after 6 t) = _
  rw [after1_6]
  unfold out1_6
  rw [View.canon_unit_zero zero2]
  simp only [View.ld_unit_zero (S := S32x36x1024) zero3, View.ld_unit_zero (S := S1024x512) zero2,
    View.ld_unit_zero (S := S1x1x512) zero3, View.ld_unit_zero (S := S1x1x1) zero3, View.ld_unit_zero (S := S1024x1024) zero2]
  funext j
  obtain ⟨p, n, rfl⟩ : ∃ (p : Fin 32) (n : Fin 1024), j = ix2 p n := ⟨j 0, j 1, eq_ix2 j⟩
  rw [View.read_apply, emb6_apply]
  exact point_apply V c imgA wA biasA w1A b1A tnA h0 h1 h2 h3 h4 h5 t p n

/-- An index of the output array is in the block of point `t` exactly when each coordinate is in the block's range. -/
theorem mem_blk6 (t : Fin cfg1.N) (i : S1024x1024.Idx) :
    i ∈ ((cfg1.win 6).blk t).view.set ↔ ∀ a : Fin 2, win1_6.index t a * S32x1024.size a ≤ (i a).val
      ∧ (i a).val < win1_6.index t a * S32x1024.size a + S32x1024.size a := by
  show i ∈ ((View.whole main_v41).slice (win1_6.rect t)).set ↔ _
  rw [View.set_slice_whole, Rect.mem_set_unit]
  exact Iff.rfl

/-- Every index of the output array is in some point's block: row `r` is in the block of point `r / 32`. -/
theorem cover6 (i : S1024x1024.Idx) :
    ∃ t : Fin cfg1.N, (cfg1.win 6).flush t = true ∧ i ∈ ((cfg1.win 6).blk t).view.set := by
  have hi0 : (i 0).val < 1024 := (i 0).isLt
  have hi1 : (i 1).val < 1024 := (i 1).isLt
  obtain ⟨t, ht⟩ : ∃ t : Fin cfg1.N, t.val = (i 0).val / 32 :=
    ⟨⟨(i 0).val / 32, by show (i 0).val / 32 < 32; omega⟩, rfl⟩
  obtain ⟨-, -, -, -, -, -, -, -, -, -, -, -, -, -, -, -, e0, e1⟩ := index_facts t
  refine ⟨t, flush1_6 t, ?_⟩
  rw [mem_blk6]
  intro a
  match a with
  | ⟨0, _⟩ =>
    show win1_6.index t (0 : Fin 2) * 32 ≤ (i 0).val ∧ (i 0).val < win1_6.index t (0 : Fin 2) * 32 + 32
    rw [e0, ht]; omega
  | ⟨1, _⟩ =>
    show win1_6.index t (1 : Fin 2) * 1024 ≤ (i 1).val ∧ (i 1).val < win1_6.index t (1 : Fin 2) * 1024 + 1024
    rw [e1]; omega

/-- So the output array ends holding the closed form everywhere. -/
theorem arr1_eq (c : Dev nD) (imgA : FVec Ideal S1024x36x1024 .f32) (wA : FVec Ideal S1024x512 .f32)
    (biasA w1A : FVec Ideal S1x1x512 .f32) (b1A : FVec Ideal S1x1x1 .f32) (tnA : FVec Ideal S1024x1024 .f32)
    (h0 : V c main_arg0 = imgA) (h1 : V c main_v38 = wA) (h2 : V c main_v37 = biasA) (h3 : V c main_v39 = w1A)
    (h4 : V c main_v40 = b1A) (h5 : V c main_v1 = tnA) :
    (dat1 (F := Ideal) V c).arrAt 6 cfg1.N = simArr imgA wA biasA w1A b1A tnA :=
  (dat1 (F := Ideal) V c).arrAt_eq_of_cover 6 (simArr imgA wA biasA w1A b1A tnA)
    (fun t _ => flushed_eq V c imgA wA biasA w1A b1A tnA h0 h1 h2 h3 h4 h5 t) cover6

/-- The second region's output array after its thirty-two points, entry by entry. -/
theorem arr1_apply (c : Dev nD) (imgA : FVec Ideal S1024x36x1024 .f32) (wA : FVec Ideal S1024x512 .f32)
    (biasA w1A : FVec Ideal S1x1x512 .f32) (b1A : FVec Ideal S1x1x1 .f32) (tnA : FVec Ideal S1024x1024 .f32)
    (h0 : V c main_arg0 = imgA) (h1 : V c main_v38 = wA) (h2 : V c main_v37 = biasA) (h3 : V c main_v39 = w1A)
    (h4 : V c main_v40 = b1A) (h5 : V c main_v1 = tnA) (i n : Fin 1024) :
    (dat1 (F := Ideal) V c).arrAt 6 cfg1.N (ix2 i n)
      = Cert.Spec.core (fun r d => Cert.Spec.rown (fun k => imgA (ix3 i r k)) d)
          (fun r h => (∑ f : Fin 1024, Cert.Spec.rown (fun k => imgA (ix3 i r k)) f * wA (ix2 f h)) + biasA (ix3 (0 : Fin 1) (0 : Fin 1) h))
          (fun h => w1A (ix3 (0 : Fin 1) (0 : Fin 1) h)) (b1A (ix3 (0 : Fin 1) (0 : Fin 1) (0 : Fin 1))) (fun d => tnA (ix2 n d)) := by
  exact congrFun (arr1_eq V c imgA wA biasA w1A b1A tnA h0 h1 h2 h3 h4 h5) (ix2 i n)

end Cert.KernelIdeal.KSim

end
-- ==== Proof.KBias.lean ====
import proofs.«424796_j87746181857679_3_alg».proof.Proof.Gen.KernelIdeal

set_option maxRecDepth 16384

noncomputable section

open scoped BigOperators

namespace Cert.KernelIdeal.KBias

open Cert.KernelIdeal Cert.KernelIdeal.Facts₀ Cert.KernelIdeal.Facts Idealize.ShloMosaic

variable {F : FTy → Type} [FloatOps F]

/-- The query as the host operations between the two regions compute it from the captions and the lengths: the
    first caption's token rows through the leaky map and the normalisation, masked by the first length word,
    summed over the tokens, over the larger of that length and one. -/
def qTerm (a1 : FVec F S1024x50x1024 .f32) (a2 : IVec S1024 32) : FVec F S1024 .f32 :=
  let v2 : FVec F S1x50x1024 .f32 := extractStridedSlice S1x50x1024 ![0, 0, 0] a1 slices_S1024x50x1024_S1x50x1024_0_0_0
  let v3 : FVec F S50x1024 .f32 := shapeCast S50x1024 v2 shapeCasts_S1x50x1024_S50x1024
  let cst : FVec F S_ .f32 := constant S_ .f32 0x00000000#32
  let v4 : FVec F S50x1024 .f32 := broadcastInDim S50x1024 ![] bcast_S_S50x1024 cst
  let v5 : IVec S50x1024 1 := cmpf .oge v3 v4
  let cst_0 : FVec F S_ .f32 := constant S_ .f32 0x3DCCCCCD#32
  let v6 : FVec F S50x1024 .f32 := broadcastInDim S50x1024 ![] bcast_S_S50x1024 cst_0
  let v7 : FVec F S50x1024 .f32 := mulf v6 v3
  let v8 : FVec F S50x1024 .f32 := select v5 v3 v7
  let n0 : FVec F S50x1024 .f32 := mulf v8 v8
  let ncst : FVec F S_ .f32 := constant S_ .f32 0x00000000#32
  let n1 : FVec F S50 .f32 := Host.reduceAdd n0 ncst reducesTo_S50x1024_S50_d1 h_S_
  let n2 : FVec F S50x1 .f32 := broadcastInDim S50x1 ![0] bcast_S50_S50x1_0 n1
  let v9 : FVec F S50x1 .f32 := Host.sqrt n2
  let cst_1 : FVec F S_ .f32 := constant S_ .f32 0x2B8CBCCC#32
  let v10 : FVec F S50x1 .f32 := broadcastInDim S50x1 ![] bcast_S_S50x1 cst_1
  let v11 : FVec F S50x1 .f32 := maximumf v9 v10
  let v12 : FVec F S50x1024 .f32 := broadcastInDim S50x1024 ![0, 1] bcast_S50x1_S50x1024_0_1 v11
  let v13 : FVec F S50x1024 .f32 := Host.divf v8 v12
  let v14 : IVec S1 32 := extractStridedSlice S1 ![0] a2 slices_S1024_S1_0
  let v15 : IVec S_ 32 := shapeCast S_ v14 shapeCasts_S1_S_
  let v16 : FVec F S_ .f32 := sitofp .f32 v15
  let cst_2 : FVec F S_ .f32 := constant S_ .f32 0x3F800000#32
  let v17 : FVec F S_ .f32 := maximumf v16 cst_2
  let v18 : IVec S50 32 := iotaInDim S50 32 0
  let v21 : IVec S50 32 := broadcastInDim S50 ![] bcast_S_S50 v15
  let v22 : IVec S50 1 := cmpi .slt v18 v21
  let v23 : FVec F S50 .f32 := uitofp .f32 v22
  let v24 : FVec F S50x1 .f32 := broadcastInDim S50x1 ![0] bcast_S50_S50x1_0 v23
  let v25 : FVec F S50x1024 .f32 := broadcastInDim S50x1024 ![0, 1] bcast_S50x1_S50x1024_0_1 v24
  let v26 : FVec F S50x1024 .f32 := mulf v13 v25
  let cst_3 : FVec F S_ .f32 := constant S_ .f32 0x00000000#32
  let v27 : FVec F S1024 .f32 := Host.reduceAdd v26 cst_3 reducesTo_S50x1024_S1024_d0 h_S_
  let v28 : FVec F S1024 .f32 := broadcastInDim S1024 ![] bcast_S_S1024 v17
  Host.divf v27 v28

/-- The bias the second region is given: the query against the first half of the first weight matrix, plus the
    first layer's bias. -/
def biasTerm (a1 : FVec F S1024x50x1024 .f32) (a2 : IVec S1024 32) (a3 : FVec F S512x2048 .f32) (a4 : FVec F S512 .f32) :
    FVec F S1x1x512 .f32 :=
  let v30 : FVec F S512x1024 .f32 := extractStridedSlice S512x1024 ![0, 0] a3 slices_S512x2048_S512x1024_0_0
  let v32 : FVec F S1x1024 .f32 := broadcastInDim S1x1024 ![1] bcast_S1024_S1x1024_1 (qTerm a1 a2)
  let v33 : FVec F S1024x512 .f32 := transpose S1024x512 [1, 0] v30 transposes_S512x1024_S1024x512_1_0
  let v34 : FVec F S1x512 .f32 := Host.dotGeneral dot_S1x1024_S1024x512_S1x512_1_0_0_1_n_n (some .fp32) v32 v33
  let v35 : FVec F S1x512 .f32 := broadcastInDim S1x512 ![1] bcast_S512_S1x512_1 a4
  let v36 : FVec F S1x512 .f32 := addf v34 v35
  shapeCast S1x1x512 v36 shapeCasts_S1x512_S1x1x512

/-- The second half of the first weight matrix, transposed, as the second region is given it. -/
def wimgTerm (a3 : FVec F S512x2048 .f32) : FVec F S1024x512 .f32 :=
  transpose S1024x512 [1, 0] (extractStridedSlice S512x1024 ![0, 1024] a3 slices_S512x2048_S512x1024_0_1024)
    transposes_S512x1024_S1024x512_1_0

end Cert.KernelIdeal.KBias

end
-- ==== Proof.LibSsa.lean ====
/-
  Straight-line host programs read in single-assignment form.

  A host program is a list of operations, each of which overwrites one buffer with a function of the contents of
  other buffers; `after ops V` is the fold of those overwrites over starting contents `V`. When every buffer is
  written at most once, and only after the last time an earlier operation has read or written it, the final contents
  satisfy one EQUATION per operation: the buffer an operation writes ends at the operation's function of the FINAL
  contents of the buffers it reads. The lemmas below prove that equation for each kind of operation from two facts
  about the list that are decided by inspection of the buffers' names: the buffer written at position `k` is not
  written again later, and the buffers read at position `k` are not written at position `k` or later.
-/
import Idealize.ShloMosaic.Lib.StableHlo.Run

noncomputable section

namespace Idealize.ShloMosaic.StableHlo.Ssa

open Idealize.ShloMosaic Idealize.ShloMosaic.StableHlo

variable {τ : Topo} {sig : RefSig} {Val : EltTy → Type}

/-- Running two lines one after the other folds the second over what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- `W` names, operation by operation, the one buffer each operation of the line writes. -/
def WritesOnly : List (HloOp τ sig Val) → List (Ref sig .tc) → Prop
  | [], [] => True
  | op :: ops, w :: W => op.writes = {Proc.devRef .tc w} ∧ WritesOnly ops W
  | [], _ :: _ => False
  | _ :: _, [] => False

theorem WritesOnly.drop : ∀ (k : Nat) (ops : List (HloOp τ sig Val)) (W : List (Ref sig .tc)),
    WritesOnly ops W → WritesOnly (ops.drop k) (W.drop k)
  | 0, _, _, h => h
  | _ + 1, [], [], _ => trivial
  | k + 1, _ :: ops, _ :: W, h => WritesOnly.drop k ops W h.2
  | _ + 1, [], _ :: _, h => h.elim
  | _ + 1, _ :: _, [], h => h.elim

/-- A buffer whose name is not among the written ones keeps its contents through the line. -/
theorem after_of_not_written : ∀ (ops : List (HloOp τ sig Val)) (W : List (Ref sig .tc)) (V : Valuation τ sig Val)
    (r : Ref sig .tc), WritesOnly ops W → r ∉ W → after ops V (Proc.devRef .tc r) = V (Proc.devRef .tc r)
  | [], [], _, _, _, _ => rfl
  | op :: ops, w :: W, V, r, h, hr => by
    have hrw : r ≠ w := fun e => hr (e ▸ List.mem_cons_self)
    have hrW : r ∉ W := fun e => hr (List.mem_cons_of_mem _ e)
    rw [after_cons, after_of_not_written ops W _ r h.2 hrW, op.result_of_not_mem V]
    rw [h.1, Finset.mem_singleton]
    exact devRef_ne_of_ne hrw
  | [], _ :: _, _, _, h, _ => h.elim
  | _ :: _, [], _, _, h, _ => h.elim

variable (ops : List (HloOp τ sig Val)) (W : List (Ref sig .tc)) (hW : WritesOnly ops W) (V : Valuation τ sig Val)
include hW

/-- The buffer written at position `k` and never again ends at that operation's result over the contents the
    first `k` operations leave. -/
theorem after_at (k : Nat) (op : HloOp τ sig Val) (y : Ref sig .tc)
    (hop : ops.drop k = op :: ops.drop (k + 1)) (hy : y ∉ W.drop (k + 1)) :
    after ops V (Proc.devRef .tc y) = op.result (after (ops.take k) V) (Proc.devRef .tc y) := by
  conv_lhs => rw [← List.take_append_drop k ops, after_append, hop, after_cons]
  exact after_of_not_written _ _ _ y (hW.drop (k + 1)) hy

/-- A buffer not written at position `k` or later already has its final contents after the first `k` operations. -/
theorem after_take (k : Nat) (x : Ref sig .tc) (hx : x ∉ W.drop k) :
    after (ops.take k) V (Proc.devRef .tc x) = after ops V (Proc.devRef .tc x) := by
  conv_rhs => rw [← List.take_append_drop k ops, after_append]
  exact (after_of_not_written _ _ _ x (hW.drop k) hx).symm

/-- A buffer no operation writes keeps its starting contents. -/
theorem after_arg (x : Ref sig .tc) (hx : x ∉ W) : after ops V (Proc.devRef .tc x) = V (Proc.devRef .tc x) :=
  after_of_not_written ops W V x hW hx

theorem ssa_nullary (k : Nat) (y : Ref sig .tc) (v : y.ty.Contents Val) (hy)
    (hop : ops.drop k = nullary y v hy :: ops.drop (k + 1)) (hy' : y ∉ W.drop (k + 1)) :
    after ops V (Proc.devRef .tc y) = v := by
  rw [after_at ops W hW V k _ y hop hy']; exact nullary_result y v hy _

theorem ssa_unary (k : Nat) (x y : Ref sig .tc) (f : x.ty.Contents Val → y.ty.Contents Val) (hx hy)
    (hop : ops.drop k = unary x y f hx hy :: ops.drop (k + 1)) (hy' : y ∉ W.drop (k + 1)) (hx' : x ∉ W.drop k) :
    after ops V (Proc.devRef .tc y) = f (after ops V (Proc.devRef .tc x)) := by
  rw [after_at ops W hW V k _ y hop hy', ← after_take ops W hW V k x hx']; exact unary_result x y f hx hy _

theorem ssa_binary (k : Nat) (a b y : Ref sig .tc) (f : a.ty.Contents Val → b.ty.Contents Val → y.ty.Contents Val) (ha hb hy)
    (hop : ops.drop k = binary a b y f ha hb hy :: ops.drop (k + 1)) (hy' : y ∉ W.drop (k + 1))
    (ha' : a ∉ W.drop k) (hb' : b ∉ W.drop k) :
    after ops V (Proc.devRef .tc y) = f (after ops V (Proc.devRef .tc a)) (after ops V (Proc.devRef .tc b)) := by
  rw [after_at ops W hW V k _ y hop hy', ← after_take ops W hW V k a ha', ← after_take ops W hW V k b hb']
  exact binary_result a b y f ha hb hy _

theorem ssa_ternary (k : Nat) (c a b y : Ref sig .tc)
    (f : c.ty.Contents Val → a.ty.Contents Val → b.ty.Contents Val → y.ty.Contents Val) (hc ha hb hy)
    (hop : ops.drop k = ternary c a b y f hc ha hb hy :: ops.drop (k + 1)) (hy' : y ∉ W.drop (k + 1))
    (hc' : c ∉ W.drop k) (ha' : a ∉ W.drop k) (hb' : b ∉ W.drop k) :
    after ops V (Proc.devRef .tc y)
      = f (after ops V (Proc.devRef .tc c)) (after ops V (Proc.devRef .tc a)) (after ops V (Proc.devRef .tc b)) := by
  rw [after_at ops W hW V k _ y hop hy', ← after_take ops W hW V k c hc', ← after_take ops W hW V k a ha',
    ← after_take ops W hW V k b hb']
  exact ternary_result c a b y f hc ha hb hy _

theorem ssa_reshape (k : Nat) (x y : Ref sig .tc) (he : x.ty.elt = y.ty.elt) (hn : x.ty.shape.ShapeCasts y.ty.shape) (hx hy)
    (hop : ops.drop k = reshape (Val := Val) x y he hn hx hy :: ops.drop (k + 1)) (hy' : y ∉ W.drop (k + 1))
    (hx' : x ∉ W.drop k) :
    after ops V (Proc.devRef .tc y) = fun i => he ▸ shapeCast y.ty.shape (after ops V (Proc.devRef .tc x)) hn i := by
  rw [after_at ops W hW V k _ y hop hy', ← after_take ops W hW V k x hx']; exact reshape_result x y he hn hx hy _

theorem ssa_nary (k : Nat) {n : Nat} (xs : Fin n → Ref sig .tc) (y : Ref sig .tc)
    (f : ((j : Fin n) → (xs j).ty.Contents Val) → y.ty.Contents Val) (hxs hy)
    (hop : ops.drop k = nary xs y f hxs hy :: ops.drop (k + 1)) (hy' : y ∉ W.drop (k + 1))
    (hxs' : ∀ j, xs j ∉ W.drop k) :
    after ops V (Proc.devRef .tc y) = f (fun j => after ops V (Proc.devRef .tc (xs j))) := by
  rw [after_at ops W hW V k _ y hop hy', nary_result]
  exact congrArg f (funext fun j => after_take ops W hW V k (xs j) (hxs' j))

end Idealize.ShloMosaic.StableHlo.Ssa

end
-- ==== Proof.KHost.lean ====
import proofs.«424796_j87746181857679_3_alg».proof.Proof.Gen.KernelIdeal.Frame
import proofs.«424796_j87746181857679_3_alg».proof.Proof.KBias
import proofs.«424796_j87746181857679_3_alg».proof.Proof.LibSsa
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

open scoped BigOperators

namespace Cert.KernelIdeal.KHost

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.KernelIdeal.KBias Idealize.ShloMosaic.StableHlo

variable (m : (ℓ : Loc nD τ sig) → Buf (Elt Ideal) ℓ) (ρ : Dev nD → PrngReg)

/-! ## The buffers each stretch of host operations writes, in order -/

abbrev wr0 : List (Ref sig .tc) := [main_v0]
abbrev wr1 : List (Ref sig .tc) := [main_v2, main_v3, main_cst, main_v4, main_v5, main_cst_0, main_v6, main_v7]
abbrev wr1_1 : List (Ref sig .tc) := [main_v8]
abbrev wr1_2 : List (Ref sig .tc) := [main_call1_v0, main_call1_cst, main_call1_v1, main_call1_v2, main_v9]
abbrev wr1_3 : List (Ref sig .tc) :=
  [main_cst_1, main_v10, main_v11, main_v12, main_v13, main_v14, main_v15, main_v16, main_cst_2, main_v17, main_v18,
   main_v19, main_v20, main_v21, main_v22, main_v23, main_v24, main_v25, main_v26, main_cst_3, main_v27, main_v28,
   main_v29, main_v30, main_v31, main_v32, main_v33, main_v34, main_v35, main_v36, main_v37, main_v38, main_v39, main_v40]

theorem hW0 : Ssa.WritesOnly (hostOps0 (F := Ideal)) wr0 := ⟨rfl, trivial⟩
theorem hW1 : Ssa.WritesOnly (hostOps1 (F := Ideal)) wr1 := ⟨rfl, rfl, rfl, rfl, rfl, rfl, rfl, rfl, trivial⟩
theorem hW1_1 : Ssa.WritesOnly (hostOps1_1 (F := Ideal)) wr1_1 := ⟨rfl, trivial⟩
theorem hW1_2 : Ssa.WritesOnly (hostOps1_2 (F := Ideal)) wr1_2 := ⟨rfl, rfl, rfl, rfl, rfl, trivial⟩
theorem hW1_3 : Ssa.WritesOnly (hostOps1_3 (F := Ideal)) wr1_3 :=
  ⟨rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, trivial⟩

/-- A buffer none of the four stretches between the regions writes holds at the second region's entry what the
    first region left in it. -/
theorem W6_keeps (c : Dev nD) (r : Ref sig .tc) (h1 : r ∉ wr1) (h2 : r ∉ wr1_1) (h3 : r ∉ wr1_2) (h4 : r ∉ wr1_3) :
    W6 m ρ c (Proc.devRef .tc r) = W2 m ρ c (Proc.devRef .tc r) :=
  calc W6 m ρ c (Proc.devRef .tc r)
    _ = W5 m ρ c (Proc.devRef .tc r) := Ssa.after_arg _ _ hW1_3 _ r h4
    _ = W4 m ρ c (Proc.devRef .tc r) := Ssa.after_arg _ _ hW1_2 _ r h3
    _ = W3 m ρ c (Proc.devRef .tc r) := Ssa.after_arg _ _ hW1_1 _ r h2
    _ = W2 m ρ c (Proc.devRef .tc r) := Ssa.after_arg _ _ hW1 _ r h1

/-- A buffer the three stretches before the last do not write holds at the last stretch's start what the first
    region left in it. -/
theorem W5_keeps (c : Dev nD) (r : Ref sig .tc) (h1 : r ∉ wr1) (h2 : r ∉ wr1_1) (h3 : r ∉ wr1_2) :
    W5 m ρ c (Proc.devRef .tc r) = W2 m ρ c (Proc.devRef .tc r) :=
  calc W5 m ρ c (Proc.devRef .tc r)
    _ = W4 m ρ c (Proc.devRef .tc r) := Ssa.after_arg _ _ hW1_2 _ r h3
    _ = W3 m ρ c (Proc.devRef .tc r) := Ssa.after_arg _ _ hW1_1 _ r h2
    _ = W2 m ρ c (Proc.devRef .tc r) := Ssa.after_arg _ _ hW1 _ r h1

/-- An argument other than the captions and the lengths' column is in no window of the first region and is
    written by no host operation before it: the first region leaves it as launched. -/
theorem W2_launch (c : Dev nD) (r : Ref sig .tc) (hw : ∀ w, Pipeline.arrRef spec0 w ≠ r) (h0 : r ∉ wr0) :
    W2 m ρ c (Proc.devRef .tc r) = m ((c.tc : Thread nD τ).loc r) :=
  calc W2 m ρ c (Proc.devRef .tc r)
    _ = W1 m ρ c (Proc.devRef .tc r) := W2_of_ne m ρ c r hw
    _ = W0 m ρ c (Proc.devRef .tc r) := Ssa.after_arg _ _ hW0 _ r h0
    _ = m ((c.tc : Thread nD τ).loc r) := rfl

/-! ## What the buffers the two regions read hold when each region is entered, as functions of the launch memory -/

theorem V1_v0 (c : Dev nD) :
    (V1 m ρ c main_v0 : IVec S1024x1 32) = shapeCast S1024x1 (m ((c.tc : Thread nD τ).loc main_arg2) : IVec S1024 32) shapeCasts_S1024_S1024x1 := by
  show StableHlo.after hostOps0 (W0 m ρ c) (Proc.devRef .tc main_v0) = _
  after_results
  rfl

theorem V1_arg1 (c : Dev nD) : V1 m ρ c main_arg1 = m ((c.tc : Thread nD τ).loc main_arg1) :=
  Ssa.after_arg _ _ hW0 _ main_arg1 (by decide)

theorem V6_arg0 (c : Dev nD) : V6 m ρ c main_arg0 = m ((c.tc : Thread nD τ).loc main_arg0) :=
  (W6_keeps m ρ c main_arg0 (by decide) (by decide) (by decide) (by decide)).trans
    (W2_launch m ρ c main_arg0 (by decide) (by decide))

theorem V6_v1 (c : Dev nD) : V6 m ρ c main_v1 = (dat0 (F := Ideal) (V1 m ρ) c).arrAt 2 cfg0.N :=
  (W6_keeps m ρ c main_v1 (by decide) (by decide) (by decide) (by decide)).trans (W2_arr m ρ c 2)

/-! ## The four stretches between the regions, over any contents at the first region's exit

Over arbitrary contents `V`: each result is the stretches' own operations applied to what `V` holds at the
arguments they read. -/

section Between

variable (V : Valuation τ sig (Elt Ideal))

/-- The contents the four stretches leave, from contents `V`. -/
abbrev between : Valuation τ sig (Elt Ideal) :=
  StableHlo.after hostOps1_3 (StableHlo.after hostOps1_2 (StableHlo.after hostOps1_1 (StableHlo.after hostOps1 V)))

/-- The second half of the first weight matrix, transposed: a slice of the fourth argument, then a transpose. -/
theorem between_v38 :
    (between V (Proc.devRef .tc main_v38) : FVec Ideal S1024x512 .f32)
      = wimgTerm (F := Ideal) (V (Proc.devRef .tc main_arg3) : FVec Ideal S512x2048 .f32) := by
  show StableHlo.after hostOps1_3 (StableHlo.after hostOps1_2 (StableHlo.after hostOps1_1 (StableHlo.after hostOps1 V))) (Proc.devRef .tc main_v38) = _
  after_results_simp
  rfl

/-- The second layer's weights with a unit axis added. -/
theorem between_v39 :
    (between V (Proc.devRef .tc main_v39) : FVec Ideal S1x1x512 .f32)
      = shapeCast S1x1x512 (V (Proc.devRef .tc main_arg5) : FVec Ideal S1x512 .f32) shapeCasts_S1x512_S1x1x512 := by
  show StableHlo.after hostOps1_3 (StableHlo.after hostOps1_2 (StableHlo.after hostOps1_1 (StableHlo.after hostOps1 V))) (Proc.devRef .tc main_v39) = _
  after_results_simp
  rfl

/-- The second layer's bias with two unit axes added. -/
theorem between_v40 :
    (between V (Proc.devRef .tc main_v40) : FVec Ideal S1x1x1 .f32)
      = shapeCast S1x1x1 (V (Proc.devRef .tc main_arg6) : FVec Ideal S1 .f32) shapeCasts_S1_S1x1x1 := by
  show StableHlo.after hostOps1_3 (StableHlo.after hostOps1_2 (StableHlo.after hostOps1_1 (StableHlo.after hostOps1 V))) (Proc.devRef .tc main_v40) = _
  after_results_simp
  rfl

/-- The bias the second region is given: every operation from the first caption's slice to the final reshape,
    each intermediate buffer written once and read only afterwards, composes to `biasTerm` of the four arguments
    (the length word is sliced twice, to the same value). -/
theorem between_v37 :
    (between V (Proc.devRef .tc main_v37) : FVec Ideal S1x1x512 .f32)
      = biasTerm (F := Ideal) (V (Proc.devRef .tc main_arg1) : FVec Ideal S1024x50x1024 .f32)
          (V (Proc.devRef .tc main_arg2) : IVec S1024 32) (V (Proc.devRef .tc main_arg3) : FVec Ideal S512x2048 .f32)
          (V (Proc.devRef .tc main_arg4) : FVec Ideal S512 .f32) := by
  show StableHlo.after hostOps1_3 (StableHlo.after hostOps1_2 (StableHlo.after hostOps1_1 (StableHlo.after hostOps1 V))) (Proc.devRef .tc main_v37) = _
  after_results_simp
  rfl

end Between

/-- The captions are an input window of the first region, which leaves an input as entered; no operation before
    the region writes them. -/
theorem W2_arg1 (c : Dev nD) : W2 m ρ c (Proc.devRef .tc main_arg1) = m ((c.tc : Thread nD τ).loc main_arg1) :=
  calc W2 m ρ c (Proc.devRef .tc main_arg1)
    _ = W1 m ρ c (Proc.devRef .tc main_arg1) :=
        (W2_arr m ρ c 1).trans (((dat0 (F := Ideal) (V1 m ρ) c).arrAt_in 1 rfl _).trans (A_eq0 (V1 m ρ) c 1))
    _ = m ((c.tc : Thread nD τ).loc main_arg1) := V1_arg1 m ρ c

theorem V6_v38 (c : Dev nD) :
    (V6 m ρ c main_v38 : FVec Ideal S1024x512 .f32) = wimgTerm (F := Ideal) (m ((c.tc : Thread nD τ).loc main_arg3) : FVec Ideal S512x2048 .f32) := by
  refine (between_v38 (W2 m ρ c)).trans ?_
  rw [W2_launch m ρ c main_arg3 (by decide) (by decide)]

theorem V6_v37 (c : Dev nD) :
    (V6 m ρ c main_v37 : FVec Ideal S1x1x512 .f32)
      = biasTerm (F := Ideal) (m ((c.tc : Thread nD τ).loc main_arg1) : FVec Ideal S1024x50x1024 .f32) (m ((c.tc : Thread nD τ).loc main_arg2) : IVec S1024 32)
          (m ((c.tc : Thread nD τ).loc main_arg3) : FVec Ideal S512x2048 .f32) (m ((c.tc : Thread nD τ).loc main_arg4) : FVec Ideal S512 .f32) := by
  refine (between_v37 (W2 m ρ c)).trans ?_
  rw [W2_arg1 m ρ c, W2_launch m ρ c main_arg2 (by decide) (by decide), W2_launch m ρ c main_arg3 (by decide) (by decide),
    W2_launch m ρ c main_arg4 (by decide) (by decide)]

theorem V6_v39 (c : Dev nD) :
    (V6 m ρ c main_v39 : FVec Ideal S1x1x512 .f32) = shapeCast S1x1x512 (m ((c.tc : Thread nD τ).loc main_arg5) : FVec Ideal S1x512 .f32) shapeCasts_S1x512_S1x1x512 := by
  refine (between_v39 (W2 m ρ c)).trans ?_
  rw [W2_launch m ρ c main_arg5 (by decide) (by decide)]

theorem V6_v40 (c : Dev nD) :
    (V6 m ρ c main_v40 : FVec Ideal S1x1x1 .f32) = shapeCast S1x1x1 (m ((c.tc : Thread nD τ).loc main_arg6) : FVec Ideal S1 .f32) shapeCasts_S1_S1x1x1 := by
  refine (between_v40 (W2 m ρ c)).trans ?_
  rw [W2_launch m ρ c main_arg6 (by decide) (by decide)]

end Cert.KernelIdeal.KHost

end
-- ==== Proof.KBiasQ.lean ====
/-
  The query the host computes between the two regions, read at one feature.

  The first caption's fifty token rows are cut out of the captions and the unit axis is dropped: entry (t, k) is the
  captions' entry (0, t, k). Each entry goes through the leaky map; a row's squares are summed over the features
  (zero plus the sum is the sum); the sum's root, held to at least the small constant, divides the row. The first
  length word, as a scalar, is compared with the token numbers to give the mask (one where the token number is below
  the length read signed, else zero), and, read signed and held to at least one, gives the divisor. The masked rows
  are summed over the tokens and the sum is divided. Each operation is read at an index on its own, over explicit
  coordinates; the theorem chains the readings from the outermost operation inwards.
-/
import proofs.«424796_j87746181857679_3_alg».proof.Proof.KBias
import proofs.«424796_j87746181857679_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

open scoped BigOperators

namespace Cert.KernelIdeal.KBiasQ

open Cert.KernelIdeal Cert.KernelIdeal.Facts₀ Cert.KernelIdeal.Facts Idealize.ShloMosaic Idealize.ShloMosaic.TcCoe Idealize.ShloMosaic.ValueIdx Idealize.SL.Sem
open Idealize.ShloMosaic.Pipeline (Dat Cfg Window)
open Cert.KernelIdeal.KBias

/-- The first caption's token rows: the slice at caption 0, with the unit axis dropped, at (t, k) is the captions' entry (0, t, k). -/
theorem rows_apply (a1 : FVec Ideal S1024x50x1024 .f32) (t : Fin 50) (k : Fin 1024) :
    shapeCast S50x1024 (extractStridedSlice S1x50x1024 ![0, 0, 0] a1 slices_S1024x50x1024_S1x50x1024_0_0_0)
      shapeCasts_S1x50x1024_S50x1024 (ix2 t k) = a1 (ix3 (0 : Fin 1024) t k) := by
  refine (shapeCast_1ab_ab_apply _ _ t k).trans ?_
  exact extractStridedSlice_apply _ a1 _ _ _ (fun a => match a with
    | ⟨0, _⟩ => rfl
    | ⟨1, _⟩ => (Nat.zero_add _).symm
    | ⟨2, _⟩ => (Nat.zero_add _).symm)

/-- A scalar constant broadcast to any shape reads the constant's value. -/
theorem bconst_apply {T : Shape} (h : S_.BroadcastsInDim T ![]) (b : BitVec 32) (j : T.Idx) :
    broadcastInDim T ![] h (constant (F := Ideal) S_ .f32 b) j = Ideal.ofBits .f32 b :=
  broadcastInDim_scalar_apply h _ j

/-- The leaky map entry by entry. -/
theorem leaky_apply (x : FVec Ideal S50x1024 .f32) (j : S50x1024.Idx) :
    select (cmpf .oge x (broadcastInDim S50x1024 ![] bcast_S_S50x1024 (constant (F := Ideal) S_ .f32 0x00000000#32))) x
      (mulf (broadcastInDim S50x1024 ![] bcast_S_S50x1024 (constant (F := Ideal) S_ .f32 0x3DCCCCCD#32)) x) j
      = Cert.Spec.lk (x j) := by
  rw [select_apply, cmpf_apply, mulf_apply, bconst_apply, bconst_apply]
  rfl

/-- The sum over the feature axis, at token t: the initial value plus the sum over the features. -/
theorem rowsum_apply (y : FVec Ideal S50x1024 .f32) (c : FVec Ideal S_ .f32) (t : Fin 50) :
    Host.reduceAdd y c reducesTo_S50x1024_S50_d1 h_S_ (ix1 t) = c ix0 + ∑ k : Fin 1024, y (ix2 t k) := by
  simp only [Host.reduceAdd, Ideal.hostReduceAdd_def]
  rw [Ideal.hostReduceAdd_single reducesTo_S50x1024_S50_d1 (by decide)]
  refine congrArg₂ (· + ·) (congrArg c (funext fun a => a.elim0)) (Finset.sum_congr rfl fun k _ => ?_)
  exact congrArg y (funext fun a => Fin.ext (by match a with | ⟨0, _⟩ => rfl | ⟨1, _⟩ => rfl))

/-- The sum over the token axis, at feature d. -/
theorem colsum_apply (y : FVec Ideal S50x1024 .f32) (c : FVec Ideal S_ .f32) (d : Fin 1024) :
    Host.reduceAdd y c reducesTo_S50x1024_S1024_d0 h_S_ (ix1 d) = c ix0 + ∑ t : Fin 50, y (ix2 t d) := by
  simp only [Host.reduceAdd, Ideal.hostReduceAdd_def]
  rw [Ideal.hostReduceAdd_single reducesTo_S50x1024_S1024_d0 (by decide)]
  refine congrArg₂ (· + ·) (congrArg c (funext fun a => a.elim0)) (Finset.sum_congr rfl fun k _ => ?_)
  exact congrArg y (funext fun a => Fin.ext (by match a with | ⟨0, _⟩ => rfl | ⟨1, _⟩ => rfl))

/-- A vector over the tokens given a unit second axis reads, at (t, u), the vector at t. -/
theorem col_apply {α : Type} (x : S50.Idx → α) (t : Fin 50) (u : Fin 1) :
    broadcastInDim S50x1 ![0] bcast_S50_S50x1_0 x (ix2 t u) = x (ix1 t) :=
  broadcastInDim_apply _ bcast_S50_S50x1_0 x _ (ix1 t) (fun a => match a with
    | ⟨0, _⟩ => by show t.val = if (50 : Nat) = 1 then 0 else t.val; rw [if_neg (by decide)])

/-- A column over the tokens spread over the features reads, at (t, k), the column at (t, 0). -/
theorem spread_apply {α : Type} (x : S50x1.Idx → α) (t : Fin 50) (k : Fin 1024) :
    broadcastInDim S50x1024 ![0, 1] bcast_S50x1_S50x1024_0_1 x (ix2 t k) = x (ix2 t (0 : Fin 1)) :=
  broadcastInDim_apply _ bcast_S50x1_S50x1024_0_1 x _ (ix2 t (0 : Fin 1)) (fun a => match a with
    | ⟨0, _⟩ => by show t.val = if (50 : Nat) = 1 then 0 else t.val; rw [if_neg (by decide)]
    | ⟨1, _⟩ => by show 0 = if (1 : Nat) = 1 then 0 else k.val; rw [if_pos rfl])

/-- The divisor of the normalisation at token t: the larger of the root of the row's sum of squares and the small constant. -/
theorem norm_apply (n1 : FVec Ideal S50 .f32) (t : Fin 50) (u : Fin 1) :
    maximumf (Host.sqrt (broadcastInDim S50x1 ![0] bcast_S50_S50x1_0 n1))
      (broadcastInDim S50x1 ![] bcast_S_S50x1 (constant (F := Ideal) S_ .f32 0x2B8CBCCC#32)) (ix2 t u)
      = Cert.Spec.nrm (n1 (ix1 t)) := by
  rw [maximumf_apply, bconst_apply]
  show max (Ideal.sqrt (broadcastInDim S50x1 ![0] bcast_S50_S50x1_0 n1 (ix2 t u))) _ = _
  rw [col_apply]
  rfl

/-- The first length word: the slice of the lengths at caption 0, as a scalar. -/
theorem len_apply (a2 : IVec S1024 32) :
    shapeCast S_ (extractStridedSlice S1 ![0] a2 slices_S1024_S1_0) shapeCasts_S1_S_ ix0 = a2 (ix1 (0 : Fin 1024)) := by
  refine (shapeCast_apply _ shapeCasts_S1_S_ ix0 (ix1 (0 : Fin 1)) ?_).trans ?_
  · have h1 : (S1.rowMajor (ix1 (0 : Fin 1))).val < 1 := (S1.rowMajor (ix1 (0 : Fin 1))).isLt
    have h2 : (S_.rowMajor ix0).val < 1 := (S_.rowMajor ix0).isLt
    omega
  · exact extractStridedSlice_apply _ a2 _ _ _ (fun a => match a with | ⟨0, _⟩ => rfl)

/-- The mask at token t: one if t is below the length word read signed, else zero. -/
theorem mask_apply (l : IVec S_ 32) (t : Fin 50) :
    (uitofp .f32 (cmpi .slt (iotaInDim S50 32 0) (broadcastInDim S50 ![] bcast_S_S50 l)) : FVec Ideal S50 .f32) (ix1 t)
      = Cert.Spec.msk (l ix0) t := by
  show (((IntOp.cmpi .slt (BitVec.ofNat 32 t.val) (broadcastInDim S50 ![] bcast_S_S50 l (ix1 t))).toNat : ℝ) : EReal) = _
  rw [broadcastInDim_scalar_apply]
  rfl

/-- The divisor of the average: the larger of the length word read signed and one. -/
theorem count_apply (l : IVec S_ 32) :
    maximumf (sitofp .f32 l : FVec Ideal S_ .f32) (constant (F := Ideal) S_ .f32 0x3F800000#32) ix0
      = max (Cert.Spec.lenf (l ix0)) Cert.Spec.c1 := rfl

/-- The host-computed query at feature `d`. -/
theorem qTerm_apply (a1 : FVec Ideal S1024x50x1024 .f32) (a2 : IVec S1024 32) (d : Fin 1024) :
    qTerm (F := Ideal) a1 a2 (ix1 d)
      = Cert.Spec.txtK (fun t k => a1 (ix3 (0 : Fin 1024) t k)) (a2 (ix1 (0 : Fin 1024))) d := by
  unfold qTerm
  dsimp only
  rw [hostDivf_apply, broadcastInDim_scalar_apply, count_apply, len_apply, colsum_apply, constant_apply,
    Ideal.ofBits_zero_f32, zero_add]
  unfold Cert.Spec.txtK Cert.Spec.pool
  refine congrArg (Ideal.div · _) (Finset.sum_congr rfl fun t _ => ?_)
  rw [mulf_apply, spread_apply, col_apply, mask_apply, len_apply, hostDivf_apply, spread_apply, norm_apply,
    leaky_apply, rows_apply, rowsum_apply, constant_apply, Ideal.ofBits_zero_f32, zero_add]
  unfold Cert.Spec.rown
  refine congrArg (fun s => Ideal.div _ (Cert.Spec.nrm s) * _) (Finset.sum_congr rfl fun k _ => ?_)
  rw [mulf_apply, leaky_apply, rows_apply]

end Cert.KernelIdeal.KBiasQ

end
-- ==== Proof.KBiasVal.lean ====
import proofs.«424796_j87746181857679_3_alg».proof.Proof.KBias
import proofs.«424796_j87746181857679_3_alg».proof.Proof.Spec
import proofs.«424796_j87746181857679_3_alg».proof.Proof.KBiasQ
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

open scoped BigOperators

namespace Cert.KernelIdeal.KBiasVal

open Cert.KernelIdeal Cert.KernelIdeal.Facts₀ Cert.KernelIdeal.Facts Idealize.ShloMosaic Idealize.ShloMosaic.TcCoe Idealize.ShloMosaic.ValueIdx Idealize.SL.Sem
open Idealize.ShloMosaic.Pipeline (Dat Cfg Window)
open Cert.KernelIdeal.KBias Cert.KernelIdeal.KBiasQ

/-- The four coordinates of the two operand indices of the one-row product: the left operand is read at the result's
    row and the contraction coordinate, the right at the contraction coordinate and the result's column. -/
private theorem lhs_0 (i : S1x512.Idx) (q : dot_S1x1024_S1024x512_S1x512_1_0_0_1_n_n.contr.Idx) :
    (dot_S1x1024_S1024x512_S1x512_1_0_0_1_n_n.lhsIdx i q 0).val = (i 0).val := by
  unfold DotDims.lhsIdx
  rw [dif_neg (show ¬(0 : Fin S1x1024.rank) ∈ dot_S1x1024_S1024x512_S1x512_1_0_0_1_n_n.lhsBatch by decide),
    dif_pos (show (0 : Fin S1x1024.rank) ∈ dot_S1x1024_S1024x512_S1x512_1_0_0_1_n_n.lhsNonContracting by decide)]
  rfl
private theorem lhs_1 (i : S1x512.Idx) (q : dot_S1x1024_S1024x512_S1x512_1_0_0_1_n_n.contr.Idx) :
    (dot_S1x1024_S1024x512_S1x512_1_0_0_1_n_n.lhsIdx i q 1).val = (q ⟨0, by decide⟩).val :=
  dot_S1x1024_S1024x512_S1x512_1_0_0_1_n_n.lhsIdx_val_of_single rfl i q
private theorem rhs_0 (i : S1x512.Idx) (q : dot_S1x1024_S1024x512_S1x512_1_0_0_1_n_n.contr.Idx) :
    (dot_S1x1024_S1024x512_S1x512_1_0_0_1_n_n.rhsIdx i q 0).val = (q ⟨0, by decide⟩).val :=
  dot_S1x1024_S1024x512_S1x512_1_0_0_1_n_n.rhsIdx_val_of_single rfl i q
private theorem rhs_1 (i : S1x512.Idx) (q : dot_S1x1024_S1024x512_S1x512_1_0_0_1_n_n.contr.Idx) :
    (dot_S1x1024_S1024x512_S1x512_1_0_0_1_n_n.rhsIdx i q 1).val = (i 1).val := by
  unfold DotDims.rhsIdx
  rw [dif_neg (show ¬(1 : Fin S1024x512.rank) ∈ dot_S1x1024_S1024x512_S1x512_1_0_0_1_n_n.rhsBatch by decide),
    dif_pos (show (1 : Fin S1024x512.rank) ∈ dot_S1x1024_S1024x512_S1x512_1_0_0_1_n_n.rhsNonContracting by decide)]
  rfl

/-- The one-row product at column `h`: the sum over the contracted coordinate of the row's entry times the matrix's. -/
private theorem dot_apply (L : FVec Ideal S1x1024 .f32) (R : FVec Ideal S1024x512 .f32) (h : Fin 512) :
    Host.dotGeneral dot_S1x1024_S1024x512_S1x512_1_0_0_1_n_n (some .fp32) L R (ix2 (0 : Fin 1) h)
      = ∑ f : Fin 1024, L (ix2 (0 : Fin 1) f) * R (ix2 f h) := by
  simp only [Host.dotGeneral]
  rw [Ideal.dotGeneral_apply, ← Equiv.sum_comp (contrEquiv1 dot_S1x1024_S1024x512_S1x512_1_0_0_1_n_n 1024 rfl rfl).symm]
  refine Finset.sum_congr rfl fun k _ => ?_
  have hk := contrEquiv1_symm_val dot_S1x1024_S1024x512_S1x512_1_0_0_1_n_n 1024 rfl rfl k
  have el : dot_S1x1024_S1024x512_S1x512_1_0_0_1_n_n.lhsIdx (ix2 (0 : Fin 1) h)
      ((contrEquiv1 dot_S1x1024_S1024x512_S1x512_1_0_0_1_n_n 1024 rfl rfl).symm k) = ix2 (0 : Fin 1) k :=
    funext fun a => Fin.ext (by
      match a with
      | ⟨0, _⟩ => exact lhs_0 _ _
      | ⟨1, _⟩ => exact (lhs_1 _ _).trans hk)
  have er : dot_S1x1024_S1024x512_S1x512_1_0_0_1_n_n.rhsIdx (ix2 (0 : Fin 1) h)
      ((contrEquiv1 dot_S1x1024_S1024x512_S1x512_1_0_0_1_n_n 1024 rfl rfl).symm k) = ix2 k h :=
    funext fun a => Fin.ext (by
      match a with
      | ⟨0, _⟩ => exact (rhs_0 _ _).trans hk
      | ⟨1, _⟩ => exact rhs_1 _ _)
  rw [el, er]

/-- The bias the second region is given, at hidden unit `h`. -/
theorem biasTerm_apply (a1 : FVec Ideal S1024x50x1024 .f32) (a2 : IVec S1024 32) (a3 : FVec Ideal S512x2048 .f32)
    (a4 : FVec Ideal S512 .f32) (h : Fin 512) :
    biasTerm (F := Ideal) a1 a2 a3 a4 (ix3 (0 : Fin 1) (0 : Fin 1) h)
      = (∑ f : Fin 1024, Cert.Spec.txtK (fun t k => a1 (ix3 (0 : Fin 1024) t k)) (a2 (ix1 (0 : Fin 1024))) f
            * a3 (ix2 h (Fin.castAdd 1024 f))) + a4 (ix1 h) := by
  unfold biasTerm
  refine (shapeCast_ab_1ab_apply _ shapeCasts_S1x512_S1x1x512 (0 : Fin 1) (0 : Fin 1) h).trans ?_
  rw [addf_apply, dot_apply]
  have hb : broadcastInDim S1x512 ![1] bcast_S512_S1x512_1 a4 (ix2 (0 : Fin 1) h) = a4 (ix1 h) :=
    broadcastInDim_apply _ bcast_S512_S1x512_1 a4 _ _ (fun a => match a with
      | ⟨0, _⟩ => rfl)
  rw [hb]
  refine congrArg (· + a4 (ix1 h)) (Finset.sum_congr rfl fun f _ => ?_)
  have hq : broadcastInDim S1x1024 ![1] bcast_S1024_S1x1024_1 (qTerm (F := Ideal) a1 a2) (ix2 (0 : Fin 1) f)
      = qTerm (F := Ideal) a1 a2 (ix1 f) :=
    broadcastInDim_apply _ bcast_S1024_S1x1024_1 _ _ _ (fun a => match a with
      | ⟨0, _⟩ => rfl)
  have hw : transpose S1024x512 [1, 0] (extractStridedSlice S512x1024 ![0, 0] a3 slices_S512x2048_S512x1024_0_0)
      transposes_S512x1024_S1024x512_1_0 (ix2 f h) = a3 (ix2 h (Fin.castAdd 1024 f)) :=
    (transpose_ix2_apply _ transposes_S512x1024_S1024x512_1_0 f h).trans
      (slice2_axis1_apply 0 a3 slices_S512x2048_S512x1024_0_0 h f (Fin.castAdd 1024 f)
        ((Fin.coe_castAdd 1024 f).trans (Nat.zero_add _).symm))
  rw [hq, hw, qTerm_apply]

/-- The transposed second half of the first weight matrix at `(f, h)`. -/
theorem wimgTerm_apply (a3 : FVec Ideal S512x2048 .f32) (f : Fin 1024) (h : Fin 512) :
    wimgTerm (F := Ideal) a3 (ix2 f h) = a3 (ix2 h (Fin.natAdd 1024 f)) := by
  unfold wimgTerm
  refine (transpose_ix2_apply _ transposes_S512x1024_S1024x512_1_0 f h).trans ?_
  exact slice2_axis1_apply 1024 a3 slices_S512x2048_S512x1024_0_1024 h f (Fin.natAdd 1024 f) (Fin.coe_natAdd 1024 f)

end Cert.KernelIdeal.KBiasVal

end
-- ==== Proof.KVal.lean ====
import proofs.«424796_j87746181857679_3_alg».proof.Proof.Gen.KernelIdeal.Frame
import proofs.«424796_j87746181857679_3_alg».proof.Proof.Spec
import proofs.«424796_j87746181857679_3_alg».proof.Proof.KTxt
import proofs.«424796_j87746181857679_3_alg».proof.Proof.KSim
import proofs.«424796_j87746181857679_3_alg».proof.Proof.KHost
import proofs.«424796_j87746181857679_3_alg».proof.Proof.KBiasVal
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

open scoped BigOperators

namespace Cert.KernelIdeal.KVal

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.KernelIdeal.KBias

/-! The kernel program's result array as one function of the launch memory: the second region's output at the
    contents its entry finds, which the host operations between the regions and the first region's output fix. -/

/-- A vector cast to a column reads, at `(n, 0)`, the vector at `n`. -/
theorem cast_col (x : IVec S1024 32) (n : Fin 1024) :
    (shapeCast S1024x1 x shapeCasts_S1024_S1024x1 : IVec S1024x1 32) (ix2 n (0 : Fin 1)) = x (ix1 n) :=
  shapeCast_apply x _ _ _ (by rw [Shape.rowMajor_val_one, Shape.rowMajor_val_two]; show n.val = n.val * 1 + 0; omega)

/-- A one-element vector cast to `[1, 1, 1]` reads its one element. -/
theorem cast_one (x : FVec Ideal S1 .f32) :
    (shapeCast S1x1x1 x shapeCasts_S1_S1x1x1 : FVec Ideal S1x1x1 .f32) (ix3 (0 : Fin 1) (0 : Fin 1) (0 : Fin 1)) = x (ix1 (0 : Fin 1)) :=
  shapeCast_apply x _ _ _ (by rw [Shape.rowMajor_val_one, Shape.rowMajor_val_three]; rfl)

/-- A row cast to `[1, 1, 512]` reads, at `(0, 0, h)`, the row at `(0, h)`. -/
theorem cast_row (x : FVec Ideal S1x512 .f32) (h : Fin 512) :
    (shapeCast S1x1x512 x shapeCasts_S1x512_S1x1x512 : FVec Ideal S1x1x512 .f32) (ix3 (0 : Fin 1) (0 : Fin 1) h) = x (ix2 (0 : Fin 1) h) :=
  shapeCast_ab_1ab_apply x _ 0 0 h

variable (m : (ℓ : Loc nD τ sig) → Buf (Elt Ideal) ℓ) (ρ : Dev nD → PrngReg)

/-- The seven argument arrays as launched, at their literal types. -/
abbrev A0 (c : Dev nD) : FVec Ideal S1024x36x1024 .f32 := m ((c.tc : Thread nD τ).loc main_arg0)
abbrev A1 (c : Dev nD) : FVec Ideal S1024x50x1024 .f32 := m ((c.tc : Thread nD τ).loc main_arg1)
abbrev A2 (c : Dev nD) : IVec S1024 32 := m ((c.tc : Thread nD τ).loc main_arg2)
abbrev A3 (c : Dev nD) : FVec Ideal S512x2048 .f32 := m ((c.tc : Thread nD τ).loc main_arg3)
abbrev A4 (c : Dev nD) : FVec Ideal S512 .f32 := m ((c.tc : Thread nD τ).loc main_arg4)
abbrev A5 (c : Dev nD) : FVec Ideal S1x512 .f32 := m ((c.tc : Thread nD τ).loc main_arg5)
abbrev A6 (c : Dev nD) : FVec Ideal S1 .f32 := m ((c.tc : Thread nD τ).loc main_arg6)

/-- The result array at the last boundary, image `i` against caption `n`. -/
theorem result_apply (c : Dev nD) (i n : Fin 1024) :
    (W7 m ρ c (Proc.devRef .tc main_v41) : FVec Ideal S1024x1024 .f32) (ix2 i n)
      = Cert.Spec.simK (fun i r d => A0 m c (ix3 i r d)) (fun b t d => A1 m c (ix3 b t d)) (fun b => A2 m c (ix1 b))
          (fun h f => A3 m c (ix2 h f)) (fun h => A4 m c (ix1 h)) (fun h => A5 m c (ix2 (0 : Fin 1) h))
          (A6 m c (ix1 (0 : Fin 1))) i n := by
  have e : W7 m ρ c (Proc.devRef .tc main_v41) = (dat1 (F := Ideal) (V6 m ρ) c).arrAt 6 cfg1.N := W7_arr m ρ c 6
  rw [e]
  rw [KSim.arr1_apply (V6 m ρ) c _ _ _ _ _ _ (KHost.V6_arg0 m ρ c) (KHost.V6_v38 m ρ c) (KHost.V6_v37 m ρ c)
    (KHost.V6_v39 m ρ c) (KHost.V6_v40 m ρ c) (KHost.V6_v1 m ρ c) i n]
  unfold Cert.Spec.simK
  congr 1
  · funext r h
    unfold Cert.Spec.hpK
    rw [KBiasVal.biasTerm_apply]
    congr 1
    exact Finset.sum_congr rfl fun f _ => by rw [KBiasVal.wimgTerm_apply]
  · funext h; exact cast_row _ h
  · exact cast_one _
  · funext d
    rw [KTxt.arr0_apply (V1 m ρ) c _ _ (KHost.V1_v0 m ρ c) (KHost.V1_arg1 m ρ c) n d, cast_col]

end Cert.KernelIdeal.KVal

end
-- ==== Proof.RTxt.lean ====
/-
  The reference's caption side, entry by entry. A caption entry goes through the leaky map; a token row's divisor is
  the larger of the square root of its sum of squares and the small constant; a token is valid when its number is
  below the length word, read signed; the valid tokens' normalised rows are summed and the sum is divided by the
  length. The average's own sum of squares, square root and lower bound give the second divisor, and the result is
  read with its two coordinates exchanged.
-/
import proofs.«424796_j87746181857679_3_alg».proof.Proof.Gen.ReferenceIdeal.Read
import proofs.«424796_j87746181857679_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

open scoped BigOperators

namespace Cert.ReferenceIdeal.RTxt

open Cert.ReferenceIdeal Cert.ReferenceIdeal.Gen Cert.ReferenceIdeal.Read Idealize.ShloMosaic Idealize.ShloMosaic.TcCoe Idealize.ShloMosaic.ValueIdx Idealize.SL.Sem

/-- The leaky map of a caption entry. -/
theorem v4_at (x1 : (⟨S1024x50x1024, .f32⟩ : BufTy).Contents (Elt Ideal)) (n : Fin 1024) (t : Fin 50) (k : Fin 1024) :
    val_main_v4 (F := Ideal) x1 (ix3 n t k) = Cert.Spec.lk (x1 (ix3 n t k)) := by
  rw [val_main_v4_apply, val_main_v1_apply, val_main_v3_apply, val_main_v0_apply, val_main_v2_apply,
    val_main_cst_apply, val_main_cst_0_apply]
  rfl

/-- The sum of squares of a token row after the leaky map. -/
theorem ss_at (x1 : (⟨S1024x50x1024, .f32⟩ : BufTy).Contents (Elt Ideal)) (n : Fin 1024) (t : Fin 50) :
    val_main_call1_v1 (F := Ideal) x1 (ix2 n t)
      = ∑ k : Fin 1024, Cert.Spec.lk (x1 (ix3 n t k)) * Cert.Spec.lk (x1 (ix3 n t k)) := by
  rw [val_main_call1_v1_apply, val_main_call1_cst_apply, Ideal.ofBits_def, Ideal.ofBits_zero_f32, zero_add]
  refine Finset.sum_congr rfl fun k _ => ?_
  have h : idx_main_call1_v1 (ix2 n t) k = ix3 n t k := by
    funext a; match a with | ⟨0, _⟩ => rfl | ⟨1, _⟩ => rfl | ⟨2, _⟩ => rfl
  rw [h, val_main_call1_v0_apply, v4_at, Ideal.mulf_def]

/-- The divisor of a token row's normalisation. -/
theorem v6_at (x1 : (⟨S1024x50x1024, .f32⟩ : BufTy).Contents (Elt Ideal)) (n : Fin 1024) (t : Fin 50) (z : Fin 1) :
    val_main_v6 (F := Ideal) x1 (ix3 n t z)
      = Cert.Spec.nrm (∑ k : Fin 1024, Cert.Spec.lk (x1 (ix3 n t k)) * Cert.Spec.lk (x1 (ix3 n t k))) := by
  rw [val_main_v6_apply, val_main_call2_v1_apply, val_main_call2_v0_apply, val_main_cst_1_apply, val_main_v5_apply,
    val_main_call1_v2_apply]
  have h : idx_main_call1_v2 (ix3 n t z) = ix2 n t := by
    funext a; match a with | ⟨0, _⟩ => rfl | ⟨1, _⟩ => rfl
  rw [h, ss_at, Ideal.maximumf_def, Ideal.hostUnary_sqrt_def, Ideal.ofBits_def, max_comm]
  rfl

/-- A normalised token row. -/
theorem v8_at (x1 : (⟨S1024x50x1024, .f32⟩ : BufTy).Contents (Elt Ideal)) (n : Fin 1024) (t : Fin 50) (d : Fin 1024) :
    val_main_v8 (F := Ideal) x1 (ix3 n t d) = Cert.Spec.rown (fun k => x1 (ix3 n t k)) d := by
  rw [val_main_v8_apply, val_main_v7_apply, v4_at]
  have h : idx_main_v7 (ix3 n t d) = ix3 n t (⟨0, Nat.one_pos⟩ : Fin 1) := by
    funext a; match a with | ⟨0, _⟩ => rfl | ⟨1, _⟩ => rfl | ⟨2, _⟩ => rfl
  rw [h, v6_at, Ideal.hostDivf_def]
  rfl

/-- The validity mark of a token. -/
theorem v26_at (x2 : (⟨S1024, .i32⟩ : BufTy).Contents (Elt Ideal)) (n : Fin 1024) (t : Fin 50) (d : Fin 1024) :
    val_main_v26 (F := Ideal) x2 (ix3 n t d) = Cert.Spec.msk (x2 (ix1 n)) t := by
  rw [val_main_v26_apply, val_main_v25_apply, val_main_v24_apply, val_main_v23_apply, val_main_v21_apply,
    val_main_v19_apply, val_main_v18_apply, val_main_v22_apply, val_main_v20_apply]
  have h : idx_main_v20 (idx_main_v22 (idx_main_v25 (idx_main_v26 (ix3 n t d)))) = ix1 n := by
    funext a; match a with | ⟨0, _⟩ => rfl
  rw [h]
  rfl

/-- The masked sum over tokens. -/
theorem v28_at (x1 : (⟨S1024x50x1024, .f32⟩ : BufTy).Contents (Elt Ideal)) (x2 : (⟨S1024, .i32⟩ : BufTy).Contents (Elt Ideal)) (n d : Fin 1024) :
    val_main_v28 (F := Ideal) x1 x2 (ix2 n d) = Cert.Spec.pool (fun t k => x1 (ix3 n t k)) (x2 (ix1 n)) d := by
  rw [val_main_v28_apply, val_main_cst_5_apply, Ideal.ofBits_def, Ideal.ofBits_zero_f32, zero_add]
  unfold Cert.Spec.pool
  refine Finset.sum_congr rfl fun t _ => ?_
  have h : idx_main_v28 (ix2 n d) t = ix3 n t d := by
    funext a; match a with | ⟨0, _⟩ => rfl | ⟨1, _⟩ => rfl | ⟨2, _⟩ => rfl
  rw [h, val_main_v27_apply, v8_at, v26_at, Ideal.mulf_def]

/-- The length as a number. -/
theorem v31_at (x2 : (⟨S1024, .i32⟩ : BufTy).Contents (Elt Ideal)) (n d : Fin 1024) :
    val_main_v31 (F := Ideal) x2 (ix2 n d) = Cert.Spec.lenf (x2 (ix1 n)) := by
  rw [val_main_v31_apply, val_main_v30_apply, val_main_v29_apply]
  have h : idx_main_v29 (idx_main_v31 (ix2 n d)) = ix1 n := by
    funext a; match a with | ⟨0, _⟩ => rfl
  rw [h]
  rfl

/-- The reference's pooled caption averages. -/
theorem v32_apply (x1 : (⟨S1024x50x1024, .f32⟩ : BufTy).Contents (Elt Ideal)) (x2 : (⟨S1024, .i32⟩ : BufTy).Contents (Elt Ideal)) (n d : Fin 1024) :
    val_main_v32 (F := Ideal) x1 x2 (ix2 n d) = Cert.Spec.txtR (fun t k => x1 (ix3 n t k)) (x2 (ix1 n)) d := by
  rw [val_main_v32_apply, v28_at, v31_at, Ideal.hostDivf_def]
  rfl

/-- The sum of squares of a pooled average. -/
theorem ss9_at (x1 : (⟨S1024x50x1024, .f32⟩ : BufTy).Contents (Elt Ideal)) (x2 : (⟨S1024, .i32⟩ : BufTy).Contents (Elt Ideal)) (n : Fin 1024) :
    val_main_call9_v1 (F := Ideal) x1 x2 (ix1 n)
      = ∑ k : Fin 1024, Cert.Spec.txtR (fun t k => x1 (ix3 n t k)) (x2 (ix1 n)) k
          * Cert.Spec.txtR (fun t k => x1 (ix3 n t k)) (x2 (ix1 n)) k := by
  rw [val_main_call9_v1_apply, val_main_call9_cst_apply, Ideal.ofBits_def, Ideal.ofBits_zero_f32, zero_add]
  refine Finset.sum_congr rfl fun k _ => ?_
  have h : idx_main_call9_v1 (ix1 n) k = ix2 n k := by
    funext a; match a with | ⟨0, _⟩ => rfl | ⟨1, _⟩ => rfl
  rw [h, val_main_call9_v0_apply, v32_apply, Ideal.mulf_def]

/-- The reference's normalised caption averages, transposed. -/
theorem v68_apply (x1 : (⟨S1024x50x1024, .f32⟩ : BufTy).Contents (Elt Ideal)) (x2 : (⟨S1024, .i32⟩ : BufTy).Contents (Elt Ideal)) (d n : Fin 1024) :
    val_main_v68 (F := Ideal) x1 x2 (ix2 d n)
      = Cert.Spec.l2n (Cert.Spec.txtR (fun t k => x1 (ix3 n t k)) (x2 (ix1 n))) d := by
  rw [val_main_v68_apply]
  have h : idx_main_v68 (ix2 d n) = ix2 n d := by
    funext a; match a with | ⟨0, _⟩ => rfl | ⟨1, _⟩ => rfl
  rw [h, val_main_v67_apply, v32_apply, val_main_v66_apply, val_main_v65_apply, val_main_call10_v1_apply,
    val_main_call10_v0_apply, val_main_cst_11_apply, val_main_v64_apply, val_main_call9_v2_apply]
  have h2 : idx_main_call9_v2 (idx_main_v66 (ix2 n d)) = ix1 n := by
    funext a; match a with | ⟨0, _⟩ => rfl
  rw [h2, ss9_at, Ideal.hostDivf_def, Ideal.maximumf_def, Ideal.hostUnary_sqrt_def, Ideal.ofBits_def, max_comm]
  rfl

end Cert.ReferenceIdeal.RTxt

end
-- ==== Proof.RImg.lean ====
import proofs.«424796_j87746181857679_3_alg».proof.Proof.Gen.ReferenceIdeal.Read
import proofs.«424796_j87746181857679_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

open scoped BigOperators

namespace Cert.ReferenceIdeal.RImg

open Cert.ReferenceIdeal Cert.ReferenceIdeal.Gen Cert.ReferenceIdeal.Read Idealize.ShloMosaic Idealize.ShloMosaic.TcCoe Idealize.ShloMosaic.ValueIdx Idealize.SL.Sem

/-- The leaky map read at one entry: the comparison with zero selects the entry or a tenth of it. -/
theorem v13_apply (x0 : (⟨S1024x36x1024, .f32⟩ : BufTy).Contents (Elt Ideal)) (j : S1024x36x1024.Idx) :
    val_main_v13 (F := Ideal) x0 j = Cert.Spec.lk (x0 j) := by
  rw [val_main_v13_apply, val_main_v10_apply, val_main_v12_apply, val_main_v9_apply, val_main_v11_apply,
    val_main_cst_2_apply, val_main_cst_3_apply]
  rfl

/-- The sum of squares over the feature axis of the mapped row. -/
theorem call4_v1_apply (x0 : (⟨S1024x36x1024, .f32⟩ : BufTy).Contents (Elt Ideal)) (i : Fin 1024) (r : Fin 36) :
    val_main_call4_v1 (F := Ideal) x0 (ix2 i r)
      = ∑ k : Fin 1024, Cert.Spec.lk (x0 (ix3 i r k)) * Cert.Spec.lk (x0 (ix3 i r k)) := by
  rw [val_main_call4_v1_apply, val_main_call4_cst_apply]
  rw [Ideal.ofBits_def, Ideal.ofBits_zero_f32, zero_add]
  refine Finset.sum_congr rfl fun k _ => ?_
  have hk : idx_main_call4_v1 (ix2 i r) k = ix3 i r k :=
    funext fun a => Fin.ext (by match a with | ⟨0, _⟩ => rfl | ⟨1, _⟩ => rfl | ⟨2, _⟩ => rfl)
  rw [hk, val_main_call4_v0_apply, v13_apply]
  rfl

/-- The divisor of the row: the square root of the sum of squares, clipped below by the small constant. The clip
    takes the constant first; the larger of two numbers does not depend on their order. -/
theorem v15_apply (x0 : (⟨S1024x36x1024, .f32⟩ : BufTy).Contents (Elt Ideal)) (i : Fin 1024) (r : Fin 36) (z : Fin 1) :
    val_main_v15 (F := Ideal) x0 (ix3 i r z)
      = Cert.Spec.nrm (∑ k : Fin 1024, Cert.Spec.lk (x0 (ix3 i r k)) * Cert.Spec.lk (x0 (ix3 i r k))) := by
  rw [val_main_v15_apply, val_main_call5_v1_apply, val_main_call5_v0_apply, val_main_cst_4_apply,
    val_main_v14_apply, val_main_call4_v2_apply]
  have hj : idx_main_call4_v2 (ix3 i r z) = ix2 i r :=
    funext fun a => Fin.ext (by match a with | ⟨0, _⟩ => rfl | ⟨1, _⟩ => rfl)
  rw [hj, call4_v1_apply, Ideal.hostUnary_sqrt_def, Ideal.maximumf_def, Ideal.ofBits_def]
  unfold Cert.Spec.nrm
  exact max_comm _ _

/-- Entry `d` of region `r` of image `i`: the mapped entry over the row's divisor. -/
theorem v17_apply (x0 : (⟨S1024x36x1024, .f32⟩ : BufTy).Contents (Elt Ideal)) (i : Fin 1024) (r : Fin 36) (d : Fin 1024) :
    val_main_v17 (F := Ideal) x0 (ix3 i r d) = Cert.Spec.rown (fun k => x0 (ix3 i r k)) d := by
  rw [val_main_v17_apply, val_main_v16_apply, v13_apply]
  have hj : idx_main_v16 (ix3 i r d) = ix3 i r (⟨0, Nat.one_pos⟩ : Fin 1) :=
    funext fun a => Fin.ext (by match a with | ⟨0, _⟩ => rfl | ⟨1, _⟩ => rfl | ⟨2, _⟩ => rfl)
  rw [hj, v15_apply, Ideal.hostDivf_def]
  rfl

end Cert.ReferenceIdeal.RImg

end
-- ==== Proof.RAttn.lean ====
import proofs.«424796_j87746181857679_3_alg».proof.Proof.Gen.ReferenceIdeal.Read
import proofs.«424796_j87746181857679_3_alg».proof.Proof.Spec
import proofs.«424796_j87746181857679_3_alg».proof.Proof.RTxt
import proofs.«424796_j87746181857679_3_alg».proof.Proof.RImg
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

open scoped BigOperators

namespace Cert.ReferenceIdeal.RAttn

open Cert.ReferenceIdeal Cert.ReferenceIdeal.Gen Cert.ReferenceIdeal.Read Idealize.ShloMosaic Idealize.ShloMosaic.TcCoe Idealize.ShloMosaic.ValueIdx Idealize.SL.Sem
open Cert.ReferenceIdeal.RTxt Cert.ReferenceIdeal.RImg

/-- The query broadcast over images and regions: at every image and region, feature `k` of the first caption's average. -/
theorem v35_at (x1 : (⟨S1024x50x1024, .f32⟩ : BufTy).Contents (Elt Ideal)) (x2 : (⟨S1024, .i32⟩ : BufTy).Contents (Elt Ideal)) (i : Fin 1024) (r : Fin 36) (k : Fin 1024) :
    val_main_v35 (F := Ideal) x1 x2 (ix3 i r k) = (Cert.Spec.txtR (fun t k => x1 (ix3 (0 : Fin 1024) t k)) (x2 (ix1 (0 : Fin 1024)))) k := by
  rw [val_main_v35_apply, val_main_v34_apply, val_main_v33_apply]
  have e : idx_main_v33 (idx_main_v34 (idx_main_v35 (ix3 i r k))) = ix2 (0 : Fin 1024) k := by
    funext a
    match a with
    | ⟨0, _⟩ => rfl
    | ⟨1, _⟩ => exact Fin.ext (Nat.mod_eq_of_lt k.isLt)
  rw [e, v32_apply]

/-- The concatenation at a coordinate of its first half is the broadcast query. -/
theorem v36_left (x0 : (⟨S1024x36x1024, .f32⟩ : BufTy).Contents (Elt Ideal)) (x1 : (⟨S1024x50x1024, .f32⟩ : BufTy).Contents (Elt Ideal)) (x2 : (⟨S1024, .i32⟩ : BufTy).Contents (Elt Ideal)) (i : Fin 1024) (r : Fin 36) (k : Fin 1024) :
    val_main_v36 (F := Ideal) x0 x1 x2 (ix3 i r (Fin.castAdd 1024 k)) = val_main_v35 (F := Ideal) x1 x2 (ix3 i r k) := by
  unfold val_main_v36
  exact concatenate_pair_apply_left 2 _ _ concatenates_S1024x36x1024_S1024x36x1024_S1024x36x2048_d2 _ rfl (ix3 i r k)
    (fun b => match b with
      | ⟨0, _⟩ => rfl
      | ⟨1, _⟩ => rfl
      | ⟨2, _⟩ => rfl)

/-- The concatenation at a coordinate of its second half is the region's normalised features. -/
theorem v36_right (x0 : (⟨S1024x36x1024, .f32⟩ : BufTy).Contents (Elt Ideal)) (x1 : (⟨S1024x50x1024, .f32⟩ : BufTy).Contents (Elt Ideal)) (x2 : (⟨S1024, .i32⟩ : BufTy).Contents (Elt Ideal)) (i : Fin 1024) (r : Fin 36) (k : Fin 1024) :
    val_main_v36 (F := Ideal) x0 x1 x2 (ix3 i r (Fin.natAdd 1024 k)) = val_main_v17 (F := Ideal) x0 (ix3 i r k) := by
  unfold val_main_v36
  exact concatenate_pair_apply_right 2 _ _ concatenates_S1024x36x1024_S1024x36x1024_S1024x36x2048_d2 _ rfl rfl (ix3 i r k)
    (fun b hb => match b, hb with
      | ⟨0, _⟩, _ => rfl
      | ⟨1, _⟩, _ => rfl
      | ⟨2, _⟩, hb => absurd rfl hb)
    (by show k.val + 1024 = 1024 + k.val; omega)

/-- The concatenation along the feature axis is the appended pair: the query, then the region's features. -/
theorem v36_at (x0 : (⟨S1024x36x1024, .f32⟩ : BufTy).Contents (Elt Ideal)) (x1 : (⟨S1024x50x1024, .f32⟩ : BufTy).Contents (Elt Ideal)) (x2 : (⟨S1024, .i32⟩ : BufTy).Contents (Elt Ideal)) (i : Fin 1024) (r : Fin 36) (k : Fin (1024 + 1024)) :
    val_main_v36 (F := Ideal) x0 x1 x2 (ix3 i r k) = Fin.append (Cert.Spec.txtR (fun t k => x1 (ix3 (0 : Fin 1024) t k)) (x2 (ix1 (0 : Fin 1024)))) (fun d => Cert.Spec.rown (fun k => x0 (ix3 i r k)) d) k := by
  induction k using Fin.addCases with
  | left k => rw [Fin.append_left]; exact (v36_left x0 x1 x2 i r k).trans (v35_at x1 x2 i r k)
  | right k => rw [Fin.append_right]; exact (v36_right x0 x1 x2 i r k).trans (v17_apply x0 i r k)

/-- The first layer's product at hidden unit `h`: the sum over the 2048 joined features. -/
theorem v37_at (x0 : (⟨S1024x36x1024, .f32⟩ : BufTy).Contents (Elt Ideal)) (x1 : (⟨S1024x50x1024, .f32⟩ : BufTy).Contents (Elt Ideal)) (x2 : (⟨S1024, .i32⟩ : BufTy).Contents (Elt Ideal)) (x3 : (⟨S512x2048, .f32⟩ : BufTy).Contents (Elt Ideal)) (i : Fin 1024) (r : Fin 36) (h : Fin 512) :
    val_main_v37 (F := Ideal) x0 x1 x2 x3 (ix3 i r h)
      = ∑ f : Fin (1024 + 1024), Fin.append (Cert.Spec.txtR (fun t k => x1 (ix3 (0 : Fin 1024) t k)) (x2 (ix1 (0 : Fin 1024)))) (fun d => Cert.Spec.rown (fun k => x0 (ix3 i r k)) d) f * x3 (ix2 h f) := by
  rw [val_main_v37_apply]
  refine Finset.sum_congr rfl fun k _ => ?_
  have el : lidx_main_v37 (ix3 i r h) k = ix3 i r k := by
    funext a
    match a with
    | ⟨0, _⟩ => rfl
    | ⟨1, _⟩ => rfl
    | ⟨2, _⟩ => rfl
  have er : ridx_main_v37 (ix3 i r h) k = ix2 h k := by
    funext a
    match a with
    | ⟨0, _⟩ => rfl
    | ⟨1, _⟩ => rfl
  rw [el, er]
  exact congrArg (· * x3 (ix2 h k)) (v36_at x0 x1 x2 i r k)

/-- The reference's logit of region `r` of image `i`. -/
theorem v45_apply (x0 : (⟨S1024x36x1024, .f32⟩ : BufTy).Contents (Elt Ideal)) (x1 : (⟨S1024x50x1024, .f32⟩ : BufTy).Contents (Elt Ideal)) (x2 : (⟨S1024, .i32⟩ : BufTy).Contents (Elt Ideal))
    (x3 : (⟨S512x2048, .f32⟩ : BufTy).Contents (Elt Ideal)) (x4 : (⟨S512, .f32⟩ : BufTy).Contents (Elt Ideal)) (x5 : (⟨S1x512, .f32⟩ : BufTy).Contents (Elt Ideal)) (x6 : (⟨S1, .f32⟩ : BufTy).Contents (Elt Ideal)) (i : Fin 1024) (r : Fin 36) :
    val_main_v45 (F := Ideal) x0 x1 x2 x3 x4 x5 x6 (ix3 i r (0 : Fin 1))
      = Cert.Spec.lgt (Cert.Spec.hpR (Cert.Spec.txtR (fun t k => x1 (ix3 (0 : Fin 1024) t k)) (x2 (ix1 (0 : Fin 1024))))
            (fun d => Cert.Spec.rown (fun k => x0 (ix3 i r k)) d) (fun h f => x3 (ix2 h f)) (fun h => x4 (ix1 h)))
          (fun h => x5 (ix2 (0 : Fin 1) h)) (x6 (ix1 (0 : Fin 1))) := by
  rw [val_main_v45_apply, val_main_v42_apply, val_main_v44_apply, val_main_v43_apply, Ideal.addf_def]
  unfold Cert.Spec.lgt
  congr 1
  · refine Finset.sum_congr rfl fun h _ => ?_
    have el : lidx_main_v42 (ix3 i r (0 : Fin 1)) h = ix3 i r h := by
      funext a
      match a with
      | ⟨0, _⟩ => rfl
      | ⟨1, _⟩ => rfl
      | ⟨2, _⟩ => rfl
    have er : ridx_main_v42 (ix3 i r (0 : Fin 1)) h = ix2 (0 : Fin 1) h := by
      funext a
      match a with
      | ⟨0, _⟩ => rfl
      | ⟨1, _⟩ => rfl
    have eb : idx_main_v38 (idx_main_v39 (ix3 i r h)) = ix1 h := by
      funext a
      match a with
      | ⟨0, _⟩ => rfl
    rw [el, er, val_main_v41_apply, val_main_v40_apply, val_main_call6_v0_apply, val_main_call6_cst_apply,
      val_main_v39_apply, val_main_v38_apply, v37_at, Ideal.maximumf_def, Ideal.addf_def, eb]
    rfl
  · have ec : idx_main_v43 (idx_main_v44 (ix3 i r (0 : Fin 1))) = ix1 (0 : Fin 1) := by
      funext a
      match a with
      | ⟨0, _⟩ => rfl
    rw [ec]

end Cert.ReferenceIdeal.RAttn

end
-- ==== Proof.RSoft.lean ====
import proofs.«424796_j87746181857679_3_alg».proof.Proof.Gen.ReferenceIdeal.Read
import proofs.«424796_j87746181857679_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

open scoped BigOperators

namespace Cert.ReferenceIdeal.RSoft

open Cert.ReferenceIdeal Cert.ReferenceIdeal.Gen Cert.ReferenceIdeal.Read Idealize.ShloMosaic Idealize.ShloMosaic.TcCoe Idealize.ShloMosaic.ValueIdx Idealize.SL.Sem

/-- The largest of image `i`'s thirty-six logits, never below minus infinity. -/
private def mx (x0 : (⟨S1024x36x1024, .f32⟩ : BufTy).Contents (Elt Ideal)) (x1 : (⟨S1024x50x1024, .f32⟩ : BufTy).Contents (Elt Ideal)) (x2 : (⟨S1024, .i32⟩ : BufTy).Contents (Elt Ideal))
    (x3 : (⟨S512x2048, .f32⟩ : BufTy).Contents (Elt Ideal)) (x4 : (⟨S512, .f32⟩ : BufTy).Contents (Elt Ideal)) (x5 : (⟨S1x512, .f32⟩ : BufTy).Contents (Elt Ideal)) (x6 : (⟨S1, .f32⟩ : BufTy).Contents (Elt Ideal)) (i : Fin 1024) : EReal :=
  (Finset.univ : Finset (Fin 36)).fold max Cert.Spec.cninf
    (fun r' => val_main_v45 (F := Ideal) x0 x1 x2 x3 x4 x5 x6 (ix3 i r' (0 : Fin 1)))

/-- The reduction over the region axis is the fold of the maximum over the thirty-six regions, from minus infinity. -/
private theorem v46_apply (x0 : (⟨S1024x36x1024, .f32⟩ : BufTy).Contents (Elt Ideal)) (x1 : (⟨S1024x50x1024, .f32⟩ : BufTy).Contents (Elt Ideal)) (x2 : (⟨S1024, .i32⟩ : BufTy).Contents (Elt Ideal))
    (x3 : (⟨S512x2048, .f32⟩ : BufTy).Contents (Elt Ideal)) (x4 : (⟨S512, .f32⟩ : BufTy).Contents (Elt Ideal)) (x5 : (⟨S1x512, .f32⟩ : BufTy).Contents (Elt Ideal)) (x6 : (⟨S1, .f32⟩ : BufTy).Contents (Elt Ideal)) (i : Fin 1024) :
    val_main_v46 (F := Ideal) x0 x1 x2 x3 x4 x5 x6 (ix2 i (0 : Fin 1)) = mx x0 x1 x2 x3 x4 x5 x6 i := by
  unfold val_main_v46 mx
  generalize val_main_v45 (F := Ideal) x0 x1 x2 x3 x4 x5 x6 = y
  have hR : S1024x36x1.Reduces [1] S1024x1 := by decide
  refine (Host.reduce_eq_fold_single (FloatOps.maximumf (F := Ideal) (φ := .f32)) y (val_main_cst_6 (F := Ideal))
    reducesTo_S1024x36x1_S1024x1_d1 hR h_S_ (ix2 i (0 : Fin 1))).trans ?_
  show (Finset.univ : Finset (Fin 36)).fold max Cert.Spec.cninf (y ∘ hR.lift (ix2 i (0 : Fin 1))) = _
  refine congrArg (fun f => (Finset.univ : Finset (Fin 36)).fold max Cert.Spec.cninf f) (funext fun k => ?_)
  exact congrArg y (funext fun a => Fin.ext (by match a with | ⟨0, _⟩ => rfl | ⟨1, _⟩ => rfl | ⟨2, _⟩ => rfl))

/-- The larger of minus infinity and that maximum is the maximum: a fold of the maximum is at least where it starts. -/
private theorem v48_apply (x0 : (⟨S1024x36x1024, .f32⟩ : BufTy).Contents (Elt Ideal)) (x1 : (⟨S1024x50x1024, .f32⟩ : BufTy).Contents (Elt Ideal)) (x2 : (⟨S1024, .i32⟩ : BufTy).Contents (Elt Ideal))
    (x3 : (⟨S512x2048, .f32⟩ : BufTy).Contents (Elt Ideal)) (x4 : (⟨S512, .f32⟩ : BufTy).Contents (Elt Ideal)) (x5 : (⟨S1x512, .f32⟩ : BufTy).Contents (Elt Ideal)) (x6 : (⟨S1, .f32⟩ : BufTy).Contents (Elt Ideal)) (i : Fin 1024) :
    val_main_v48 (F := Ideal) x0 x1 x2 x3 x4 x5 x6 (ix2 i (0 : Fin 1)) = mx x0 x1 x2 x3 x4 x5 x6 i := by
  rw [val_main_v48_apply, val_main_v47_apply, val_main_cst_7_apply, v46_apply]
  show max Cert.Spec.cninf (mx x0 x1 x2 x3 x4 x5 x6 i) = mx x0 x1 x2 x3 x4 x5 x6 i
  exact max_eq_right ((Finset.le_fold_max _).2 (Or.inl le_rfl))

/-- Spread back over the regions, every region of image `i` sees that maximum. -/
private theorem v50_apply (x0 : (⟨S1024x36x1024, .f32⟩ : BufTy).Contents (Elt Ideal)) (x1 : (⟨S1024x50x1024, .f32⟩ : BufTy).Contents (Elt Ideal)) (x2 : (⟨S1024, .i32⟩ : BufTy).Contents (Elt Ideal))
    (x3 : (⟨S512x2048, .f32⟩ : BufTy).Contents (Elt Ideal)) (x4 : (⟨S512, .f32⟩ : BufTy).Contents (Elt Ideal)) (x5 : (⟨S1x512, .f32⟩ : BufTy).Contents (Elt Ideal)) (x6 : (⟨S1, .f32⟩ : BufTy).Contents (Elt Ideal)) (i : Fin 1024) (r : Fin 36) :
    val_main_v50 (F := Ideal) x0 x1 x2 x3 x4 x5 x6 (ix3 i r (0 : Fin 1)) = mx x0 x1 x2 x3 x4 x5 x6 i := by
  rw [val_main_v50_apply, val_main_v49_apply, ← v48_apply]
  exact congrArg (val_main_v48 (F := Ideal) x0 x1 x2 x3 x4 x5 x6)
    (funext fun a => Fin.ext (by match a with | ⟨0, _⟩ => rfl | ⟨1, _⟩ => rfl))

/-- The exponential of a logit less the maximum. -/
private theorem v52_apply (x0 : (⟨S1024x36x1024, .f32⟩ : BufTy).Contents (Elt Ideal)) (x1 : (⟨S1024x50x1024, .f32⟩ : BufTy).Contents (Elt Ideal)) (x2 : (⟨S1024, .i32⟩ : BufTy).Contents (Elt Ideal))
    (x3 : (⟨S512x2048, .f32⟩ : BufTy).Contents (Elt Ideal)) (x4 : (⟨S512, .f32⟩ : BufTy).Contents (Elt Ideal)) (x5 : (⟨S1x512, .f32⟩ : BufTy).Contents (Elt Ideal)) (x6 : (⟨S1, .f32⟩ : BufTy).Contents (Elt Ideal)) (i : Fin 1024) (r : Fin 36) :
    val_main_v52 (F := Ideal) x0 x1 x2 x3 x4 x5 x6 (ix3 i r (0 : Fin 1))
      = Ideal.exp (val_main_v45 (F := Ideal) x0 x1 x2 x3 x4 x5 x6 (ix3 i r (0 : Fin 1)) - mx x0 x1 x2 x3 x4 x5 x6 i) := by
  rw [val_main_v52_apply, val_main_v51_apply, v50_apply]
  rfl

/-- The sum of those exponentials over the regions: zero plus the sum. -/
private theorem v53_apply (x0 : (⟨S1024x36x1024, .f32⟩ : BufTy).Contents (Elt Ideal)) (x1 : (⟨S1024x50x1024, .f32⟩ : BufTy).Contents (Elt Ideal)) (x2 : (⟨S1024, .i32⟩ : BufTy).Contents (Elt Ideal))
    (x3 : (⟨S512x2048, .f32⟩ : BufTy).Contents (Elt Ideal)) (x4 : (⟨S512, .f32⟩ : BufTy).Contents (Elt Ideal)) (x5 : (⟨S1x512, .f32⟩ : BufTy).Contents (Elt Ideal)) (x6 : (⟨S1, .f32⟩ : BufTy).Contents (Elt Ideal)) (i : Fin 1024) :
    val_main_v53 (F := Ideal) x0 x1 x2 x3 x4 x5 x6 (ix2 i (0 : Fin 1))
      = ∑ r' : Fin 36, Ideal.exp (val_main_v45 (F := Ideal) x0 x1 x2 x3 x4 x5 x6 (ix3 i r' (0 : Fin 1)) - mx x0 x1 x2 x3 x4 x5 x6 i) := by
  rw [val_main_v53_apply, val_main_cst_8_apply]
  show Ideal.ofBits .f32 0x00000000#32 + _ = _
  rw [Ideal.ofBits_zero_f32, zero_add]
  refine Finset.sum_congr rfl fun k _ => ?_
  rw [← v52_apply]
  exact congrArg (val_main_v52 (F := Ideal) x0 x1 x2 x3 x4 x5 x6)
    (funext fun a => Fin.ext (by match a with | ⟨0, _⟩ => rfl | ⟨1, _⟩ => rfl | ⟨2, _⟩ => rfl))

/-- Spread back over the regions, every region of image `i` sees that sum. -/
private theorem v55_apply (x0 : (⟨S1024x36x1024, .f32⟩ : BufTy).Contents (Elt Ideal)) (x1 : (⟨S1024x50x1024, .f32⟩ : BufTy).Contents (Elt Ideal)) (x2 : (⟨S1024, .i32⟩ : BufTy).Contents (Elt Ideal))
    (x3 : (⟨S512x2048, .f32⟩ : BufTy).Contents (Elt Ideal)) (x4 : (⟨S512, .f32⟩ : BufTy).Contents (Elt Ideal)) (x5 : (⟨S1x512, .f32⟩ : BufTy).Contents (Elt Ideal)) (x6 : (⟨S1, .f32⟩ : BufTy).Contents (Elt Ideal)) (i : Fin 1024) (r : Fin 36) :
    val_main_v55 (F := Ideal) x0 x1 x2 x3 x4 x5 x6 (ix3 i r (0 : Fin 1))
      = ∑ r' : Fin 36, Ideal.exp (val_main_v45 (F := Ideal) x0 x1 x2 x3 x4 x5 x6 (ix3 i r' (0 : Fin 1)) - mx x0 x1 x2 x3 x4 x5 x6 i) := by
  rw [val_main_v55_apply, val_main_v54_apply, ← v53_apply]
  exact congrArg (val_main_v53 (F := Ideal) x0 x1 x2 x3 x4 x5 x6)
    (funext fun a => Fin.ext (by match a with | ⟨0, _⟩ => rfl | ⟨1, _⟩ => rfl))

/-- The reference's softmax weight of region `r` of image `i`, from its logits whatever they are. -/
theorem v56_apply (x0 : (⟨S1024x36x1024, .f32⟩ : BufTy).Contents (Elt Ideal)) (x1 : (⟨S1024x50x1024, .f32⟩ : BufTy).Contents (Elt Ideal)) (x2 : (⟨S1024, .i32⟩ : BufTy).Contents (Elt Ideal))
    (x3 : (⟨S512x2048, .f32⟩ : BufTy).Contents (Elt Ideal)) (x4 : (⟨S512, .f32⟩ : BufTy).Contents (Elt Ideal)) (x5 : (⟨S1x512, .f32⟩ : BufTy).Contents (Elt Ideal)) (x6 : (⟨S1, .f32⟩ : BufTy).Contents (Elt Ideal)) (i : Fin 1024) (r : Fin 36) :
    val_main_v56 (F := Ideal) x0 x1 x2 x3 x4 x5 x6 (ix3 i r (0 : Fin 1))
      = Cert.Spec.smx (fun r' => val_main_v45 (F := Ideal) x0 x1 x2 x3 x4 x5 x6 (ix3 i r' (0 : Fin 1))) r := by
  rw [val_main_v56_apply, v52_apply, v55_apply]
  rfl

end Cert.ReferenceIdeal.RSoft

end
-- ==== Proof.RFinal.lean ====
import proofs.«424796_j87746181857679_3_alg».proof.Proof.Gen.ReferenceIdeal.Read
import proofs.«424796_j87746181857679_3_alg».proof.Proof.Spec
import proofs.«424796_j87746181857679_3_alg».proof.Proof.RTxt
import proofs.«424796_j87746181857679_3_alg».proof.Proof.RAttn
import proofs.«424796_j87746181857679_3_alg».proof.Proof.RImg
import proofs.«424796_j87746181857679_3_alg».proof.Proof.RSoft
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

open scoped BigOperators

namespace Cert.ReferenceIdeal.RFinal

open Cert.ReferenceIdeal Cert.ReferenceIdeal.Gen Cert.ReferenceIdeal.Read Idealize.ShloMosaic Idealize.ShloMosaic.TcCoe Idealize.ShloMosaic.ValueIdx Idealize.SL.Sem
open Cert.ReferenceIdeal.RTxt Cert.ReferenceIdeal.RImg Cert.ReferenceIdeal.RAttn Cert.ReferenceIdeal.RSoft

/-- A feature index's weight index: the same image and region, the one weight column. -/
theorem idx57_ix (i : Fin 1024) (r : Fin 36) (d : Fin 1024) : idx_main_v57 (ix3 i r d) = ix3 i r (0 : Fin 1) := by
  funext a; match a with | ⟨0, _⟩ => rfl | ⟨1, _⟩ => rfl | ⟨2, _⟩ => rfl

/-- Term `r` of the sum over regions at image `i`, feature `d`. -/
theorem idx59_ix (i d : Fin 1024) (r : Fin 36) : idx_main_v59 (ix2 i d) r = ix3 i r d := by
  funext a; match a with | ⟨0, _⟩ => rfl | ⟨1, _⟩ => rfl | ⟨2, _⟩ => rfl

/-- A row's divisor sits in the row's one column. -/
theorem idx62_ix (i d : Fin 1024) : idx_main_v62 (ix2 i d) = ix2 i (0 : Fin 1) := by
  funext a; match a with | ⟨0, _⟩ => rfl | ⟨1, _⟩ => rfl

/-- The one column of row `i` reads the row's sum of squares. -/
theorem idxc7v2_ix (i : Fin 1024) : idx_main_call7_v2 (ix2 i (0 : Fin 1)) = ix1 i := by
  funext a; match a with | ⟨0, _⟩ => rfl

/-- Term `k` of row `i`'s sum of squares. -/
theorem idxc7v1_ix (i k : Fin 1024) : idx_main_call7_v1 (ix1 i) k = ix2 i k := by
  funext a; match a with | ⟨0, _⟩ => rfl | ⟨1, _⟩ => rfl

/-- The weighted sum of the regions' features: zero plus the sum over the regions of weight times feature. -/
theorem v59_apply (x0 : (⟨S1024x36x1024, .f32⟩ : BufTy).Contents (Elt Ideal)) (x1 : (⟨S1024x50x1024, .f32⟩ : BufTy).Contents (Elt Ideal)) (x2 : (⟨S1024, .i32⟩ : BufTy).Contents (Elt Ideal))
    (x3 : (⟨S512x2048, .f32⟩ : BufTy).Contents (Elt Ideal)) (x4 : (⟨S512, .f32⟩ : BufTy).Contents (Elt Ideal)) (x5 : (⟨S1x512, .f32⟩ : BufTy).Contents (Elt Ideal)) (x6 : (⟨S1, .f32⟩ : BufTy).Contents (Elt Ideal)) (i d : Fin 1024) :
    val_main_v59 (F := Ideal) x0 x1 x2 x3 x4 x5 x6 (ix2 i d)
      = Cert.Spec.iout (fun r => val_main_v56 (F := Ideal) x0 x1 x2 x3 x4 x5 x6 (ix3 i r (0 : Fin 1)))
          (fun r k => val_main_v17 (F := Ideal) x0 (ix3 i r k)) d := by
  rw [val_main_v59_apply]
  unfold Cert.Spec.iout
  rw [val_main_cst_9_apply, Ideal.ofBits_def, Ideal.ofBits_zero_f32, zero_add]
  refine Finset.sum_congr rfl fun r _ => ?_
  rw [idx59_ix, val_main_v58_apply, Ideal.mulf_def, val_main_v57_apply, idx57_ix]

/-- The divisor of row `i`: the larger of the small constant and the root of the row's sum of squares. -/
theorem v61_apply (x0 : (⟨S1024x36x1024, .f32⟩ : BufTy).Contents (Elt Ideal)) (x1 : (⟨S1024x50x1024, .f32⟩ : BufTy).Contents (Elt Ideal)) (x2 : (⟨S1024, .i32⟩ : BufTy).Contents (Elt Ideal))
    (x3 : (⟨S512x2048, .f32⟩ : BufTy).Contents (Elt Ideal)) (x4 : (⟨S512, .f32⟩ : BufTy).Contents (Elt Ideal)) (x5 : (⟨S1x512, .f32⟩ : BufTy).Contents (Elt Ideal)) (x6 : (⟨S1, .f32⟩ : BufTy).Contents (Elt Ideal)) (i : Fin 1024) :
    val_main_v61 (F := Ideal) x0 x1 x2 x3 x4 x5 x6 (ix2 i (0 : Fin 1))
      = Cert.Spec.nrm (∑ k : Fin 1024, val_main_v59 (F := Ideal) x0 x1 x2 x3 x4 x5 x6 (ix2 i k)
          * val_main_v59 (F := Ideal) x0 x1 x2 x3 x4 x5 x6 (ix2 i k)) := by
  rw [val_main_v61_apply, Ideal.maximumf_def, val_main_call8_v1_apply, val_main_call8_v0_apply, val_main_cst_10_apply,
    Ideal.ofBits_def, val_main_v60_apply, Ideal.hostUnary_sqrt_def, val_main_call7_v2_apply, idxc7v2_ix,
    val_main_call7_v1_apply, val_main_call7_cst_apply, Ideal.ofBits_def, Ideal.ofBits_zero_f32, zero_add]
  unfold Cert.Spec.nrm
  rw [max_comm]
  refine congrArg (fun s => max (Ideal.sqrt s) _) (Finset.sum_congr rfl fun k _ => ?_)
  rw [idxc7v1_ix, val_main_call7_v0_apply, Ideal.mulf_def]

/-- The reference's normalised attended image, from its softmax weights and normalised region features whatever they are. -/
theorem v63_apply (x0 : (⟨S1024x36x1024, .f32⟩ : BufTy).Contents (Elt Ideal)) (x1 : (⟨S1024x50x1024, .f32⟩ : BufTy).Contents (Elt Ideal)) (x2 : (⟨S1024, .i32⟩ : BufTy).Contents (Elt Ideal))
    (x3 : (⟨S512x2048, .f32⟩ : BufTy).Contents (Elt Ideal)) (x4 : (⟨S512, .f32⟩ : BufTy).Contents (Elt Ideal)) (x5 : (⟨S1x512, .f32⟩ : BufTy).Contents (Elt Ideal)) (x6 : (⟨S1, .f32⟩ : BufTy).Contents (Elt Ideal)) (i d : Fin 1024) :
    val_main_v63 (F := Ideal) x0 x1 x2 x3 x4 x5 x6 (ix2 i d)
      = Cert.Spec.l2n (Cert.Spec.iout (fun r => val_main_v56 (F := Ideal) x0 x1 x2 x3 x4 x5 x6 (ix3 i r (0 : Fin 1)))
          (fun r k => val_main_v17 (F := Ideal) x0 (ix3 i r k))) d := by
  rw [val_main_v63_apply, Ideal.hostDivf_def, val_main_v62_apply, idx62_ix, v61_apply]
  unfold Cert.Spec.l2n
  have h : ∀ k : Fin 1024, val_main_v59 (F := Ideal) x0 x1 x2 x3 x4 x5 x6 (ix2 i k)
      = Cert.Spec.iout (fun r => val_main_v56 (F := Ideal) x0 x1 x2 x3 x4 x5 x6 (ix3 i r (0 : Fin 1)))
          (fun r k => val_main_v17 (F := Ideal) x0 (ix3 i r k)) k := fun k => v59_apply x0 x1 x2 x3 x4 x5 x6 i k
  simp only [h]

/-- Term `k` of the inner product, on the image's side: row `i`, column `k`. -/
theorem lidx69_ix (i n k : Fin 1024) : lidx_main_v69 (ix2 i n) k = ix2 i k := by
  funext a; match a with | ⟨0, _⟩ => rfl | ⟨1, _⟩ => rfl

/-- Term `k` of the inner product, on the captions' side: row `k`, column `n`. -/
theorem ridx69_ix (i n k : Fin 1024) : ridx_main_v69 (ix2 i n) k = ix2 k n := by
  funext a; match a with | ⟨0, _⟩ => rfl | ⟨1, _⟩ => rfl

/-- The reference's result, image `i` against caption `n`. -/
theorem ref_value (x0 : (⟨S1024x36x1024, .f32⟩ : BufTy).Contents (Elt Ideal)) (x1 : (⟨S1024x50x1024, .f32⟩ : BufTy).Contents (Elt Ideal)) (x2 : (⟨S1024, .i32⟩ : BufTy).Contents (Elt Ideal))
    (x3 : (⟨S512x2048, .f32⟩ : BufTy).Contents (Elt Ideal)) (x4 : (⟨S512, .f32⟩ : BufTy).Contents (Elt Ideal)) (x5 : (⟨S1x512, .f32⟩ : BufTy).Contents (Elt Ideal)) (x6 : (⟨S1, .f32⟩ : BufTy).Contents (Elt Ideal)) (i n : Fin 1024) :
    val_main_v69 (F := Ideal) x0 x1 x2 x3 x4 x5 x6 (ix2 i n)
      = Cert.Spec.simR (fun i r d => x0 (ix3 i r d)) (fun b t d => x1 (ix3 b t d)) (fun b => x2 (ix1 b)) (fun h f => x3 (ix2 h f))
          (fun h => x4 (ix1 h)) (fun h => x5 (ix2 (0 : Fin 1) h)) (x6 (ix1 (0 : Fin 1))) i n := by
  rw [val_main_v69_apply]
  unfold Cert.Spec.simR Cert.Spec.core
  refine Finset.sum_congr rfl fun k _ => ?_
  rw [lidx69_ix, ridx69_ix, v63_apply, v68_apply]
  simp only [v56_apply, v45_apply, v17_apply]

end Cert.ReferenceIdeal.RFinal

end
-- ==== Proof.PreLens.lean ====
import proofs.«424796_j87746181857679_3_alg».proof.Proof.Gen.Pre_finite_inputs
import Idealize.ShloMosaic.Lib.ReduceAll
import Idealize.ShloMosaic.Lib.StableHlo.Predicate
import Idealize.ShloMosaic.Lib.ValueIdx
import Idealize.ShloMosaic.Lib.Pipeline.Value
import Idealize.ShloMosaic.Lib.IdealHost

set_option maxRecDepth 16384

noncomputable section

open scoped BigOperators

namespace Cert.Pre_finite_inputs.PreLens

open Cert.Pre_finite_inputs Cert.Pre_finite_inputs.Facts Idealize.ShloMosaic Idealize.ShloMosaic.ValueIdx

/-- The scalar shape has one index. -/
instance subsingleton_scalar_idx : Subsingleton S_.Idx := ⟨fun a b => funext fun d => d.elim0⟩

/-- Where the precondition holds no length word is zero. The precondition is a conjunction whose last conjunct is
    the conjunction over all positions of "the length word here differs from zero"; a conjunction that holds has every
    conjunct holding, and a comparison word for "differs" that is one says the two words differ. -/
theorem lens_ne (a0 : FVec Ideal S1024x36x1024 .f32) (a1 : FVec Ideal S1024x50x1024 .f32) (a2 : IVec S1024 32)
    (a3 : FVec Ideal S512x2048 .f32) (a4 : FVec Ideal S512 .f32) (a5 : FVec Ideal S1x512 .f32) (a6 : FVec Ideal S1 .f32)
    (h : Cert.Pre_finite_inputs.fn (F := Ideal) a0 a1 a2 a3 a4 a5 a6 = fun _ => 1#1) (b : Fin 1024) :
    a2 (ix1 b) ≠ 0#32 := by
  have h0 := congrFun h ValueIdx.ix0
  dsimp only [Cert.Pre_finite_inputs.fn, Cert.Pre_finite_inputs.fn_part1] at h0
  have h1 := (IntOp.andi_eq_one.1 h0).2
  have h2 := Host.reduce_andi_all _ _ _ _ _ h1 (ix1 b)
  have h3 : IntOp.cmpi .ne (a2 (ix1 b)) 0#32 = 1#1 := h2
  exact IntOp.cmpi_ne.1 h3

end Cert.Pre_finite_inputs.PreLens

end
-- ==== Proof.lean ====
/-
  Image–caption similarities by attention pooling: the kernel program against its reference, over the extended reals.

  Both programs normalise every caption's token rows and every image's region rows (the leaky map, then division by
  the larger of the row's Euclidean norm and a small constant), average a caption's rows over the tokens its length
  word marks valid, take the first caption's average as the query of a two-layer attention over each image's regions,
  and pair each image's normalised attended feature with each caption's normalised average by an inner product
  (Proof/Spec.lean states all of it entry by entry).

  The kernel program divides the pooled sum by the larger of the length and one, the reference by the length itself.
  At a length of zero the reference's quotient is zero over zero, which the extended reals answer by a junk value
  that the first caption's row carries into every attention logit; so the claim is stated where no length word is
  zero, and there the two quotients are one number (`Spec.txtK_eq_txtR`: for a negative length no token is valid
  and both quotients are zero over a nonzero number). The kernel program also multiplies the query and the region
  features against the two halves of the first weight matrix apart, where the reference multiplies their
  concatenation against the whole matrix: one sum split in the middle (`Spec.hpK_eq_hpR`). Everything else is the
  same operations on the same numbers, so no finiteness of the inputs is used.

  The kernel program's result array is read off its run (Proof/KRun.lean, Proof/KVal.lean: the second region's
  output over the contents the host operations and the first region leave), the reference's off its generated run
  one operation at a time (Proof/RFinal.lean), and the two are the two spellings `Spec.simK`, `Spec.simR` of one
  function of the arguments.
-/
import proofs.«424796_j87746181857679_3_alg».proof.Defs
import proofs.«424796_j87746181857679_3_alg».proof.Proof.Gen.Kernel
import proofs.«424796_j87746181857679_3_alg».proof.Proof.Gen.Kernel.Skeleton
import proofs.«424796_j87746181857679_3_alg».proof.Proof.Gen.Kernel.Launch
import proofs.«424796_j87746181857679_3_alg».proof.Proof.Gen.Kernel.Points
import proofs.«424796_j87746181857679_3_alg».proof.Proof.Gen.Kernel.Frame
import proofs.«424796_j87746181857679_3_alg».proof.Proof.Gen.KernelIdeal
import proofs.«424796_j87746181857679_3_alg».proof.Proof.Gen.KernelIdeal.Skeleton
import proofs.«424796_j87746181857679_3_alg».proof.Proof.Gen.KernelIdeal.Launch
import proofs.«424796_j87746181857679_3_alg».proof.Proof.Gen.KernelIdeal.Points
import proofs.«424796_j87746181857679_3_alg».proof.Proof.Gen.KernelIdeal.Frame
import proofs.«424796_j87746181857679_3_alg».proof.Proof.Gen.ReferenceIdeal
import proofs.«424796_j87746181857679_3_alg».proof.Proof.Gen.ReferenceIdeal.Run
import proofs.«424796_j87746181857679_3_alg».proof.Proof.Gen.ReferenceIdeal.Read
import proofs.«424796_j87746181857679_3_alg».proof.Proof.Gen.Pre_finite_inputs
import proofs.«424796_j87746181857679_3_alg».proof.Proof.Spec
import proofs.«424796_j87746181857679_3_alg».proof.Proof.KRun
import proofs.«424796_j87746181857679_3_alg».proof.Proof.KVal
import proofs.«424796_j87746181857679_3_alg».proof.Proof.RFinal
import proofs.«424796_j87746181857679_3_alg».proof.Proof.PreLens
import Idealize.ShloMosaic.Adequacy
import Idealize.ShloMosaic.Init

set_option maxRecDepth 16384

noncomputable section

namespace Cert.Proof

open Idealize.ShloMosaic Idealize.ShloMosaic.ValueIdx Idealize.SL.Sem

/-- The word-level kernel program runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does its reading over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as launched: its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments, where no length word is zero, both programs end with one result array:
    entry `(i, n)` is the similarity of image `i` and caption `n`, in the kernel program's spelling and in the
    reference's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W7 m ρ c (Proc.devRef .tc Cert.KernelIdeal.main_v41),
    Cert.KernelIdeal.KRun.run_result m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v69_eq]
  obtain ⟨h0, h1, h2, h3, h4, h5, h6⟩ := hagree c
  rw [h0, h1, h2, h3, h4, h5, h6]
  funext j
  obtain ⟨i, n, rfl⟩ : ∃ (i n : Fin 1024), j = ix2 i n := ⟨j 0, j 1, eq_ix2 j⟩
  refine (Cert.ReferenceIdeal.RFinal.ref_value _ _ _ _ _ _ _ i n).trans ?_
  refine Eq.trans ?_ (Cert.KernelIdeal.KVal.result_apply m ρ c i n).symm
  refine (Cert.Spec.simK_eq_simR _ _ _ (fun b => ?_) _ _ _ _ i n).symm
  exact Cert.Pre_finite_inputs.PreLens.lens_ne _ _ _ _ _ _ _ (hpre c) b

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
